-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100352x128 : Shape := ⟨2, ![100352, 128]⟩
abbrev S100352 : Shape := ⟨1, ![100352]⟩
abbrev S1x100352 : Shape := ⟨2, ![1, 100352]⟩
abbrev S512x128 : Shape := ⟨2, ![512, 128]⟩
abbrev S512x1 : Shape := ⟨2, ![512, 1]⟩
abbrev S1024x128 : Shape := ⟨2, ![1024, 128]⟩
abbrev S1x1024 : Shape := ⟨2, ![1, 1024]⟩
abbrev S512x1024 : Shape := ⟨2, ![512, 1024]⟩
abbrev S512 : Shape := ⟨1, ![512]⟩
abbrev S1x10 : Shape := ⟨2, ![1, 10]⟩
abbrev S512x10 : Shape := ⟨2, ![512, 10]⟩

abbrev nBuf : Space → Nat
  | .hbm => 124
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x128, .f32⟩
  | .hbm, ⟨99, _⟩ => ⟨S1700000x1, .f32⟩
  | .hbm, ⟨100, _⟩ => ⟨S1700000x128, .f32⟩
  | .hbm, ⟨101, _⟩ => ⟨S1700000x128, .f32⟩
  | .hbm, ⟨102, _⟩ => ⟨S_, .f32⟩
  | .hbm, ⟨103, _⟩ => ⟨S100000x128, .f32⟩
  | .hbm, ⟨104, _⟩ => ⟨S1700000x1, .i32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S_, .i32⟩
  | .hbm, ⟨109, _⟩ => ⟨S_, .f32⟩
  | .hbm, ⟨110, _⟩ => ⟨S100352x128, .f32⟩
  | .hbm, ⟨111, _⟩ => ⟨S_, .i32⟩
  | .hbm, ⟨112, _⟩ => ⟨S_, .i32⟩
  | .hbm, ⟨113, _⟩ => ⟨S100352, .i32⟩
  | .hbm, ⟨114, _⟩ => ⟨S1x100352, .i32⟩
  | .hbm, ⟨115, _⟩ => ⟨S512x128, .f32⟩
  | .hbm, ⟨116, _⟩ => ⟨S512x1, .f32⟩
  | .hbm, ⟨117, _⟩ => ⟨S_, .f32⟩
  | .hbm, ⟨118, _⟩ => ⟨S512x1, .f32⟩
  | .hbm, ⟨119, _⟩ => ⟨S512x1, .f32⟩
  | .hbm, ⟨120, _⟩ => ⟨S512x128, .f32⟩
  | .hbm, ⟨121, _⟩ => ⟨S512x128, .f32⟩
  | .hbm, ⟨122, _⟩ => ⟨S1x10, .f32⟩
  | .hbm, ⟨123, _⟩ => ⟨S512x10, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S1024x128, .f32⟩
  | .local _ .vmem, ⟨31, _⟩ => ⟨S1024x128, .f32⟩
  | .local _ .vmem, ⟨32, _⟩ => ⟨S1x1024, .i32⟩
  | .local _ .vmem, ⟨33, _⟩ => ⟨S1x1024, .i32⟩
  | .local _ .vmem, ⟨34, _⟩ => ⟨S512x128, .f32⟩
  | .local _ .vmem, ⟨35, _⟩ => ⟨S512x1, .f32⟩
  | .local _ .vmem, ⟨36, _⟩ => ⟨S512x128, .f32⟩
  | .local _ .vmem, ⟨37, _⟩ => ⟨S128x10, .f32⟩
  | .local _ .vmem, ⟨38, _⟩ => ⟨S1x10, .f32⟩
  | .local _ .vmem, ⟨39, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_15 : Ref sig .tc := ⟨.hbm, 108, rfl⟩
abbrev main_call1_v0 : Ref sig .tc := ⟨.hbm, 109, rfl⟩
abbrev main_v78 : Ref sig .tc := ⟨.hbm, 110, rfl⟩
abbrev main_c_16 : Ref sig .tc := ⟨.hbm, 111, rfl⟩
abbrev main_call2_v0 : Ref sig .tc := ⟨.hbm, 112, rfl⟩
abbrev main_v79 : Ref sig .tc := ⟨.hbm, 113, rfl⟩
abbrev main_v80 : Ref sig .tc := ⟨.hbm, 114, rfl⟩
abbrev main_v81_0 : Ref sig .tc := ⟨.hbm, 115, rfl⟩
abbrev main_v81_1 : Ref sig .tc := ⟨.hbm, 116, rfl⟩
abbrev main_cst_17 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc7_stg0_0 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg3_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35
abbrev cc7_sem0_0 : DmaSem sig := 36
abbrev cc7_sem1_0 : DmaSem sig := 37
abbrev cc7_sem2_0 : DmaSem sig := 38
abbrev cc7_sem3_0 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![98], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1024x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1024 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x10 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  pads_S100000x128_S100352x128_03520_000 : S100000x128.Pads (![0, 0] : Fin 2 → Nat) ![352, 0] ![0, 0] S100352x128
  h_S_ : 0 < S_.numel
  pads_S100000_S100352_03520 : S100000.Pads (![0] : Fin 1 → Nat) ![352] ![0] S100352
  shapeCasts_S100352_S1x100352 : S100352.ShapeCasts S1x100352
  inb_S512x128_S512x128_0_0 : ∀ a, (![0, 0] : Fin 2 → Nat) a + S512x128.size a ≤ S512x128.size a
  h_S512x128 : 0 < S512x128.numel
  inb_S512x1_S512x1_0_0 : ∀ a, (![0, 0] : Fin 2 → Nat) a + S512x1.size a ≤ S512x1.size a
  h_S512x1 : 0 < S512x1.numel
  iota_S512x1024_d0_w32 : S512x1024.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  natLt_1_32 : 1 < 32
  shapeCasts_S512x128_S512x128 : S512x128.ShapeCasts S512x128
  shapeCasts_S512x1_S512x1 : S512x1.ShapeCasts S512x1
  reduces_S512x1024_S512 : S512x1024.Reduces [1] S512
  shapeCasts_S512_S512x1 : S512.ShapeCasts S512x1
  bcast_S_S512x1 : S_.BroadcastsInDim S512x1 (![] : Fin 0 → Fin S512x1.rank)
  bcast_S512x1_S512x128_0_1 : S512x1.BroadcastsInDim S512x128 (![0, 1] : Fin 2 → Fin S512x128.rank)
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  broadcasts_S512x1_S512x10 : S512x1.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S512x1024_S1024x128_S512x128_1_0_0_1_n_n_wf : DotDims.WF S512x1024 S1024x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S100352x128.size a
  hwx6_0 : ∀ i : grid6.Coords, EltTy.bits .f32 = 32 ∨ (Rect.block (s := S100352x128) S1024x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1024.size a ≤ S1x100352.size a
  hwx6_1 : ∀ i : grid6.Coords, EltTy.bits .i32 = 32 ∨ (Rect.block (s := S1x100352) S1x1024.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x1.size a ≤ S512x1.size a
  hwx6_3 : ∀ i : grid6.Coords, EltTy.bits .f32 = 32 ∨ (Rect.block (s := S512x1) S512x1.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x128.size a ≤ S512x128.size a
  hwx7_0 : ∀ i : grid7.Coords, EltTy.bits .f32 = 32 ∨ (Rect.block (s := S512x128) S512x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x10.size a ≤ S128x10.size a
  hwx7_1 : ∀ i : grid7.Coords, EltTy.bits .f32 = 32 ∨ (Rect.block (s := S128x10) S128x10.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x10.size a ≤ S1x10.size a
  hwx7_2 : ∀ i : grid7.Coords, EltTy.bits .f32 = 32 ∨ (Rect.block (s := S1x10) S1x10.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x10.size a ≤ S512x10.size a
  hwx7_3 : ∀ i : grid7.Coords, EltTy.bits .f32 = 32 ∨ (Rect.block (s := S512x10) S512x10.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v78) S1024x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80) S1x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v81_0) S512x128.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v81_1) S512x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v85) S512x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v86) S1x10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v87) S512x10.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 224
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x128, .f32⟩
  | 120 => ⟨S1700000x1, .f32⟩
  | 121 => ⟨S1700000x128, .f32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S100000, .i32⟩
  | 7 => ⟨S1700000, .i32⟩
  | 8 => ⟨S1700000, .i32⟩
  | 9 => ⟨S_, .f32⟩
  | 10 => ⟨S1700000, .f32⟩
  | 11 => ⟨S_, .f32⟩
  | 12 => ⟨S100000, .f32⟩
  | 13 => ⟨S1700000x1, .i32⟩
  | 14 => ⟨S100000, .f32⟩
  | 15 => ⟨S_, .f32⟩
  | 16 => ⟨S100000, .f32⟩
  | 17 => ⟨S100000, .i1⟩
  | 18 => ⟨S100000, .f32⟩
  | 19 => ⟨S_, .f32⟩
  | 20 => ⟨S_, .f32⟩
  | 21 => ⟨S100000, .f32⟩
  | 22 => ⟨S100000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x128, .f32⟩
  | 51 => ⟨S1700000x1, .f32⟩
  | 52 => ⟨S1700000x128, .f32⟩
  | 53 => ⟨S1700000x128, .f32⟩
  | 54 => ⟨S_, .f32⟩
  | 55 => ⟨S100000x128, .f32⟩
  | 56 => ⟨S1700000x1, .i32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S512x128, .f32⟩
  | 63 => ⟨S100000x1, .i32⟩
  | 64 => ⟨S512x128, .f32⟩
  | 65 => ⟨S_, .f32⟩
  | 66 => ⟨S100000, .f32⟩
  | 67 => ⟨S_, .f32⟩
  | 68 => ⟨S512, .f32⟩
  | 69 => ⟨S100000x1, .i32⟩
  | 70 => ⟨S512, .f32⟩
  | 71 => ⟨S_, .f32⟩
  | 72 => ⟨S512, .f32⟩
  | 73 => ⟨S512, .f32⟩
  | 74 => ⟨S512x1, .f32⟩
  | 75 => ⟨S512x128, .f32⟩
  | 76 => ⟨S512x128, .f32⟩
  | 77 => ⟨S512x10, .f32⟩
  | 78 => ⟨S1x10, .f32⟩
  | 79 => ⟨S512x10, .f32⟩
  | 80 => ⟨S512x10, .f32⟩
  | 81 => ⟨S_, .f32⟩
  | 82 => ⟨S512, .f32⟩
  | 83 => ⟨S_, .f32⟩
  | 84 => ⟨S512, .f32⟩
  | 85 => ⟨S512, .f32⟩
  | 86 => ⟨S512x1, .f32⟩
  | 87 => ⟨S512x10, .f32⟩
  | 88 => ⟨S512x10, .f32⟩
  | 89 => ⟨S512x10, .f32⟩
  | 90 => ⟨S_, .f32⟩
  | 91 => ⟨S512, .f32⟩
  | 92 => ⟨S512x1, .f32⟩
  | 93 => ⟨S512x1, .f32⟩
  | 94 => ⟨S512x10, .f32⟩
  | 95 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_call4_v0 : Ref sig .tc := ⟨.hbm, 148, rfl⟩
abbrev main_call4_v1 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_c_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_26 : Ref sig .tc := ⟨.hbm, 160, rfl⟩
abbrev main_v111 : Ref sig .tc := ⟨.hbm, 161, rfl⟩
abbrev main_v112 : Ref sig .tc := ⟨.hbm, 162, rfl⟩
abbrev main_c_27 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_c_29 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_30 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_31 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_32 : Ref sig .tc := ⟨.hbm, 193, rfl⟩
abbrev main_v138 : Ref sig .tc := ⟨.hbm, 194, rfl⟩
abbrev main_cst_33 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_34 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_call5_cst : Ref sig .tc := ⟨.hbm, 209, rfl⟩
abbrev main_call5_v0 : Ref sig .tc := ⟨.hbm, 210, rfl⟩
abbrev main_call5_cst_0 : Ref sig .tc := ⟨.hbm, 211, rfl⟩
abbrev main_call5_v1 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_call5_v5 : Ref sig .tc := ⟨.hbm, 216, rfl⟩
abbrev main_call5_v6 : Ref sig .tc := ⟨.hbm, 217, rfl⟩
abbrev main_call5_cst_1 : Ref sig .tc := ⟨.hbm, 218, rfl⟩
abbrev main_call5_v7 : Ref sig .tc := ⟨.hbm, 219, rfl⟩
abbrev main_call5_v8 : Ref sig .tc := ⟨.hbm, 220, rfl⟩
abbrev main_call5_v9 : Ref sig .tc := ⟨.hbm, 221, rfl⟩
abbrev main_call5_v10 : Ref sig .tc := ⟨.hbm, 222, rfl⟩
abbrev main_v151 : Ref sig .tc := ⟨.hbm, 223, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Spec.lean ====
/-
  The function both programs compute, written once over the reference program's vocabulary.

  A three-layer graph convolution network followed by a mean pool per graph, a linear classifier and a
  log-softmax.  One convolution is  out = Â (x W) + b  with  Â = D^{-1/2} (A + I) D^{-1/2}:  the edge list
  is extended by one self loop per node, the degree of a node counts the extended edges that END in it, an
  extended edge (s, d) carries the weight dinv s * dinv d, and the aggregation adds, into row d, row s of
  x W scaled by that weight.  The pool adds the node rows of each graph id and divides by the number of
  nodes of that id (at least one); ids outside the 512 graphs are dropped by the scatter.

  Every definition below is generic in the float instance; the certificate reads them at the extended reals.
-/
import proofs.«429457_j46608985096492_1_alg».proof.Proof.Gen.ReferenceIdeal

noncomputable section

namespace Cert.Spec

open Cert.ReferenceIdeal Cert.ReferenceIdeal.Facts₀ Cert.ReferenceIdeal.Facts Idealize.ShloMosaic Idealize.ShloMosaic.TcCoe

variable {F : FTy → Type} [FloatOps F]

/-- A host array of the given shape and element type. -/
abbrev Arr (F : FTy → Type) [FloatOps F] (T : BufTy) : Type := T.Contents (Elt F)

/-- The sources of the extended edge list: row 0 of the edge list, then the nodes themselves. -/
def sources (ei : Arr F ⟨S2x1600000, .i32⟩) : Arr F ⟨S1700000, .i32⟩ :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets of the extended edge list: row 1 of the edge list, then the nodes themselves. -/
def targets (ei : Arr F ⟨S2x1600000, .i32⟩) : Arr F ⟨S1700000, .i32⟩ :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A node index read the way array indexing reads it: a negative index counts from the end. -/
def wrap (i : Arr F ⟨S1700000, .i32⟩) : Arr F ⟨S1700000, .i32⟩ :=
  select (cmpi .slt i (broadcastInDim S1700000 ![] bcast_S_S1700000 (constantI S_ 32 0#32))) (addi i (broadcastInDim S1700000 ![] bcast_S_S1700000 (constantI S_ 32 100000#32))) i

/-- The number of extended edges ending in each node. -/
def degree (ei : Arr F ⟨S2x1600000, .i32⟩) : Arr F ⟨S100000, .f32⟩ :=
  Host.scatterAdd scatter_S100000_S1700000x1_S1700000_n_0_0_1 (broadcastInDim S100000 ![] bcast_S_S100000 (constant S_ .f32 0x00000000#32)) (broadcastInDim S1700000x1 ![0] bcast_S1700000_S1700000x1_0 (targets ei)) (broadcastInDim S1700000 ![] bcast_S_S1700000 (constant S_ .f32 0x3F800000#32))

/-- degree^(-1/2) where the degree is positive, zero elsewhere. -/
def dinv (ei : Arr F ⟨S2x1600000, .i32⟩) : Arr F ⟨S100000, .f32⟩ :=
  select (cmpf .ogt (degree ei) (broadcastInDim S100000 ![] bcast_S_S100000 (constant S_ .f32 0x00000000#32))) (Host.rsqrt (degree ei)) (broadcastInDim S100000 ![] bcast_S_S100000 (id (constant S_ .f32 0x00000000#32)))

/-- The weight of each extended edge: dinv at its source times dinv at its target. -/
def edgeWeight (ei : Arr F ⟨S2x1600000, .i32⟩) : Arr F ⟨S1700000, .f32⟩ :=
  mulf (Host.gather gather_S100000_S1700000x1_S1700000_n_0_n_n_0_1_1 (dinv ei) (broadcastInDim S1700000x1 ![0] bcast_S1700000_S1700000x1_0 (wrap (sources ei))))
    (Host.gather gather_S100000_S1700000x1_S1700000_n_0_n_n_0_1_1 (dinv ei) (broadcastInDim S1700000x1 ![0] bcast_S1700000_S1700000x1_0 (wrap (targets ei))))

/-- Row d of the result adds, over the extended edges (s, d), row s of h scaled by the edge's weight w. -/
def aggregateW (ei : Arr F ⟨S2x1600000, .i32⟩) (w : Arr F ⟨S1700000, .f32⟩) (h : Arr F ⟨S100000x128, .f32⟩) : Arr F ⟨S100000x128, .f32⟩ :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (targets ei))
    (mulf (Host.gather gather_S100000x128_S1700000x1_S1700000x128_1_0_n_n_0_1_1128 h (broadcastInDim S1700000x1 ![0] bcast_S1700000_S1700000x1_0 (wrap (sources ei))))
      (broadcastInDim S1700000x128 ![0, 1] bcast_S1700000x1_S1700000x128_0_1 (broadcastInDim S1700000x1 ![0] bcast_S1700000_S1700000x1_0 w)))

/-- The normalised aggregation Â h. -/
def aggregate (ei : Arr F ⟨S2x1600000, .i32⟩) (h : Arr F ⟨S100000x128, .f32⟩) : Arr F ⟨S100000x128, .f32⟩ :=
  aggregateW ei (edgeWeight ei) h

/-- x W for the node features. -/
def linear (x : Arr F ⟨S100000x128, .f32⟩) (W : Arr F ⟨S128x128, .f32⟩) : Arr F ⟨S100000x128, .f32⟩ :=
  Host.dotGeneral dot_S100000x128_S128x128_S100000x128_1_0_0_1_n_n none x W

/-- A one-row matrix added to every row. -/
def addBiasRow (a : Arr F ⟨S100000x128, .f32⟩) (b : Arr F ⟨S1x128, .f32⟩) : Arr F ⟨S100000x128, .f32⟩ :=
  addf a (broadcastInDim S100000x128 ![0, 1] bcast_S1x128_S100000x128_0_1 b)

/-- The bias added to every row. -/
def addBias (a : Arr F ⟨S100000x128, .f32⟩) (b : Arr F ⟨S128, .f32⟩) : Arr F ⟨S100000x128, .f32⟩ :=
  addBiasRow a (broadcastInDim S1x128 ![1] bcast_S128_S1x128_1 b)

/-- max(·, 0), entry by entry. -/
def relu (a : Arr F ⟨S100000x128, .f32⟩) : Arr F ⟨S100000x128, .f32⟩ :=
  maximumf a (broadcastInDim S100000x128 ![] bcast_S_S100000x128 (constant S_ .f32 0x00000000#32))

/-- One graph convolution: Â (x W) + b. -/
def conv (ei : Arr F ⟨S2x1600000, .i32⟩) (x : Arr F ⟨S100000x128, .f32⟩) (W : Arr F ⟨S128x128, .f32⟩) (b : Arr F ⟨S128, .f32⟩) : Arr F ⟨S100000x128, .f32⟩ :=
  addBias (aggregate ei (linear x W)) b

/-- The three convolutions, a relu after the first two. -/
def nodeEmbedding (x : Arr F ⟨S100000x128, .f32⟩) (ei : Arr F ⟨S2x1600000, .i32⟩)
    (W1 : Arr F ⟨S128x128, .f32⟩) (b1 : Arr F ⟨S128, .f32⟩) (W2 : Arr F ⟨S128x128, .f32⟩) (b2 : Arr F ⟨S128, .f32⟩)
    (W3 : Arr F ⟨S128x128, .f32⟩) (b3 : Arr F ⟨S128, .f32⟩) : Arr F ⟨S100000x128, .f32⟩ :=
  conv ei (relu (conv ei (relu (conv ei x W1 b1)) W2 b2)) W3 b3

/-- The sum of the node rows of each graph id. -/
def segmentSums (batch : Arr F ⟨S100000, .i32⟩) (h : Arr F ⟨S100000x128, .f32⟩) : Arr F ⟨S512x128, .f32⟩ :=
  Host.scatterAdd scatter_S512x128_S100000x1_S100000x128_1_0_0_1 (broadcastInDim S512x128 ![] bcast_S_S512x128 (constant S_ .f32 0x00000000#32)) (broadcastInDim S100000x1 ![0] bcast_S100000_S100000x1_0 batch) h

/-- The number of nodes of each graph id. -/
def segmentCounts (batch : Arr F ⟨S100000, .i32⟩) : Arr F ⟨S512, .f32⟩ :=
  Host.scatterAdd scatter_S512_S100000x1_S100000_n_0_0_1 (broadcastInDim S512 ![] bcast_S_S512 (constant S_ .f32 0x00000000#32)) (broadcastInDim S100000x1 ![0] bcast_S100000_S100000x1_0 batch) (broadcastInDim S100000 ![] bcast_S_S100000 (constant S_ .f32 0x3F800000#32))

/-- Sums divided by max(count, 1), row by row. -/
def meanOf (sums : Arr F ⟨S512x128, .f32⟩) (cnts : Arr F ⟨S512, .f32⟩) : Arr F ⟨S512x128, .f32⟩ :=
  Host.divf sums (broadcastInDim S512x128 ![0, 1] bcast_S512x1_S512x128_0_1 (broadcastInDim S512x1 ![0] bcast_S512_S512x1_0 (maximumf cnts (broadcastInDim S512 ![] bcast_S_S512 (constant S_ .f32 0x3F800000#32)))))

/-- g Wl plus a one-row matrix added to every row. -/
def logitsRow (g : Arr F ⟨S512x128, .f32⟩) (Wl : Arr F ⟨S128x10, .f32⟩) (bl : Arr F ⟨S1x10, .f32⟩) : Arr F ⟨S512x10, .f32⟩ :=
  addf (Host.dotGeneral dot_S512x128_S128x10_S512x10_1_0_0_1_n_n none g Wl) (broadcastInDim S512x10 ![0, 1] bcast_S1x10_S512x10_0_1 bl)

/-- g Wl + bl. -/
def logits (g : Arr F ⟨S512x128, .f32⟩) (Wl : Arr F ⟨S128x10, .f32⟩) (bl : Arr F ⟨S10, .f32⟩) : Arr F ⟨S512x10, .f32⟩ :=
  logitsRow g Wl (broadcastInDim S1x10 ![1] bcast_S10_S1x10_1 bl)

/-- z minus its row maximum. -/
def shifted (z : Arr F ⟨S512x10, .f32⟩) : Arr F ⟨S512x10, .f32⟩ :=
  subf z (broadcastInDim S512x10 ![0, 1] bcast_S512x1_S512x10_0_1 (broadcastInDim S512x1 ![0] bcast_S512_S512x1_0
    (maximumf (broadcastInDim S512 ![] bcast_S_S512 (constant S_ .f32 0xFF800000#32)) (Host.reduce FloatOps.maximumf z (constant S_ .f32 0xFF800000#32) reducesTo_S512x10_S512_d1 h_S_))))

/-- The row-wise log-softmax: the shifted row minus the log of the sum of its exponentials. -/
def logSoftmax (z : Arr F ⟨S512x10, .f32⟩) : Arr F ⟨S512x10, .f32⟩ :=
  subf (shifted z) (broadcastInDim S512x10 ![0, 1] bcast_S512x1_S512x10_0_1 (Host.log (broadcastInDim S512x1 ![0] bcast_S512_S512x1_0
    (Host.reduceAdd (Host.exp (shifted z)) (constant S_ .f32 0x00000000#32) reducesTo_S512x10_S512_d1 h_S_))))

/-- The whole network. -/
def result (x : Arr F ⟨S100000x128, .f32⟩) (ei : Arr F ⟨S2x1600000, .i32⟩) (batch : Arr F ⟨S100000, .i32⟩)
    (W1 : Arr F ⟨S128x128, .f32⟩) (b1 : Arr F ⟨S128, .f32⟩) (W2 : Arr F ⟨S128x128, .f32⟩) (b2 : Arr F ⟨S128, .f32⟩)
    (W3 : Arr F ⟨S128x128, .f32⟩) (b3 : Arr F ⟨S128, .f32⟩) (Wl : Arr F ⟨S128x10, .f32⟩) (bl : Arr F ⟨S10, .f32⟩) : Arr F ⟨S512x10, .f32⟩ :=
  logSoftmax (logits (meanOf (segmentSums batch (nodeEmbedding x ei W1 b1 W2 b2 W3 b3)) (segmentCounts batch)) Wl bl)

end Cert.Spec

end
-- ==== Proof.Keep.lean ====
/-
  Buffers that no later operation writes keep their contents through the program: each argument as launched,
  and the three graph arrays (sources, targets, edge weights) as the first host stretch leaves them.
-/
import proofs.«429457_j46608985096492_1_alg».proof.Proof.Gen.KernelIdeal.Frame
import proofs.«429457_j46608985096492_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A stretch of host operations leaves alone every buffer none of them writes: the stretch is its literal list,
    each operation writes exactly its result buffer, and the buffer read is a different reference from each. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ### The arguments, from the boundary where each is read back to the launch

Across a region the argument is none of the region's arrays; across a host stretch no operation writes it; at the
launch the fold reads the launch memory. -/

theorem arg0_3 (c : Dev nD) : W3 (F := Ideal) m ρ c (Proc.devRef .tc main_arg0) = m ((c.tc : Thread nD τ).loc main_arg0) :=
  calc W3 (F := Ideal) m ρ c (Proc.devRef .tc main_arg0)
    _ = W2 (F := Ideal) m ρ c (Proc.devRef .tc main_arg0) := by host_keep hostOps0_2
    _ = W1 (F := Ideal) m ρ c (Proc.devRef .tc main_arg0) := by host_keep hostOps0_1
    _ = W0 (F := Ideal) m ρ c (Proc.devRef .tc main_arg0) := by host_keep hostOps0
    _ = m ((c.tc : Thread nD τ).loc main_arg0) := rfl

theorem arg3_3 (c : Dev nD) : W3 (F := Ideal) m ρ c (Proc.devRef .tc main_arg3) = m ((c.tc : Thread nD τ).loc main_arg3) :=
  calc W3 (F := Ideal) m ρ c (Proc.devRef .tc main_arg3)
    _ = W2 (F := Ideal) m ρ c (Proc.devRef .tc main_arg3) := by host_keep hostOps0_2
    _ = W1 (F := Ideal) m ρ c (Proc.devRef .tc main_arg3) := by host_keep hostOps0_1
    _ = W0 (F := Ideal) m ρ c (Proc.devRef .tc main_arg3) := by host_keep hostOps0
    _ = m ((c.tc : Thread nD τ).loc main_arg3) := rfl

theorem arg4_4 (c : Dev nD) : W4 (F := Ideal) m ρ c (Proc.devRef .tc main_arg4) = m ((c.tc : Thread nD τ).loc main_arg4) :=
  calc W4 (F := Ideal) m ρ c (Proc.devRef .tc main_arg4)
    _ = W3 (F := Ideal) m ρ c (Proc.devRef .tc main_arg4) := W4_of_ne m ρ c main_arg4 (by decide)
    _ = W2 (F := Ideal) m ρ c (Proc.devRef .tc main_arg4) := by host_keep hostOps0_2
    _ = W1 (F := Ideal) m ρ c (Proc.devRef .tc main_arg4) := by host_keep hostOps0_1
    _ = W0 (F := Ideal) m ρ c (Proc.devRef .tc main_arg4) := by host_keep hostOps0
    _ = m ((c.tc : Thread nD τ).loc main_arg4) := rfl

theorem arg5_6 (c : Dev nD) : W6 (F := Ideal) m ρ c (Proc.devRef .tc main_arg5) = m ((c.tc : Thread nD τ).loc main_arg5) :=
  calc W6 (F := Ideal) m ρ c (Proc.devRef .tc main_arg5)
    _ = W5 (F := Ideal) m ρ c (Proc.devRef .tc main_arg5) := W6_of_ne m ρ c main_arg5 (by decide)
    _ = W4 (F := Ideal) m ρ c (Proc.devRef .tc main_arg5) := by host_keep hostOps1
    _ = W3 (F := Ideal) m ρ c (Proc.devRef .tc main_arg5) := W4_of_ne m ρ c main_arg5 (by decide)
    _ = W2 (F := Ideal) m ρ c (Proc.devRef .tc main_arg5) := by host_keep hostOps0_2
    _ = W1 (F := Ideal) m ρ c (Proc.devRef .tc main_arg5) := by host_keep hostOps0_1
    _ = W0 (F := Ideal) m ρ c (Proc.devRef .tc main_arg5) := by host_keep hostOps0
    _ = m ((c.tc : Thread nD τ).loc main_arg5) := rfl

theorem arg6_7 (c : Dev nD) : W7 (F := Ideal) m ρ c (Proc.devRef .tc main_arg6) = m ((c.tc : Thread nD τ).loc main_arg6) :=
  calc W7 (F := Ideal) m ρ c (Proc.devRef .tc main_arg6)
    _ = W6 (F := Ideal) m ρ c (Proc.devRef .tc main_arg6) := W7_of_ne m ρ c main_arg6 (by decide)
    _ = W5 (F := Ideal) m ρ c (Proc.devRef .tc main_arg6) := W6_of_ne m ρ c main_arg6 (by decide)
    _ = W4 (F := Ideal) m ρ c (Proc.devRef .tc main_arg6) := by host_keep hostOps1
    _ = W3 (F := Ideal) m ρ c (Proc.devRef .tc main_arg6) := W4_of_ne m ρ c main_arg6 (by decide)
    _ = W2 (F := Ideal) m ρ c (Proc.devRef .tc main_arg6) := by host_keep hostOps0_2
    _ = W1 (F := Ideal) m ρ c (Proc.devRef .tc main_arg6) := by host_keep hostOps0_1
    _ = W0 (F := Ideal) m ρ c (Proc.devRef .tc main_arg6) := by host_keep hostOps0
    _ = m ((c.tc : Thread nD τ).loc main_arg6) := rfl

theorem arg7_9 (c : Dev nD) : W9 (F := Ideal) m ρ c (Proc.devRef .tc main_arg7) = m ((c.tc : Thread nD τ).loc main_arg7) :=
  calc W9 (F := Ideal) m ρ c (Proc.devRef .tc main_arg7)
    _ = W8 (F := Ideal) m ρ c (Proc.devRef .tc main_arg7) := W9_of_ne m ρ c main_arg7 (by decide)
    _ = W7 (F := Ideal) m ρ c (Proc.devRef .tc main_arg7) := by host_keep hostOps3
    _ = W6 (F := Ideal) m ρ c (Proc.devRef .tc main_arg7) := W7_of_ne m ρ c main_arg7 (by decide)
    _ = W5 (F := Ideal) m ρ c (Proc.devRef .tc main_arg7) := W6_of_ne m ρ c main_arg7 (by decide)
    _ = W4 (F := Ideal) m ρ c (Proc.devRef .tc main_arg7) := by host_keep hostOps1
    _ = W3 (F := Ideal) m ρ c (Proc.devRef .tc main_arg7) := W4_of_ne m ρ c main_arg7 (by decide)
    _ = W2 (F := Ideal) m ρ c (Proc.devRef .tc main_arg7) := by host_keep hostOps0_2
    _ = W1 (F := Ideal) m ρ c (Proc.devRef .tc main_arg7) := by host_keep hostOps0_1
    _ = W0 (F := Ideal) m ρ c (Proc.devRef .tc main_arg7) := by host_keep hostOps0
    _ = m ((c.tc : Thread nD τ).loc main_arg7) := rfl

theorem arg8_10 (c : Dev nD) : W10 (F := Ideal) m ρ c (Proc.devRef .tc main_arg8) = m ((c.tc : Thread nD τ).loc main_arg8) :=
  calc W10 (F := Ideal) m ρ c (Proc.devRef .tc main_arg8)
    _ = W9 (F := Ideal) m ρ c (Proc.devRef .tc main_arg8) := W10_of_ne m ρ c main_arg8 (by decide)
    _ = W8 (F := Ideal) m ρ c (Proc.devRef .tc main_arg8) := W9_of_ne m ρ c main_arg8 (by decide)
    _ = W7 (F := Ideal) m ρ c (Proc.devRef .tc main_arg8) := by host_keep hostOps3
    _ = W6 (F := Ideal) m ρ c (Proc.devRef .tc main_arg8) := W7_of_ne m ρ c main_arg8 (by decide)
    _ = W5 (F := Ideal) m ρ c (Proc.devRef .tc main_arg8) := W6_of_ne m ρ c main_arg8 (by decide)
    _ = W4 (F := Ideal) m ρ c (Proc.devRef .tc main_arg8) := by host_keep hostOps1
    _ = W3 (F := Ideal) m ρ c (Proc.devRef .tc main_arg8) := W4_of_ne m ρ c main_arg8 (by decide)
    _ = W2 (F := Ideal) m ρ c (Proc.devRef .tc main_arg8) := by host_keep hostOps0_2
    _ = W1 (F := Ideal) m ρ c (Proc.devRef .tc main_arg8) := by host_keep hostOps0_1
    _ = W0 (F := Ideal) m ρ c (Proc.devRef .tc main_arg8) := by host_keep hostOps0
    _ = m ((c.tc : Thread nD τ).loc main_arg8) := rfl

theorem arg2_12 (c : Dev nD) : W12 (F := Ideal) m ρ c (Proc.devRef .tc main_arg2) = m ((c.tc : Thread nD τ).loc main_arg2) :=
  calc W12 (F := Ideal) m ρ c (Proc.devRef .tc main_arg2)
    _ = W11 (F := Ideal) m ρ c (Proc.devRef .tc main_arg2) := W12_of_ne m ρ c main_arg2 (by decide)
    _ = W10 (F := Ideal) m ρ c (Proc.devRef .tc main_arg2) := by host_keep hostOps5
    _ = W9 (F := Ideal) m ρ c (Proc.devRef .tc main_arg2) := W10_of_ne m ρ c main_arg2 (by decide)
    _ = W8 (F := Ideal) m ρ c (Proc.devRef .tc main_arg2) := W9_of_ne m ρ c main_arg2 (by decide)
    _ = W7 (F := Ideal) m ρ c (Proc.devRef .tc main_arg2) := by host_keep hostOps3
    _ = W6 (F := Ideal) m ρ c (Proc.devRef .tc main_arg2) := W7_of_ne m ρ c main_arg2 (by decide)
    _ = W5 (F := Ideal) m ρ c (Proc.devRef .tc main_arg2) := W6_of_ne m ρ c main_arg2 (by decide)
    _ = W4 (F := Ideal) m ρ c (Proc.devRef .tc main_arg2) := by host_keep hostOps1
    _ = W3 (F := Ideal) m ρ c (Proc.devRef .tc main_arg2) := W4_of_ne m ρ c main_arg2 (by decide)
    _ = W2 (F := Ideal) m ρ c (Proc.devRef .tc main_arg2) := by host_keep hostOps0_2
    _ = W1 (F := Ideal) m ρ c (Proc.devRef .tc main_arg2) := by host_keep hostOps0_1
    _ = W0 (F := Ideal) m ρ c (Proc.devRef .tc main_arg2) := by host_keep hostOps0
    _ = m ((c.tc : Thread nD τ).loc main_arg2) := rfl

theorem arg10_18 (c : Dev nD) : W18 (F := Ideal) m ρ c (Proc.devRef .tc main_arg10) = m ((c.tc : Thread nD τ).loc main_arg10) :=
  calc W18 (F := Ideal) m ρ c (Proc.devRef .tc main_arg10)
    _ = W17 (F := Ideal) m ρ c (Proc.devRef .tc main_arg10) := W18_of_ne m ρ c main_arg10 (by decide)
    _ = W16 (F := Ideal) m ρ c (Proc.devRef .tc main_arg10) := by host_keep hostOps6_4
    _ = W15 (F := Ideal) m ρ c (Proc.devRef .tc main_arg10) := by host_keep hostOps6_3
    _ = W14 (F := Ideal) m ρ c (Proc.devRef .tc main_arg10) := by host_keep hostOps6_2
    _ = W13 (F := Ideal) m ρ c (Proc.devRef .tc main_arg10) := by host_keep hostOps6_1
    _ = W12 (F := Ideal) m ρ c (Proc.devRef .tc main_arg10) := by host_keep hostOps6
    _ = W11 (F := Ideal) m ρ c (Proc.devRef .tc main_arg10) := W12_of_ne m ρ c main_arg10 (by decide)
    _ = W10 (F := Ideal) m ρ c (Proc.devRef .tc main_arg10) := by host_keep hostOps5
    _ = W9 (F := Ideal) m ρ c (Proc.devRef .tc main_arg10) := W10_of_ne m ρ c main_arg10 (by decide)
    _ = W8 (F := Ideal) m ρ c (Proc.devRef .tc main_arg10) := W9_of_ne m ρ c main_arg10 (by decide)
    _ = W7 (F := Ideal) m ρ c (Proc.devRef .tc main_arg10) := by host_keep hostOps3
    _ = W6 (F := Ideal) m ρ c (Proc.devRef .tc main_arg10) := W7_of_ne m ρ c main_arg10 (by decide)
    _ = W5 (F := Ideal) m ρ c (Proc.devRef .tc main_arg10) := W6_of_ne m ρ c main_arg10 (by decide)
    _ = W4 (F := Ideal) m ρ c (Proc.devRef .tc main_arg10) := by host_keep hostOps1
    _ = W3 (F := Ideal) m ρ c (Proc.devRef .tc main_arg10) := W4_of_ne m ρ c main_arg10 (by decide)
    _ = W2 (F := Ideal) m ρ c (Proc.devRef .tc main_arg10) := by host_keep hostOps0_2
    _ = W1 (F := Ideal) m ρ c (Proc.devRef .tc main_arg10) := by host_keep hostOps0_1
    _ = W0 (F := Ideal) m ρ c (Proc.devRef .tc main_arg10) := by host_keep hostOps0
    _ = m ((c.tc : Thread nD τ).loc main_arg10) := rfl

theorem arg9_19 (c : Dev nD) : W19 (F := Ideal) m ρ c (Proc.devRef .tc main_arg9) = m ((c.tc : Thread nD τ).loc main_arg9) :=
  calc W19 (F := Ideal) m ρ c (Proc.devRef .tc main_arg9)
    _ = W18 (F := Ideal) m ρ c (Proc.devRef .tc main_arg9) := by host_keep hostOps7
    _ = W17 (F := Ideal) m ρ c (Proc.devRef .tc main_arg9) := W18_of_ne m ρ c main_arg9 (by decide)
    _ = W16 (F := Ideal) m ρ c (Proc.devRef .tc main_arg9) := by host_keep hostOps6_4
    _ = W15 (F := Ideal) m ρ c (Proc.devRef .tc main_arg9) := by host_keep hostOps6_3
    _ = W14 (F := Ideal) m ρ c (Proc.devRef .tc main_arg9) := by host_keep hostOps6_2
    _ = W13 (F := Ideal) m ρ c (Proc.devRef .tc main_arg9) := by host_keep hostOps6_1
    _ = W12 (F := Ideal) m ρ c (Proc.devRef .tc main_arg9) := by host_keep hostOps6
    _ = W11 (F := Ideal) m ρ c (Proc.devRef .tc main_arg9) := W12_of_ne m ρ c main_arg9 (by decide)
    _ = W10 (F := Ideal) m ρ c (Proc.devRef .tc main_arg9) := by host_keep hostOps5
    _ = W9 (F := Ideal) m ρ c (Proc.devRef .tc main_arg9) := W10_of_ne m ρ c main_arg9 (by decide)
    _ = W8 (F := Ideal) m ρ c (Proc.devRef .tc main_arg9) := W9_of_ne m ρ c main_arg9 (by decide)
    _ = W7 (F := Ideal) m ρ c (Proc.devRef .tc main_arg9) := by host_keep hostOps3
    _ = W6 (F := Ideal) m ρ c (Proc.devRef .tc main_arg9) := W7_of_ne m ρ c main_arg9 (by decide)
    _ = W5 (F := Ideal) m ρ c (Proc.devRef .tc main_arg9) := W6_of_ne m ρ c main_arg9 (by decide)
    _ = W4 (F := Ideal) m ρ c (Proc.devRef .tc main_arg9) := by host_keep hostOps1
    _ = W3 (F := Ideal) m ρ c (Proc.devRef .tc main_arg9) := W4_of_ne m ρ c main_arg9 (by decide)
    _ = W2 (F := Ideal) m ρ c (Proc.devRef .tc main_arg9) := by host_keep hostOps0_2
    _ = W1 (F := Ideal) m ρ c (Proc.devRef .tc main_arg9) := by host_keep hostOps0_1
    _ = W0 (F := Ideal) m ρ c (Proc.devRef .tc main_arg9) := by host_keep hostOps0
    _ = m ((c.tc : Thread nD τ).loc main_arg9) := rfl

/-! ### The graph arrays

Sources, targets and edge weights are written in the first three host stretches only: no later stretch writes them and
they are arrays of none of the first five regions. -/

/-- The graph arrays at the entry of the second, third and fourth host stretches are what the first left. -/
theorem keep4 (c : Dev nD) (b : Ref sig .tc) (hb : b = main_v5 ∨ b = main_v6 ∨ b = main_v29) :
    W4 (F := Ideal) m ρ c (Proc.devRef .tc b) = W3 (F := Ideal) m ρ c (Proc.devRef .tc b) := by
  rcases hb with rfl | rfl | rfl <;> exact W4_of_ne m ρ c _ (by decide)
theorem keep7 (c : Dev nD) (b : Ref sig .tc) (hb : b = main_v5 ∨ b = main_v6 ∨ b = main_v29) :
    W7 (F := Ideal) m ρ c (Proc.devRef .tc b) = W3 (F := Ideal) m ρ c (Proc.devRef .tc b) := by
  have h76 : W7 (F := Ideal) m ρ c (Proc.devRef .tc b) = W6 (F := Ideal) m ρ c (Proc.devRef .tc b) := by
    rcases hb with rfl | rfl | rfl <;> exact W7_of_ne m ρ c _ (by decide)
  have h65 : W6 (F := Ideal) m ρ c (Proc.devRef .tc b) = W5 (F := Ideal) m ρ c (Proc.devRef .tc b) := by
    rcases hb with rfl | rfl | rfl <;> exact W6_of_ne m ρ c _ (by decide)
  have h54 : W5 (F := Ideal) m ρ c (Proc.devRef .tc b) = W4 (F := Ideal) m ρ c (Proc.devRef .tc b) := by
    rcases hb with rfl | rfl | rfl <;> host_keep hostOps1
  exact h76.trans (h65.trans (h54.trans (keep4 m ρ c b hb)))
theorem keep10 (c : Dev nD) (b : Ref sig .tc) (hb : b = main_v5 ∨ b = main_v6 ∨ b = main_v29) :
    W10 (F := Ideal) m ρ c (Proc.devRef .tc b) = W3 (F := Ideal) m ρ c (Proc.devRef .tc b) := by
  have h109 : W10 (F := Ideal) m ρ c (Proc.devRef .tc b) = W9 (F := Ideal) m ρ c (Proc.devRef .tc b) := by
    rcases hb with rfl | rfl | rfl <;> exact W10_of_ne m ρ c _ (by decide)
  have h98 : W9 (F := Ideal) m ρ c (Proc.devRef .tc b) = W8 (F := Ideal) m ρ c (Proc.devRef .tc b) := by
    rcases hb with rfl | rfl | rfl <;> exact W9_of_ne m ρ c _ (by decide)
  have h87 : W8 (F := Ideal) m ρ c (Proc.devRef .tc b) = W7 (F := Ideal) m ρ c (Proc.devRef .tc b) := by
    rcases hb with rfl | rfl | rfl <;> host_keep hostOps3
  exact h109.trans (h98.trans (h87.trans (keep7 m ρ c b hb)))

end Cert.KernelIdeal.Net

end
-- ==== Proof.Graph.lean ====
/-
  The first host stretch: the extended edge list (sources, targets) and the edge weights dinv s * dinv d, read
  off the operations as functions of the edge list.
-/
import proofs.«429457_j46608985096492_1_alg».proof.Proof.Gen.KernelIdeal.Frame
import proofs.«429457_j46608985096492_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ### After the first stretch: the extended edge list

Row 0 (row 1) of the edge list, flattened, followed by the node numbers. -/

private theorem sources1 (c : Dev nD) :
    W1 (F := Ideal) m ρ c (Proc.devRef .tc main_v5) = Cert.Spec.sources (F := Ideal) (m ((c.tc : Thread nD τ).loc main_arg1)) := by
  show StableHlo.after hostOps0 (W0 (F := Ideal) m ρ c) (Proc.devRef .tc main_v5) = _
  simp only [hostOps0]
  after_results
  rfl
private theorem targets1 (c : Dev nD) :
    W1 (F := Ideal) m ρ c (Proc.devRef .tc main_v6) = Cert.Spec.targets (F := Ideal) (m ((c.tc : Thread nD τ).loc main_arg1)) := by
  show StableHlo.after hostOps0 (W0 (F := Ideal) m ρ c) (Proc.devRef .tc main_v6) = _
  simp only [hostOps0]
  after_results
  rfl

/-! ### After the first stretch: the pieces of dinv

The degree is the scatter-add of ones at the targets. The stretch leaves the mask "degree positive", the inverse
square root of the degree, and a zero scalar for the select that the next stretch performs. -/

private theorem pos1 (c : Dev nD) :
    W1 (F := Ideal) m ρ c (Proc.devRef .tc main_v12)
      = cmpf (F := Ideal) .ogt (Cert.Spec.degree (F := Ideal) (m ((c.tc : Thread nD τ).loc main_arg1)))
          (broadcastInDim S100000 ![] bcast_S_S100000 (constant (F := Ideal) S_ .f32 0x00000000#32)) := by
  show StableHlo.after hostOps0 (W0 (F := Ideal) m ρ c) (Proc.devRef .tc main_v12) = _
  simp only [hostOps0]
  after_results
  rfl
private theorem rsqrt1 (c : Dev nD) :
    W1 (F := Ideal) m ρ c (Proc.devRef .tc main_v13)
      = Host.rsqrt (F := Ideal) (φ := .f32) (Cert.Spec.degree (F := Ideal) (m ((c.tc : Thread nD τ).loc main_arg1))) := by
  show StableHlo.after hostOps0 (W0 (F := Ideal) m ρ c) (Proc.devRef .tc main_v13) = _
  simp only [hostOps0]
  after_results
  rfl
private theorem zero1 (c : Dev nD) :
    W1 (F := Ideal) m ρ c (Proc.devRef .tc main_cst_2) = constant (F := Ideal) S_ .f32 0x00000000#32 := by
  show StableHlo.after hostOps0 (W0 (F := Ideal) m ρ c) (Proc.devRef .tc main_cst_2) = _
  simp only [hostOps0]
  after_results

/-! ### After the second stretch: dinv

The outlined select: the inverse square root where the degree is positive, the broadcast zero elsewhere. The extended
edge list is not written by this stretch. -/

/-- The outlined select over an arbitrary valuation and arbitrary operands: where the mask holds, the second operand;
    elsewhere the broadcast of the scalar. The contents pass to and from the typed references unchanged. -/
private theorem select_stretch (V : Valuation τ sig (Elt Ideal))
    (P : (⟨S100000, .i1⟩ : BufTy).Contents (Elt Ideal)) (R : (⟨S100000, .f32⟩ : BufTy).Contents (Elt Ideal))
    (Z : (⟨S_, .f32⟩ : BufTy).Contents (Elt Ideal))
    (hp : V (Proc.devRef .tc main_v12) = P) (hr : V (Proc.devRef .tc main_v13) = R) (hz : V (Proc.devRef .tc main_cst_2) = Z) :
    StableHlo.after hostOps0_1 V (Proc.devRef .tc main_v14)
      = select P R (broadcastInDim S100000 ![] bcast_S_S100000 (id Z)) := by
  subst hp hr hz
  simp only [hostOps0_1]
  after_results
  rfl
private theorem dinv2 (c : Dev nD) :
    W2 (F := Ideal) m ρ c (Proc.devRef .tc main_v14) = Cert.Spec.dinv (F := Ideal) (m ((c.tc : Thread nD τ).loc main_arg1)) :=
  select_stretch (W1 (F := Ideal) m ρ c) _ _ _ (pos1 m ρ c) (rsqrt1 m ρ c) (zero1 m ρ c)
private theorem sources2 (c : Dev nD) :
    W2 (F := Ideal) m ρ c (Proc.devRef .tc main_v5) = Cert.Spec.sources (F := Ideal) (m ((c.tc : Thread nD τ).loc main_arg1)) := by
  show StableHlo.after hostOps0_1 (W1 (F := Ideal) m ρ c) (Proc.devRef .tc main_v5) = _
  simp only [hostOps0_1]
  after_results
  exact sources1 m ρ c
private theorem targets2 (c : Dev nD) :
    W2 (F := Ideal) m ρ c (Proc.devRef .tc main_v6) = Cert.Spec.targets (F := Ideal) (m ((c.tc : Thread nD τ).loc main_arg1)) := by
  show StableHlo.after hostOps0_1 (W1 (F := Ideal) m ρ c) (Proc.devRef .tc main_v6) = _
  simp only [hostOps0_1]
  after_results
  exact targets1 m ρ c

/-! ### After the third stretch (the first region's entry) -/

theorem sources3 (c : Dev nD) :
    W3 (F := Ideal) m ρ c (Proc.devRef .tc main_v5) = Cert.Spec.sources (F := Ideal) (m ((c.tc : Thread nD τ).loc main_arg1)) := by
  show StableHlo.after hostOps0_2 (W2 (F := Ideal) m ρ c) (Proc.devRef .tc main_v5) = _
  simp only [hostOps0_2]
  after_results
  exact sources2 m ρ c
theorem targets3 (c : Dev nD) :
    W3 (F := Ideal) m ρ c (Proc.devRef .tc main_v6) = Cert.Spec.targets (F := Ideal) (m ((c.tc : Thread nD τ).loc main_arg1)) := by
  show StableHlo.after hostOps0_2 (W2 (F := Ideal) m ρ c) (Proc.devRef .tc main_v6) = _
  simp only [hostOps0_2]
  after_results
  exact targets2 m ρ c
/-- Each endpoint is wrapped the way array indexing reads it, dinv is gathered at it, and the two are multiplied.
    The stretch is read over an arbitrary valuation, which stands for the contents the second stretch left. -/
theorem weight3 (c : Dev nD) :
    W3 (F := Ideal) m ρ c (Proc.devRef .tc main_v29) = Cert.Spec.edgeWeight (F := Ideal) (m ((c.tc : Thread nD τ).loc main_arg1)) := by
  have hd := dinv2 m ρ c
  have hs := sources2 m ρ c
  have ht := targets2 m ρ c
  show StableHlo.after hostOps0_2 (W2 (F := Ideal) m ρ c) (Proc.devRef .tc main_v29) = _
  generalize W2 (F := Ideal) m ρ c = V at hd hs ht ⊢
  simp only [hostOps0_2]
  after_results_simp
  rw [hd, hs, ht]
  rfl

end Cert.KernelIdeal.Net

end
-- ==== Proof.Matmul0.lean ====
/-
  The first dense layer's kernel: ten row blocks of x, each multiplied by the whole of W1; the blocks tile the
  result, so the array it leaves is x W1.
-/
import proofs.«429457_j46608985096492_1_alg».proof.Proof.Gen.KernelIdeal.Frame
import proofs.«429457_j46608985096492_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Layer0

/-! ## The two products read at an index

A block's product contracts axis 1 of a [10000,128] block with axis 0 of the [128,128] weight; the whole product
contracts axis 1 of the [100000,128] array with axis 0 of the weight. At the result's index (r, q) and the
contraction's index k each left operand is read at (r, k) and each right operand at (k, q): one fact per operand axis. -/

theorem lhs_block_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

theorem lhs_block_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem rhs_block_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem rhs_block_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- Entry (p, q) of a block's payload: row p of the block against column q of the weight. The change of float
    format in front of the product is the identity on the extended reals, and the accumulator is the zero splat. -/
theorem payload_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  simp only [matmul]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact lhs_block_0 _ _
      | ⟨1, _⟩ => exact (lhs_block_1 _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (rhs_block_0 _ _).trans hk
      | ⟨1, _⟩ => exact rhs_block_1 _ _)
  rw [el, er]
  rfl

theorem lhs_whole_0 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl

theorem lhs_whole_1 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q

theorem rhs_whole_0 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q

theorem rhs_whole_1 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- Entry (r, q) of the whole product: row r of the left array against column q of the weight. -/
theorem linear_apply (x : FVec Ideal Cert.ReferenceIdeal.S100000x128 .f32) (w : FVec Ideal Cert.ReferenceIdeal.S128x128 .f32)
    (r : Fin 100000) (q : Fin 128) :
    Cert.Spec.linear (F := Ideal) x w (ix2 r q) = ∑ k : Fin 128, x (ix2 r k) * w (ix2 k q) := by
  unfold Cert.Spec.linear
  simp only [Host.dotGeneral]
  rw [Ideal.dotGeneral_apply,
    ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q)
      ((contrEquiv1 Cert.ReferenceIdeal.dot_S100000x128_S128x128_S100000x128_1_0_0_1_n_n 128 rfl rfl).symm k) = ix2 r k :=
    funext fun a => Fin.ext (by
      match a with
      | ⟨0, _⟩ => exact lhs_whole_0 _ _
      | ⟨1, _⟩ => exact (lhs_whole_1 _ _).trans hk)
  have er : Cert.ReferenceIdeal.dot_S100000x128_S128x128_S100000x128_1_0_0_1_n_n.rhsIdx (ix2 r q)
      ((contrEquiv1 Cert.ReferenceIdeal.dot_S100000x128_S128x128_S100000x128_1_0_0_1_n_n 128 rfl rfl).symm k) = ix2 k q :=
    funext fun a => Fin.ext (by
      match a with
      | ⟨0, _⟩ => exact (rhs_whole_0 _ _).trans hk
      | ⟨1, _⟩ => exact rhs_whole_1 _ _)
  rw [el, er]

/-- A block holding rows n, …, n + 9999 of the left array, times the weight, is those rows of the whole product:
    entry (p, q) of the one and entry (n + p, q) of the other are the same sum over the contracted axis. -/
theorem block_product (x0 : Vec Ideal S10000x128 .f32) (x1 : Vec Ideal S128x128 .f32)
    (x : FVec Ideal Cert.ReferenceIdeal.S100000x128 .f32) (w : FVec Ideal Cert.ReferenceIdeal.S128x128 .f32) (n : Nat)
    (hx : ∀ (y : S10000x128.Idx) (i : S100000x128.Idx), (i 0).val = n + (y 0).val → (i 1).val = (y 1).val → x0 y = x i)
    (hw : ∀ y : S128x128.Idx, x1 y = w y)
    (j : S10000x128.Idx) (i : S100000x128.Idx) (hi0 : (i 0).val = n + (j 0).val) (hi1 : (i 1).val = (j 1).val) :
    k0_pay1 (F := Ideal) x0 x1 j = Cert.Spec.linear (F := Ideal) x w i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  rw [payload_apply, linear_apply]
  refine Finset.sum_congr rfl fun k _ => ?_
  rw [hx (ix2 p k) (ix2 r k) hi0 rfl, hw]

/-! ## The blocks of the grid's points -/

theorem zero_offsets : (![0, 0] : Fin 2 → Nat) = fun _ => 0 := funext fun a => by fin_cases a <;> rfl

/-- The block indices over the grid: at point t the left array's window and the result's are at row block t, and the
    weight's window stays at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left window's block at point t is entry (10000 t + p, k) of the left array. -/
theorem rows_apply (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c main_arg0 : S100000x128.Idx → Elt Ideal .f32) i := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weight window's block at every point is the whole weight. -/
theorem weight_apply (c : Dev nD) (t : Fin cfg0.N) (y : S128x128.Idx) :
    (iblk0 V c 1 t : Vec Ideal S128x128 .f32) y = (V c main_arg3 : S128x128.Idx → Elt Ideal .f32) y := by
  obtain ⟨-, -, e2, e3, -⟩ := index_facts t
  unfold iblk0
  rw [View.read_apply]
  show V c main_arg3 _ = V c main_arg3 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point t writes back is block t of the whole product: the body's one store covers the staging buffer, its
    payload is the product of the two loaded blocks, and the result's block t sits at rows 10000 t, …, 10000 t + 9999. -/
theorem flushed_eq (c : Dev nD) (t : Fin cfg0.N) :
    (dat0 (F := Ideal) V c).flushed 2 t
      = ((cfg0.win 2).blk t).view.read (Elt Ideal) (Cert.Spec.linear (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨-, -, -, -, e4, e5⟩ := index_facts t
  funext j
  show k0_pay1 (F := Ideal) (iblk0 V c 0 t) (iblk0 V c 1 t) j
    = Cert.Spec.linear (F := Ideal) (V c main_arg0) (V c main_arg3) (((cfg0.win 2).blk t).view.emb j)
  refine block_product (iblk0 V c 0 t) (iblk0 V c 1 t) (V c main_arg0) (V c main_arg3) (10000 * t.val)
    (fun y i h0 h1 => rows_apply V c t y i h0 h1) (fun y => weight_apply V c t y) j _ ?_ ?_
  · show win0_2.index t (0 : Fin 2) * 10000 + 1 * (j 0).val = 10000 * t.val + (j 0).val
    rw [e4]; omega
  · show win0_2.index t (1 : Fin 2) * 128 + 1 * (j 1).val = (j 1).val
    rw [e5]; omega

/-- An index of the result lies in point t's block iff each coordinate lies in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- Row r of the result lies in the block of point r / 10000, and every point writes its block back. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, e4, e5⟩ := index_facts t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    rw [e4]; omega
  | ⟨1, _⟩ =>
    show win0_2.index t (1 : Fin 2) * 128 ≤ (i 1).val ∧ (i 1).val < win0_2.index t (1 : Fin 2) * 128 + 128
    rw [e5]; omega

end Layer0

/-- The array the kernel leaves is the matrix product of the arrays it finds. -/
theorem linear0 (c : Dev nD) :
    (dat0 (F := Ideal) V c).arrAt 2 cfg0.N = Cert.Spec.linear (F := Ideal) (V c main_arg0) (V c main_arg3) :=
  (dat0 (F := Ideal) V c).arrAt_eq_of_cover 2 _ (fun t _ => Layer0.flushed_eq V c t) Layer0.covered

end Cert.KernelIdeal.Net

end
-- ==== Proof.Matmul2.lean ====
/-
  The second dense layer's kernel: ten row blocks of the features, each multiplied by the whole of W2; the blocks tile the
  result, so the array it leaves is h W2.
-/
import proofs.«429457_j46608985096492_1_alg».proof.Proof.Gen.KernelIdeal.Frame
import proofs.«429457_j46608985096492_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Layer2

/-! ## The two products read at an index

A block's product contracts axis 1 of a [10000,128] block with axis 0 of the [128,128] weight; the whole product
contracts axis 1 of the [100000,128] array with axis 0 of the weight. At the result's index (r, q) and the
contraction's index k each left operand is read at (r, k) and each right operand at (k, q): one fact per operand axis. -/

theorem lhs_block_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

theorem lhs_block_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem rhs_block_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem rhs_block_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- Entry (p, q) of a block's payload: row p of the block against column q of the weight. The cast of the
    block to its own shape and the change of float format in front of the product are the identity on the extended
    reals, and the accumulator is the zero splat. -/
theorem payload_apply (x0 : Vec Ideal S10000x128 .f32) (x1 : Vec Ideal S128x128 .f32) (p : Fin 10000) (q : Fin 128) :
    k2_pay1 (F := Ideal) x0 x1 (ix2 p q) = ∑ k : Fin 128, x0 (ix2 p k) * x1 (ix2 k q) := by
  unfold k2_pay1
  simp only [matmul, shapeCast_self]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact lhs_block_0 _ _
      | ⟨1, _⟩ => exact (lhs_block_1 _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (rhs_block_0 _ _).trans hk
      | ⟨1, _⟩ => exact rhs_block_1 _ _)
  rw [el, er]
  rfl

theorem lhs_whole_0 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl

theorem lhs_whole_1 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q

theorem rhs_whole_0 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q

theorem rhs_whole_1 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- Entry (r, q) of the whole product: row r of the left array against column q of the weight. -/
theorem linear_apply (x : FVec Ideal Cert.ReferenceIdeal.S100000x128 .f32) (w : FVec Ideal Cert.ReferenceIdeal.S128x128 .f32)
    (r : Fin 100000) (q : Fin 128) :
    Cert.Spec.linear (F := Ideal) x w (ix2 r q) = ∑ k : Fin 128, x (ix2 r k) * w (ix2 k q) := by
  unfold Cert.Spec.linear
  simp only [Host.dotGeneral]
  rw [Ideal.dotGeneral_apply,
    ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q)
      ((contrEquiv1 Cert.ReferenceIdeal.dot_S100000x128_S128x128_S100000x128_1_0_0_1_n_n 128 rfl rfl).symm k) = ix2 r k :=
    funext fun a => Fin.ext (by
      match a with
      | ⟨0, _⟩ => exact lhs_whole_0 _ _
      | ⟨1, _⟩ => exact (lhs_whole_1 _ _).trans hk)
  have er : Cert.ReferenceIdeal.dot_S100000x128_S128x128_S100000x128_1_0_0_1_n_n.rhsIdx (ix2 r q)
      ((contrEquiv1 Cert.ReferenceIdeal.dot_S100000x128_S128x128_S100000x128_1_0_0_1_n_n 128 rfl rfl).symm k) = ix2 k q :=
    funext fun a => Fin.ext (by
      match a with
      | ⟨0, _⟩ => exact (rhs_whole_0 _ _).trans hk
      | ⟨1, _⟩ => exact rhs_whole_1 _ _)
  rw [el, er]

/-- A block holding rows n, …, n + 9999 of the left array, times the weight, is those rows of the whole product:
    entry (p, q) of the one and entry (n + p, q) of the other are the same sum over the contracted axis. -/
theorem block_product (x0 : Vec Ideal S10000x128 .f32) (x1 : Vec Ideal S128x128 .f32)
    (x : FVec Ideal Cert.ReferenceIdeal.S100000x128 .f32) (w : FVec Ideal Cert.ReferenceIdeal.S128x128 .f32) (n : Nat)
    (hx : ∀ (y : S10000x128.Idx) (i : S100000x128.Idx), (i 0).val = n + (y 0).val → (i 1).val = (y 1).val → x0 y = x i)
    (hw : ∀ y : S128x128.Idx, x1 y = w y)
    (j : S10000x128.Idx) (i : S100000x128.Idx) (hi0 : (i 0).val = n + (j 0).val) (hi1 : (i 1).val = (j 1).val) :
    k2_pay1 (F := Ideal) x0 x1 j = Cert.Spec.linear (F := Ideal) x w i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  rw [payload_apply, linear_apply]
  refine Finset.sum_congr rfl fun k _ => ?_
  rw [hx (ix2 p k) (ix2 r k) hi0 rfl, hw]

/-! ## The blocks of the grid's points -/

theorem zero_offsets : (![0, 0] : Fin 2 → Nat) = fun _ => 0 := funext fun a => by fin_cases a <;> rfl

/-- The block indices over the grid: at point t the left array's window and the result's are at row block t, and the
    weight's window stays at block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the left window's block at point t is entry (10000 t + p, k) of the left array. -/
theorem rows_apply (c : Dev nD) (t : Fin cfg2.N) (y : S10000x128.Idx) (i : S100000x128.Idx)
    (h0 : (i 0).val = 10000 * t.val + (y 0).val) (h1 : (i 1).val = (y 1).val) :
    (iblk2 V c 0 t : Vec Ideal S10000x128 .f32) y = (V c main_v45 : S100000x128.Idx → Elt Ideal .f32) i := by
  obtain ⟨e0, e1, -⟩ := index_facts t
  unfold iblk2
  rw [View.read_apply]
  show V c main_v45 _ = V c main_v45 _
  congr 1
  funext a
  apply Fin.ext
  match a with
  | ⟨0, _⟩ => show win2_0.index t (0 : Fin 2) * 10000 + 1 * (y 0).val = (i 0).val; rw [e0, h0]; omega
  | ⟨1, _⟩ => show win2_0.index t (1 : Fin 2) * 128 + 1 * (y 1).val = (i 1).val; rw [e1, h1]; omega

/-- The weight window's block at every point is the whole weight. -/
theorem weight_apply (c : Dev nD) (t : Fin cfg2.N) (y : S128x128.Idx) :
    (iblk2 V c 1 t : Vec Ideal S128x128 .f32) y = (V c main_arg5 : S128x128.Idx → Elt Ideal .f32) y := by
  obtain ⟨-, -, e2, e3, -⟩ := index_facts t
  unfold iblk2
  rw [View.read_apply]
  show V c main_arg5 _ = V c main_arg5 _
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- What point t writes back is block t of the whole product: the body's one store covers the staging buffer, its
    payload is the product of the two loaded blocks, and the result's block t sits at rows 10000 t, …, 10000 t + 9999. -/
theorem flushed_eq (c : Dev nD) (t : Fin cfg2.N) :
    (dat2 (F := Ideal) V c).flushed 2 t
      = ((cfg2.win 2).blk t).view.read (Elt Ideal) (Cert.Spec.linear (F := Ideal) (V c main_v45) (V c main_arg5)) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x128) zero_offsets]
  obtain ⟨-, -, -, -, e4, e5⟩ := index_facts t
  funext j
  show k2_pay1 (F := Ideal) (iblk2 V c 0 t) (iblk2 V c 1 t) j
    = Cert.Spec.linear (F := Ideal) (V c main_v45) (V c main_arg5) (((cfg2.win 2).blk t).view.emb j)
  refine block_product (iblk2 V c 0 t) (iblk2 V c 1 t) (V c main_v45) (V c main_arg5) (10000 * t.val)
    (fun y i h0 h1 => rows_apply V c t y i h0 h1) (fun y => weight_apply V c t y) j _ ?_ ?_
  · show win2_2.index t (0 : Fin 2) * 10000 + 1 * (j 0).val = 10000 * t.val + (j 0).val
    rw [e4]; omega
  · show win2_2.index t (1 : Fin 2) * 128 + 1 * (j 1).val = (j 1).val
    rw [e5]; omega

/-- An index of the result lies in point t's block iff each coordinate lies in the block's range on its axis. -/
theorem mem_block (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v46).slice (win2_2.rect t)).set ↔ _
  rw [View.set_slice_whole, Rect.mem_set_unit]
  exact Iff.rfl

/-- Row r of the result lies in the block of point r / 10000, and every point writes its block back. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, e4, e5⟩ := index_facts t
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    rw [e4]; omega
  | ⟨1, _⟩ =>
    show win2_2.index t (1 : Fin 2) * 128 ≤ (i 1).val ∧ (i 1).val < win2_2.index t (1 : Fin 2) * 128 + 128
    rw [e5]; omega

end Layer2

/-- The array the kernel leaves is the matrix product of the arrays it finds. -/
theorem linear2 (c : Dev nD) :
    (dat2 (F := Ideal) V c).arrAt 2 cfg2.N = Cert.Spec.linear (F := Ideal) (V c main_v45) (V c main_arg5) :=
  (dat2 (F := Ideal) V c).arrAt_eq_of_cover 2 _ (fun t _ => Layer2.flushed_eq V c t) Layer2.covered

end Cert.KernelIdeal.Net

end
-- ==== Proof.Matmul4.lean ====
/-
  The third dense layer's kernel: ten row blocks of the features, each multiplied by the whole of W3; the blocks tile the
  result, so the array it leaves is h W3.
-/
import proofs.«429457_j46608985096492_1_alg».proof.Proof.Gen.KernelIdeal.Frame
import proofs.«429457_j46608985096492_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Layer4

/-! ## The two products read at an index

A block's product contracts axis 1 of a [10000,128] block with axis 0 of the [128,128] weight; the whole product
contracts axis 1 of the [100000,128] array with axis 0 of the weight. At the result's index (r, q) and the
contraction's index k each left operand is read at (r, k) and each right operand at (k, q): one fact per operand axis. -/

theorem lhs_block_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

theorem lhs_block_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem rhs_block_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem rhs_block_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- Entry (p, q) of a block's payload: row p of the block against column q of the weight. The cast of the
    block to its own shape and the change of float format in front of the product are the identity on the extended
    reals, and the accumulator is the zero splat. -/
theorem payload_apply (x0 : Vec Ideal S10000x128 .f32) (x1 : Vec Ideal S128x128 .f32) (p : Fin 10000) (q : Fin 128) :
    k4_pay1 (F := Ideal) x0 x1 (ix2 p q) = ∑ k : Fin 128, x0 (ix2 p k) * x1 (ix2 k q) := by
  unfold k4_pay1
  simp only [matmul, shapeCast_self]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact lhs_block_0 _ _
      | ⟨1, _⟩ => exact (lhs_block_1 _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (rhs_block_0 _ _).trans hk
      | ⟨1, _⟩ => exact rhs_block_1 _ _)
  rw [el, er]
  rfl

theorem lhs_whole_0 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl

theorem lhs_whole_1 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q

theorem rhs_whole_0 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q

theorem rhs_whole_1 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- Entry (r, q) of the whole product: row r of the left array against column q of the weight. -/
theorem linear_apply (x : FVec Ideal Cert.ReferenceIdeal.S100000x128 .f32) (w : FVec Ideal Cert.ReferenceIdeal.S128x128 .f32)
    (r : Fin 100000) (q : Fin 128) :
    Cert.Spec.linear (F := Ideal) x w (ix2 r q) = ∑ k : Fin 128, x (ix2 r k) * w (ix2 k q) := by
  unfold Cert.Spec.linear
  simp only [Host.dotGeneral]
  rw [Ideal.dotGeneral_apply,
    ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q)
      ((contrEquiv1 Cert.ReferenceIdeal.dot_S100000x128_S128x128_S100000x128_1_0_0_1_n_n 128 rfl rfl).symm k) = ix2 r k :=
    funext fun a => Fin.ext (by
      match a with
      | ⟨0, _⟩ => exact lhs_whole_0 _ _
      | ⟨1, _⟩ => exact (lhs_whole_1 _ _).trans hk)
  have er : Cert.ReferenceIdeal.dot_S100000x128_S128x128_S100000x128_1_0_0_1_n_n.rhsIdx (ix2 r q)
      ((contrEquiv1 Cert.ReferenceIdeal.dot_S100000x128_S128x128_S100000x128_1_0_0_1_n_n 128 rfl rfl).symm k) = ix2 k q :=
    funext fun a => Fin.ext (by
      match a with
      | ⟨0, _⟩ => exact (rhs_whole_0 _ _).trans hk
      | ⟨1, _⟩ => exact rhs_whole_1 _ _)
  rw [el, er]

/-- A block holding rows n, …, n + 9999 of the left array, times the weight, is those rows of the whole product:
    entry (p, q) of the one and entry (n + p, q) of the other are the same sum over the contracted axis. -/
theorem block_product (x0 : Vec Ideal S10000x128 .f32) (x1 : Vec Ideal S128x128 .f32)
    (x : FVec Ideal Cert.ReferenceIdeal.S100000x128 .f32) (w : FVec Ideal Cert.ReferenceIdeal.S128x128 .f32) (n : Nat)
    (hx : ∀ (y : S10000x128.Idx) (i : S100000x128.Idx), (i 0).val = n + (y 0).val → (i 1).val = (y 1).val → x0 y = x i)
    (hw : ∀ y : S128x128.Idx, x1 y = w y)
    (j : S10000x128.Idx) (i : S100000x128.Idx) (hi0 : (i 0).val = n + (j 0).val) (hi1 : (i 1).val = (j 1).val) :
    k4_pay1 (F := Ideal) x0 x1 j = Cert.Spec.linear (F := Ideal) x w i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  rw [payload_apply, linear_apply]
  refine Finset.sum_congr rfl fun k _ => ?_
  rw [hx (ix2 p k) (ix2 r k) hi0 rfl, hw]

/-! ## The blocks of the grid's points -/

theorem zero_offsets : (![0, 0] : Fin 2 → Nat) = fun _ => 0 := funext fun a => by fin_cases a <;> rfl

/-- The block indices over the grid: at point t the left array's window and the result's are at row block t, and the
    weight's window stays at block (0, 0). -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (p, k) of the left window's block at point t is entry (10000 t + p, k) of the left array. -/
theorem rows_apply (c : Dev nD) (t : Fin cfg4.N) (y : S10000x128.Idx) (i : S100000x128.Idx)
    (h0 : (i 0).val = 10000 * t.val + (y 0).val) (h1 : (i 1).val = (y 1).val) :
    (iblk4 V c 0 t : Vec Ideal S10000x128 .f32) y = (V c main_v61 : S100000x128.Idx → Elt Ideal .f32) i := by
  obtain ⟨e0, e1, -⟩ := index_facts t
  unfold iblk4
  rw [View.read_apply]
  show V c main_v61 _ = V c main_v61 _
  congr 1
  funext a
  apply Fin.ext
  match a with
  | ⟨0, _⟩ => show win4_0.index t (0 : Fin 2) * 10000 + 1 * (y 0).val = (i 0).val; rw [e0, h0]; omega
  | ⟨1, _⟩ => show win4_0.index t (1 : Fin 2) * 128 + 1 * (y 1).val = (i 1).val; rw [e1, h1]; omega

/-- The weight window's block at every point is the whole weight. -/
theorem weight_apply (c : Dev nD) (t : Fin cfg4.N) (y : S128x128.Idx) :
    (iblk4 V c 1 t : Vec Ideal S128x128 .f32) y = (V c main_arg7 : S128x128.Idx → Elt Ideal .f32) y := by
  obtain ⟨-, -, e2, e3, -⟩ := index_facts t
  unfold iblk4
  rw [View.read_apply]
  show V c main_arg7 _ = V c main_arg7 _
  congr 1
  funext a
  apply Fin.ext
  match a with
  | ⟨0, _⟩ => show win4_1.index t (0 : Fin 2) * 128 + 1 * (y 0).val = (y 0).val; rw [e2]; omega
  | ⟨1, _⟩ => show win4_1.index t (1 : Fin 2) * 128 + 1 * (y 1).val = (y 1).val; rw [e3]; omega

/-- What point t writes back is block t of the whole product: the body's one store covers the staging buffer, its
    payload is the product of the two loaded blocks, and the result's block t sits at rows 10000 t, …, 10000 t + 9999. -/
theorem flushed_eq (c : Dev nD) (t : Fin cfg4.N) :
    (dat4 (F := Ideal) V c).flushed 2 t
      = ((cfg4.win 2).blk t).view.read (Elt Ideal) (Cert.Spec.linear (F := Ideal) (V c main_v61) (V c main_arg7)) := by
  show (cfg4.win 2).cut (grid4.coords t) ((dat4 V c).after 2 t) = _
  rw [after4_2]
  unfold out4_2
  rw [View.canon_unit_zero zero_offsets]
  simp only [View.ld_unit_zero (S := S10000x128) zero_offsets, View.ld_unit_zero (S := S128x128) zero_offsets]
  obtain ⟨-, -, -, -, e4, e5⟩ := index_facts t
  funext j
  show k4_pay1 (F := Ideal) (iblk4 V c 0 t) (iblk4 V c 1 t) j
    = Cert.Spec.linear (F := Ideal) (V c main_v61) (V c main_arg7) (((cfg4.win 2).blk t).view.emb j)
  refine block_product (iblk4 V c 0 t) (iblk4 V c 1 t) (V c main_v61) (V c main_arg7) (10000 * t.val)
    (fun y i h0 h1 => rows_apply V c t y i h0 h1) (fun y => weight_apply V c t y) j _ ?_ ?_
  · show win4_2.index t (0 : Fin 2) * 10000 + 1 * (j 0).val = 10000 * t.val + (j 0).val
    rw [e4]; omega
  · show win4_2.index t (1 : Fin 2) * 128 + 1 * (j 1).val = (j 1).val
    rw [e5]; omega

/-- An index of the result lies in point t's block iff each coordinate lies in the block's range on its axis. -/
theorem mem_block (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v62).slice (win4_2.rect t)).set ↔ _
  rw [View.set_slice_whole, Rect.mem_set_unit]
  exact Iff.rfl

/-- Row r of the result lies in the block of point r / 10000, and every point writes its block back. -/
theorem covered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 10 := N_4
  obtain ⟨t, ht⟩ : ∃ t : Fin cfg4.N, t.val = (i 0).val / 10000 := ⟨⟨(i 0).val / 10000, by omega⟩, rfl⟩
  obtain ⟨-, -, -, -, e4, e5⟩ := index_facts t
  refine ⟨t, flush4_2 t, ?_⟩
  rw [mem_block]
  intro a
  match a with
  | ⟨0, _⟩ =>
    show win4_2.index t (0 : Fin 2) * 10000 ≤ (i 0).val ∧ (i 0).val < win4_2.index t (0 : Fin 2) * 10000 + 10000
    rw [e4]; omega
  | ⟨1, _⟩ =>
    show win4_2.index t (1 : Fin 2) * 128 ≤ (i 1).val ∧ (i 1).val < win4_2.index t (1 : Fin 2) * 128 + 128
    rw [e5]; omega

end Layer4

/-- The array the kernel leaves is the matrix product of the arrays it finds. -/
theorem linear4 (c : Dev nD) :
    (dat4 (F := Ideal) V c).arrAt 2 cfg4.N = Cert.Spec.linear (F := Ideal) (V c main_v61) (V c main_arg7) :=
  (dat4 (F := Ideal) V c).arrAt_eq_of_cover 2 _ (fun t _ => Layer4.flushed_eq V c t) Layer4.covered

end Cert.KernelIdeal.Net

end
-- ==== Proof.Bias1.lean ====
/-
  The first bias kernel: ten row blocks, each with the one-row bias added to every row and max(·, 0) taken.
-/
import proofs.«429457_j46608985096492_1_alg».proof.Proof.Gen.KernelIdeal.Frame
import proofs.«429457_j46608985096492_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The offsets of a whole-buffer access are zero on both axes. -/
theorem zeroOff1 : (![0, 0] : Fin 2 → Nat) = fun _ => 0 := funext fun a => by fin_cases a <;> rfl

/-- The body's value at row p, column q of a block: the block's entry plus the bias row's entry in that column,
    then the maximum with zero. -/
theorem pay1_at (x0 : Vec Ideal S10000x128 .f32) (x1 : Vec Ideal S1x128 .f32) (p : Fin 10000) (q : Fin 128) :
    k1_pay1 (F := Ideal) x0 x1 (ix2 p q)
      = max (x0 (ix2 p q) + x1 (ix2 (0 : Fin 1) q)) (Ideal.ofBits .f32 0x00000000#32) := by
  unfold k1_pay1
  rw [maximumf_apply, addf_apply, broadcast_apply, shapeCast_self, shapeCast_self]
  rw [broadcastTo_apply x1 _ (ix2 p q) (ix2 (0 : Fin 1) q) (fun a => by
    match a with
    | ⟨0, _⟩ => rfl
    | ⟨1, _⟩ => rfl)]
  rfl

/-- The specification at row r, column q: the same expression over the whole arrays. -/
theorem spec1_at (a : Cert.Spec.Arr Ideal ⟨Cert.ReferenceIdeal.S100000x128, .f32⟩) (b : Cert.Spec.Arr Ideal ⟨Cert.ReferenceIdeal.S1x128, .f32⟩)
    (r : Fin 100000) (q : Fin 128) :
    Cert.Spec.relu (F := Ideal) (Cert.Spec.addBiasRow (F := Ideal) a b) (ix2 r q)
      = max (a (ix2 r q) + b (ix2 (0 : Fin 1) q)) (Ideal.ofBits .f32 0x00000000#32) := by
  unfold Cert.Spec.relu Cert.Spec.addBiasRow
  rw [maximumf_apply, addf_apply]
  rw [broadcastInDim_apply _ _ b (ix2 r q) (ix2 (0 : Fin 1) q) (fun a => by
    match a with
    | ⟨0, _⟩ => rfl
    | ⟨1, _⟩ => rfl)]
  rw [broadcastInDim_apply _ _ _ (ix2 r q) ix0 (fun a => a.elim0)]
  rfl

/-- One entry of a block's result against one entry of the specification: when the block's entry (p, q) is the
    array's entry (r, q) and the loaded bias row is the bias row, the two agree. -/
theorem entry1 (a : Cert.Spec.Arr Ideal ⟨Cert.ReferenceIdeal.S100000x128, .f32⟩) (b : Cert.Spec.Arr Ideal ⟨Cert.ReferenceIdeal.S1x128, .f32⟩)
    (x0 : Vec Ideal S10000x128 .f32) (x1 : Vec Ideal S1x128 .f32) (p : Fin 10000) (q : Fin 128) (r : Fin 100000)
    (h0 : x0 (ix2 p q) = a (ix2 r q)) (h1 : x1 (ix2 (0 : Fin 1) q) = b (ix2 (0 : Fin 1) q)) :
    k1_pay1 (F := Ideal) x0 x1 (ix2 p q) = Cert.Spec.relu (F := Ideal) (Cert.Spec.addBiasRow (F := Ideal) a b) (ix2 r q) := by
  rw [pay1_at, spec1_at, h0, h1]

/-- The windows' index maps over the grid: the row blocks of the input and of the output move with the point,
    the bias row stays where it is. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the specification's array: entry (p, q) of the block is entry
    (10000 t + p, q) of the array, on the input's side and on the output's side alike. -/
theorem flushed1_eq (c : Dev nD) (t : Fin cfg1.N) :
    (dat1 (F := Ideal) V c).flushed 2 t
      = ((cfg1.win 2).blk t).view.read (Elt Ideal) (Cert.Spec.relu (F := Ideal) (Cert.Spec.addBiasRow (F := Ideal) (V c main_v43) (V c main_v44))) := by
  show (cfg1.win 2).cut (grid1.coords t) ((dat1 (F := Ideal) V c).after 2 t) = _
  rw [after1_2]
  unfold out1_2
  rw [View.canon_unit_zero zeroOff1]
  simp only [View.ld_unit_zero (S := S10000x128) zeroOff1, View.ld_unit_zero (S := S1x128) zeroOff1]
  obtain ⟨e00, e01, e10, e11, e20, e21⟩ := idx1 t
  have ht : t.val < 10 := by have h := t.isLt; have hN : cfg1.N = 10 := N_1; omega
  funext j
  have hj0 : (j 0).val < 10000 := (j 0).isLt
  have hj1 : (j 1).val < 128 := (j 1).isLt
  obtain ⟨p, q, hpq, hp, hq⟩ : ∃ (p : Fin 10000) (q : Fin 128), (win1 2).xinj (grid1.coords t) j = ix2 p q ∧ p.val = (j 0).val ∧ q.val = (j 1).val :=
    ⟨⟨_, hj0⟩, ⟨_, hj1⟩, funext fun a => by match a with | ⟨0, _⟩ => rfl | ⟨1, _⟩ => rfl, rfl, rfl⟩
  obtain ⟨r, hr⟩ : ∃ r : Fin 100000, r.val = t.val * 10000 + p.val := ⟨⟨t.val * 10000 + p.val, by omega⟩, rfl⟩
  have hemb : ((cfg1.win 2).blk t).view.emb j = ix2 r q := by
    funext a; apply Fin.ext
    match a with
    | ⟨0, _⟩ => show win1_2.index t (0 : Fin 2) * 10000 + 1 * (j 0).val = r.val; omega
    | ⟨1, _⟩ => show win1_2.index t (1 : Fin 2) * 128 + 1 * (j 1).val = q.val; omega
  show k1_pay1 (iblk1 V c 0 t) (iblk1 V c 1 t) ((win1 2).xinj (grid1.coords t) j)
    = Cert.Spec.relu (F := Ideal) (Cert.Spec.addBiasRow (F := Ideal) (V c main_v43) (V c main_v44)) (((cfg1.win 2).blk t).view.emb j)
  rw [hpq, hemb]
  refine entry1 (V c main_v43) (V c main_v44) (iblk1 V c 0 t) (iblk1 V c 1 t) p q r ?_ ?_
  · show V c main_v43 (((cfg1.win 0).blk t).view.emb (ix2 p q)) = V c main_v43 (ix2 r q)
    refine congrArg (V c main_v43) (funext fun a => Fin.ext ?_)
    match a with
    | ⟨0, _⟩ => show win1_0.index t (0 : Fin 2) * 10000 + 1 * p.val = r.val; omega
    | ⟨1, _⟩ => show win1_0.index t (1 : Fin 2) * 128 + 1 * q.val = q.val; omega
  · show V c main_v44 (((cfg1.win 1).blk t).view.emb (ix2 (0 : Fin 1) q)) = V c main_v44 (ix2 (0 : Fin 1) q)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega

/-- An index of the array lies in point t's block iff each coordinate lies in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- Row r of the array lies in the block of point r / 10000, and every point writes its block back. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by omega⟩, rfl⟩
  obtain ⟨-, -, -, -, e20, e21⟩ := idx1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array the kernel leaves is max(a + b, 0), the one-row b added to every row of a. -/
theorem biasRelu1 (c : Dev nD) :
    (dat1 (F := Ideal) V c).arrAt 2 cfg1.N = Cert.Spec.relu (F := Ideal) (Cert.Spec.addBiasRow (F := Ideal) (V c main_v43) (V c main_v44)) :=
  (dat1 (F := Ideal) V c).arrAt_eq_of_cover 2 _ (fun t _ => flushed1_eq V c t) cover1

end Cert.KernelIdeal.Net

end
-- ==== Proof.Bias3.lean ====
/-
  The second bias kernel: ten row blocks, each with the one-row bias added to every row and max(·, 0) taken.
-/
import proofs.«429457_j46608985096492_1_alg».proof.Proof.Gen.KernelIdeal.Frame
import proofs.«429457_j46608985096492_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The offsets of a whole-buffer access are zero on both axes. -/
theorem zeroOff3 : (![0, 0] : Fin 2 → Nat) = fun _ => 0 := funext fun a => by fin_cases a <;> rfl

/-- The body's value at row p, column q of a block: the block's entry plus the bias row's entry in that column,
    then the maximum with zero. -/
theorem pay3_at (x0 : Vec Ideal S10000x128 .f32) (x1 : Vec Ideal S1x128 .f32) (p : Fin 10000) (q : Fin 128) :
    k3_pay1 (F := Ideal) x0 x1 (ix2 p q)
      = max (x0 (ix2 p q) + x1 (ix2 (0 : Fin 1) q)) (Ideal.ofBits .f32 0x00000000#32) := by
  unfold k3_pay1
  rw [maximumf_apply, addf_apply, broadcast_apply, shapeCast_self, shapeCast_self]
  rw [broadcastTo_apply x1 _ (ix2 p q) (ix2 (0 : Fin 1) q) (fun a => by
    match a with
    | ⟨0, _⟩ => rfl
    | ⟨1, _⟩ => rfl)]
  rfl

/-- The specification at row r, column q: the same expression over the whole arrays. -/
theorem spec3_at (a : Cert.Spec.Arr Ideal ⟨Cert.ReferenceIdeal.S100000x128, .f32⟩) (b : Cert.Spec.Arr Ideal ⟨Cert.ReferenceIdeal.S1x128, .f32⟩)
    (r : Fin 100000) (q : Fin 128) :
    Cert.Spec.relu (F := Ideal) (Cert.Spec.addBiasRow (F := Ideal) a b) (ix2 r q)
      = max (a (ix2 r q) + b (ix2 (0 : Fin 1) q)) (Ideal.ofBits .f32 0x00000000#32) := by
  unfold Cert.Spec.relu Cert.Spec.addBiasRow
  rw [maximumf_apply, addf_apply]
  rw [broadcastInDim_apply _ _ b (ix2 r q) (ix2 (0 : Fin 1) q) (fun a => by
    match a with
    | ⟨0, _⟩ => rfl
    | ⟨1, _⟩ => rfl)]
  rw [broadcastInDim_apply _ _ _ (ix2 r q) ix0 (fun a => a.elim0)]
  rfl

/-- One entry of a block's result against one entry of the specification: when the block's entry (p, q) is the
    array's entry (r, q) and the loaded bias row is the bias row, the two agree. -/
theorem entry3 (a : Cert.Spec.Arr Ideal ⟨Cert.ReferenceIdeal.S100000x128, .f32⟩) (b : Cert.Spec.Arr Ideal ⟨Cert.ReferenceIdeal.S1x128, .f32⟩)
    (x0 : Vec Ideal S10000x128 .f32) (x1 : Vec Ideal S1x128 .f32) (p : Fin 10000) (q : Fin 128) (r : Fin 100000)
    (h0 : x0 (ix2 p q) = a (ix2 r q)) (h1 : x1 (ix2 (0 : Fin 1) q) = b (ix2 (0 : Fin 1) q)) :
    k3_pay1 (F := Ideal) x0 x1 (ix2 p q) = Cert.Spec.relu (F := Ideal) (Cert.Spec.addBiasRow (F := Ideal) a b) (ix2 r q) := by
  rw [pay3_at, spec3_at, h0, h1]

/-- The windows' index maps over the grid: the row blocks of the input and of the output move with the point,
    the bias row stays where it is. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the specification's array: entry (p, q) of the block is entry
    (10000 t + p, q) of the array, on the input's side and on the output's side alike. -/
theorem flushed3_eq (c : Dev nD) (t : Fin cfg3.N) :
    (dat3 (F := Ideal) V c).flushed 2 t
      = ((cfg3.win 2).blk t).view.read (Elt Ideal) (Cert.Spec.relu (F := Ideal) (Cert.Spec.addBiasRow (F := Ideal) (V c main_v59) (V c main_v60))) := by
  show (cfg3.win 2).cut (grid3.coords t) ((dat3 (F := Ideal) V c).after 2 t) = _
  rw [after3_2]
  unfold out3_2
  rw [View.canon_unit_zero zeroOff3]
  simp only [View.ld_unit_zero (S := S10000x128) zeroOff3, View.ld_unit_zero (S := S1x128) zeroOff3]
  obtain ⟨e00, e01, e10, e11, e20, e21⟩ := idx3 t
  have ht : t.val < 10 := by have h := t.isLt; have hN : cfg3.N = 10 := N_3; omega
  funext j
  have hj0 : (j 0).val < 10000 := (j 0).isLt
  have hj1 : (j 1).val < 128 := (j 1).isLt
  obtain ⟨p, q, hpq, hp, hq⟩ : ∃ (p : Fin 10000) (q : Fin 128), (win3 2).xinj (grid3.coords t) j = ix2 p q ∧ p.val = (j 0).val ∧ q.val = (j 1).val :=
    ⟨⟨_, hj0⟩, ⟨_, hj1⟩, funext fun a => by match a with | ⟨0, _⟩ => rfl | ⟨1, _⟩ => rfl, rfl, rfl⟩
  obtain ⟨r, hr⟩ : ∃ r : Fin 100000, r.val = t.val * 10000 + p.val := ⟨⟨t.val * 10000 + p.val, by omega⟩, rfl⟩
  have hemb : ((cfg3.win 2).blk t).view.emb j = ix2 r q := by
    funext a; apply Fin.ext
    match a with
    | ⟨0, _⟩ => show win3_2.index t (0 : Fin 2) * 10000 + 1 * (j 0).val = r.val; omega
    | ⟨1, _⟩ => show win3_2.index t (1 : Fin 2) * 128 + 1 * (j 1).val = q.val; omega
  show k3_pay1 (iblk3 V c 0 t) (iblk3 V c 1 t) ((win3 2).xinj (grid3.coords t) j)
    = Cert.Spec.relu (F := Ideal) (Cert.Spec.addBiasRow (F := Ideal) (V c main_v59) (V c main_v60)) (((cfg3.win 2).blk t).view.emb j)
  rw [hpq, hemb]
  refine entry3 (V c main_v59) (V c main_v60) (iblk3 V c 0 t) (iblk3 V c 1 t) p q r ?_ ?_
  · show V c main_v59 (((cfg3.win 0).blk t).view.emb (ix2 p q)) = V c main_v59 (ix2 r q)
    refine congrArg (V c main_v59) (funext fun a => Fin.ext ?_)
    match a with
    | ⟨0, _⟩ => show win3_0.index t (0 : Fin 2) * 10000 + 1 * p.val = r.val; omega
    | ⟨1, _⟩ => show win3_0.index t (1 : Fin 2) * 128 + 1 * q.val = q.val; omega
  · show V c main_v60 (((cfg3.win 1).blk t).view.emb (ix2 (0 : Fin 1) q)) = V c main_v60 (ix2 (0 : Fin 1) q)
    refine congrArg (V c main_v60) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega

/-- An index of the array lies in point t's block iff each coordinate lies in the block's range on its axis. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v61).slice (win3_2.rect t)).set ↔ _
  rw [View.set_slice_whole, Rect.mem_set_unit]
  exact Iff.rfl

/-- Row r of the array lies in the block of point r / 10000, and every point writes its block back. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  obtain ⟨t, ht⟩ : ∃ t : Fin cfg3.N, t.val = (i 0).val / 10000 := ⟨⟨(i 0).val / 10000, by omega⟩, rfl⟩
  obtain ⟨-, -, -, -, e20, e21⟩ := idx3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The array the kernel leaves is max(a + b, 0), the one-row b added to every row of a. -/
theorem biasRelu3 (c : Dev nD) :
    (dat3 (F := Ideal) V c).arrAt 2 cfg3.N = Cert.Spec.relu (F := Ideal) (Cert.Spec.addBiasRow (F := Ideal) (V c main_v59) (V c main_v60)) :=
  (dat3 (F := Ideal) V c).arrAt_eq_of_cover 2 _ (fun t _ => flushed3_eq V c t) cover3

end Cert.KernelIdeal.Net

end
-- ==== Proof.Bias5.lean ====
/-
  The last bias kernel: ten row blocks, each with the one-row bias added to every row (no relu).
-/
import proofs.«429457_j46608985096492_1_alg».proof.Proof.Gen.KernelIdeal.Frame
import proofs.«429457_j46608985096492_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The offsets of a whole-buffer access are zero on both axes. -/
theorem zeroOff5 : (![0, 0] : Fin 2 → Nat) = fun _ => 0 := funext fun a => by fin_cases a <;> rfl

/-- The body's value at row p, column q of a block: the block's entry plus the bias row's entry in that column. -/
theorem pay5_at (x0 : Vec Ideal S10000x128 .f32) (x1 : Vec Ideal S1x128 .f32) (p : Fin 10000) (q : Fin 128) :
    k5_pay1 (F := Ideal) x0 x1 (ix2 p q) = x0 (ix2 p q) + x1 (ix2 (0 : Fin 1) q) := by
  unfold k5_pay1
  rw [addf_apply, shapeCast_self, shapeCast_self]
  rw [broadcastTo_apply x1 _ (ix2 p q) (ix2 (0 : Fin 1) q) (fun a => by
    match a with
    | ⟨0, _⟩ => rfl
    | ⟨1, _⟩ => rfl)]

/-- The specification at row r, column q: the same sum over the whole arrays. -/
theorem spec5_at (a : Cert.Spec.Arr Ideal ⟨Cert.ReferenceIdeal.S100000x128, .f32⟩) (b : Cert.Spec.Arr Ideal ⟨Cert.ReferenceIdeal.S1x128, .f32⟩)
    (r : Fin 100000) (q : Fin 128) :
    Cert.Spec.addBiasRow (F := Ideal) a b (ix2 r q) = a (ix2 r q) + b (ix2 (0 : Fin 1) q) := by
  unfold Cert.Spec.addBiasRow
  rw [addf_apply]
  rw [broadcastInDim_apply _ _ b (ix2 r q) (ix2 (0 : Fin 1) q) (fun a => by
    match a with
    | ⟨0, _⟩ => rfl
    | ⟨1, _⟩ => rfl)]

/-- One entry of a block's result against one entry of the specification: when the block's entry (p, q) is the
    array's entry (r, q) and the loaded bias row is the bias row, the two agree. -/
theorem entry5 (a : Cert.Spec.Arr Ideal ⟨Cert.ReferenceIdeal.S100000x128, .f32⟩) (b : Cert.Spec.Arr Ideal ⟨Cert.ReferenceIdeal.S1x128, .f32⟩)
    (x0 : Vec Ideal S10000x128 .f32) (x1 : Vec Ideal S1x128 .f32) (p : Fin 10000) (q : Fin 128) (r : Fin 100000)
    (h0 : x0 (ix2 p q) = a (ix2 r q)) (h1 : x1 (ix2 (0 : Fin 1) q) = b (ix2 (0 : Fin 1) q)) :
    k5_pay1 (F := Ideal) x0 x1 (ix2 p q) = Cert.Spec.addBiasRow (F := Ideal) a b (ix2 r q) := by
  rw [pay5_at, spec5_at, h0, h1]

/-- The windows' index maps over the grid: the row blocks of the input and of the output move with the point,
    the bias row stays where it is. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the specification's array: entry (p, q) of the block is entry
    (10000 t + p, q) of the array, on the input's side and on the output's side alike. -/
theorem flushed5_eq (c : Dev nD) (t : Fin cfg5.N) :
    (dat5 (F := Ideal) V c).flushed 2 t
      = ((cfg5.win 2).blk t).view.read (Elt Ideal) (Cert.Spec.addBiasRow (F := Ideal) (V c main_v75) (V c main_v76)) := by
  show (cfg5.win 2).cut (grid5.coords t) ((dat5 (F := Ideal) V c).after 2 t) = _
  rw [after5_2]
  unfold out5_2
  rw [View.canon_unit_zero zeroOff5]
  simp only [View.ld_unit_zero (S := S10000x128) zeroOff5, View.ld_unit_zero (S := S1x128) zeroOff5]
  obtain ⟨e00, e01, e10, e11, e20, e21⟩ := idx5 t
  have ht : t.val < 10 := by have h := t.isLt; have hN : cfg5.N = 10 := N_5; omega
  funext j
  have hj0 : (j 0).val < 10000 := (j 0).isLt
  have hj1 : (j 1).val < 128 := (j 1).isLt
  obtain ⟨p, q, hpq, hp, hq⟩ : ∃ (p : Fin 10000) (q : Fin 128), (win5 2).xinj (grid5.coords t) j = ix2 p q ∧ p.val = (j 0).val ∧ q.val = (j 1).val :=
    ⟨⟨_, hj0⟩, ⟨_, hj1⟩, funext fun a => by match a with | ⟨0, _⟩ => rfl | ⟨1, _⟩ => rfl, rfl, rfl⟩
  obtain ⟨r, hr⟩ : ∃ r : Fin 100000, r.val = t.val * 10000 + p.val := ⟨⟨t.val * 10000 + p.val, by omega⟩, rfl⟩
  have hemb : ((cfg5.win 2).blk t).view.emb j = ix2 r q := by
    funext a; apply Fin.ext
    match a with
    | ⟨0, _⟩ => show win5_2.index t (0 : Fin 2) * 10000 + 1 * (j 0).val = r.val; omega
    | ⟨1, _⟩ => show win5_2.index t (1 : Fin 2) * 128 + 1 * (j 1).val = q.val; omega
  show k5_pay1 (iblk5 V c 0 t) (iblk5 V c 1 t) ((win5 2).xinj (grid5.coords t) j)
    = Cert.Spec.addBiasRow (F := Ideal) (V c main_v75) (V c main_v76) (((cfg5.win 2).blk t).view.emb j)
  rw [hpq, hemb]
  refine entry5 (V c main_v75) (V c main_v76) (iblk5 V c 0 t) (iblk5 V c 1 t) p q r ?_ ?_
  · show V c main_v75 (((cfg5.win 0).blk t).view.emb (ix2 p q)) = V c main_v75 (ix2 r q)
    refine congrArg (V c main_v75) (funext fun a => Fin.ext ?_)
    match a with
    | ⟨0, _⟩ => show win5_0.index t (0 : Fin 2) * 10000 + 1 * p.val = r.val; omega
    | ⟨1, _⟩ => show win5_0.index t (1 : Fin 2) * 128 + 1 * q.val = q.val; omega
  · show V c main_v76 (((cfg5.win 1).blk t).view.emb (ix2 (0 : Fin 1) q)) = V c main_v76 (ix2 (0 : Fin 1) q)
    refine congrArg (V c main_v76) (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega

/-- An index of the array lies in point t's block iff each coordinate lies in the block's range on its axis. -/
theorem mem_blk5 (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v77).slice (win5_2.rect t)).set ↔ _
  rw [View.set_slice_whole, Rect.mem_set_unit]
  exact Iff.rfl

/-- Row r of the array lies in the block of point r / 10000, and every point writes its block back. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 10 := N_5
  obtain ⟨t, ht⟩ : ∃ t : Fin cfg5.N, t.val = (i 0).val / 10000 := ⟨⟨(i 0).val / 10000, by omega⟩, rfl⟩
  obtain ⟨-, -, -, -, e20, e21⟩ := idx5 t
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- The array the kernel leaves is a + b, the one-row b added to every row of a. -/
theorem bias5 (c : Dev nD) :
    (dat5 (F := Ideal) V c).arrAt 2 cfg5.N = Cert.Spec.addBiasRow (F := Ideal) (V c main_v75) (V c main_v76) :=
  (dat5 (F := Ideal) V c).arrAt_eq_of_cover 2 _ (fun t _ => flushed5_eq V c t) cover5

end Cert.KernelIdeal.Net

end
-- ==== Proof.Layers.lean ====
/-
  The three graph convolutions, each a dense kernel, the host aggregation and a bias kernel: what the node
  features are after each, as the specification's functions of the arguments.
-/
import proofs.«429457_j46608985096492_1_alg».proof.Proof.Gen.KernelIdeal.Frame
import proofs.«429457_j46608985096492_1_alg».proof.Proof.Spec
import proofs.«429457_j46608985096492_1_alg».proof.Proof.Keep
import proofs.«429457_j46608985096492_1_alg».proof.Proof.Graph
import proofs.«429457_j46608985096492_1_alg».proof.Proof.Matmul0
import proofs.«429457_j46608985096492_1_alg».proof.Proof.Matmul2
import proofs.«429457_j46608985096492_1_alg».proof.Proof.Matmul4
import proofs.«429457_j46608985096492_1_alg».proof.Proof.Bias1
import proofs.«429457_j46608985096492_1_alg».proof.Proof.Bias3
import proofs.«429457_j46608985096492_1_alg».proof.Proof.Bias5
import Idealize.ShloMosaic.Lib.ValueIdx
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

/-! ## One convolution's host part, as functions of the arrays it reads

Each of the three host stretches between a dense kernel and a bias kernel applies the same operations: it wraps the
source indices, gathers those rows of the dense product, scales each row by its edge's weight, adds the rows into
zeros at the targets, and turns the bias vector into a one-row matrix. The two functions below are those operations
read as the program writes them; the two laws say that they are the specification's aggregation and bias row. -/

section Generic

variable {F : FTy → Type} [FloatOps F]

/-- The aggregation as the program writes it: row d of the result adds, over the edges (s, d), row s of `h` (the
    source read as array indexing reads it) scaled by the edge's weight. -/
def aggK (h : Cert.Spec.Arr F ⟨S100000x128, .f32⟩) (s t : Cert.Spec.Arr F ⟨S1700000, .i32⟩) (w : Cert.Spec.Arr F ⟨S1700000, .f32⟩) :
    Cert.Spec.Arr F ⟨S100000x128, .f32⟩ :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 t)
    (mulf
      (Host.gather gather_S100000x128_S1700000x1_S1700000x128_1_0_n_n_0_1_1128 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x128 ![0, 1] bcast_S1700000x1_S1700000x128_0_1
        (broadcastInDim S1700000x1 ![0] bcast_S1700000_S1700000x1_0 w)))

/-- At the extended edge list's sources and targets it is the specification's weighted aggregation: the same
    operations in the same order, over dimension records with the same fields. -/
theorem aggK_eq (ei : Cert.Spec.Arr F ⟨Cert.ReferenceIdeal.S2x1600000, .i32⟩) (w : Cert.Spec.Arr F ⟨S1700000, .f32⟩)
    (h : Cert.Spec.Arr F ⟨S100000x128, .f32⟩) :
    aggK h (Cert.Spec.sources ei) (Cert.Spec.targets ei) w = Cert.Spec.aggregateW ei w h := by
  unfold aggK Cert.Spec.aggregateW Cert.Spec.wrap
  rfl

/-- The bias as the program lays it out: the vector of 128 entries recast as a matrix of one row. -/
def biasRowK (b : Cert.Spec.Arr F ⟨S128, .f32⟩) : Cert.Spec.Arr F ⟨S1x128, .f32⟩ :=
  shapeCast S1x128 b shapeCasts_S128_S1x128

/-- Recasting a vector as a one-row matrix and broadcasting it along a new leading unit axis agree entry by
    entry: both read the vector at the column. -/
theorem biasRowK_eq (b : Cert.Spec.Arr F ⟨S128, .f32⟩)
    (hb : Cert.ReferenceIdeal.S128.BroadcastsInDim Cert.ReferenceIdeal.S1x128 (![1] : Fin 1 → Fin Cert.ReferenceIdeal.S1x128.rank)) :
    biasRowK b = broadcastInDim Cert.ReferenceIdeal.S1x128 ![1] hb b := by
  funext j
  unfold biasRowK
  refine (shapeCast_addUnit_apply ![128] b shapeCasts_S128_S1x128 j).trans ?_
  refine (broadcastInDim_apply ![1] hb b j (fun a => j a.succ) fun a => ?_).symm
  have ha : a = 0 := Subsingleton.elim _ _
  subst ha
  rfl

/-- One convolution from its pieces: the bias row added to the aggregate of the dense product. -/
theorem conv_of_pieces (ei : Cert.Spec.Arr F ⟨Cert.ReferenceIdeal.S2x1600000, .i32⟩) (x : Cert.Spec.Arr F ⟨S100000x128, .f32⟩)
    (W : Cert.Spec.Arr F ⟨S128x128, .f32⟩) (b : Cert.Spec.Arr F ⟨S128, .f32⟩) :
    Cert.Spec.addBiasRow (aggK (Cert.Spec.linear x W) (Cert.Spec.sources ei) (Cert.Spec.targets ei) (Cert.Spec.edgeWeight ei)) (biasRowK b)
      = Cert.Spec.conv ei x W b := by
  unfold Cert.Spec.conv Cert.Spec.addBias Cert.Spec.aggregate
  rw [aggK_eq, biasRowK_eq]

end Generic

variable (m : (ℓ : Loc nD τ sig) → Buf (Elt Ideal) ℓ) (ρ : Dev nD → PrngReg)

/-! ## The graph arrays where each host stretch reads them -/

theorem sources4 (c : Dev nD) :
    W4 (F := Ideal) m ρ c (Proc.devRef .tc main_v5) = Cert.Spec.sources (F := Ideal) (m ((c.tc : Thread nD τ).loc main_arg1)) :=
  (keep4 m ρ c main_v5 (Or.inl rfl)).trans (sources3 m ρ c)
theorem targets4 (c : Dev nD) :
    W4 (F := Ideal) m ρ c (Proc.devRef .tc main_v6) = Cert.Spec.targets (F := Ideal) (m ((c.tc : Thread nD τ).loc main_arg1)) :=
  (keep4 m ρ c main_v6 (Or.inr (Or.inl rfl))).trans (targets3 m ρ c)
theorem weight4 (c : Dev nD) :
    W4 (F := Ideal) m ρ c (Proc.devRef .tc main_v29) = Cert.Spec.edgeWeight (F := Ideal) (m ((c.tc : Thread nD τ).loc main_arg1)) :=
  (keep4 m ρ c main_v29 (Or.inr (Or.inr rfl))).trans (weight3 m ρ c)

theorem sources7 (c : Dev nD) :
    W7 (F := Ideal) m ρ c (Proc.devRef .tc main_v5) = Cert.Spec.sources (F := Ideal) (m ((c.tc : Thread nD τ).loc main_arg1)) :=
  (keep7 m ρ c main_v5 (Or.inl rfl)).trans (sources3 m ρ c)
theorem targets7 (c : Dev nD) :
    W7 (F := Ideal) m ρ c (Proc.devRef .tc main_v6) = Cert.Spec.targets (F := Ideal) (m ((c.tc : Thread nD τ).loc main_arg1)) :=
  (keep7 m ρ c main_v6 (Or.inr (Or.inl rfl))).trans (targets3 m ρ c)
theorem weight7 (c : Dev nD) :
    W7 (F := Ideal) m ρ c (Proc.devRef .tc main_v29) = Cert.Spec.edgeWeight (F := Ideal) (m ((c.tc : Thread nD τ).loc main_arg1)) :=
  (keep7 m ρ c main_v29 (Or.inr (Or.inr rfl))).trans (weight3 m ρ c)

theorem sources10 (c : Dev nD) :
    W10 (F := Ideal) m ρ c (Proc.devRef .tc main_v5) = Cert.Spec.sources (F := Ideal) (m ((c.tc : Thread nD τ).loc main_arg1)) :=
  (keep10 m ρ c main_v5 (Or.inl rfl)).trans (sources3 m ρ c)
theorem targets10 (c : Dev nD) :
    W10 (F := Ideal) m ρ c (Proc.devRef .tc main_v6) = Cert.Spec.targets (F := Ideal) (m ((c.tc : Thread nD τ).loc main_arg1)) :=
  (keep10 m ρ c main_v6 (Or.inr (Or.inl rfl))).trans (targets3 m ρ c)
theorem weight10 (c : Dev nD) :
    W10 (F := Ideal) m ρ c (Proc.devRef .tc main_v29) = Cert.Spec.edgeWeight (F := Ideal) (m ((c.tc : Thread nD τ).loc main_arg1)) :=
  (keep10 m ρ c main_v29 (Or.inr (Or.inr rfl))).trans (weight3 m ρ c)

/-! ## The first convolution -/

/-- The first dense kernel leaves x W1. -/
theorem dense0 (c : Dev nD) :
    W4 (F := Ideal) m ρ c (Proc.devRef .tc main_v30)
      = Cert.Spec.linear (F := Ideal) (m ((c.tc : Thread nD τ).loc main_arg0)) (m ((c.tc : Thread nD τ).loc main_arg3)) :=
  ((W4_arr (F := Ideal) m ρ c 2).trans (linear0 (V3 (F := Ideal) m ρ) c)).trans
    (congrArg₂ (Cert.Spec.linear (F := Ideal)) (arg0_3 m ρ c) (arg3_3 m ρ c))

/-- The host stretch after it writes the aggregate of what it finds in the dense product's array. -/
theorem host1_aggregate (c : Dev nD) :
    V5 (F := Ideal) m ρ c main_v43
      = aggK (F := Ideal) (W4 (F := Ideal) m ρ c (Proc.devRef .tc main_v30)) (W4 (F := Ideal) m ρ c (Proc.devRef .tc main_v5))
          (W4 (F := Ideal) m ρ c (Proc.devRef .tc main_v6)) (W4 (F := Ideal) m ρ c (Proc.devRef .tc main_v29)) := by
  show StableHlo.after hostOps1 _ (Proc.devRef .tc main_v43) = _
  after_results_simp
  rfl

/-- … and the first bias as a one-row matrix. -/
theorem host1_biasRow (c : Dev nD) :
    V5 (F := Ideal) m ρ c main_v44 = biasRowK (F := Ideal) (W4 (F := Ideal) m ρ c (Proc.devRef .tc main_arg4)) := by
  show StableHlo.after hostOps1 _ (Proc.devRef .tc main_v44) = _
  after_results_simp
  rfl

theorem layer1 (c : Dev nD) :
    W6 (F := Ideal) m ρ c (Proc.devRef .tc main_v45)
      = Cert.Spec.relu (F := Ideal) (Cert.Spec.conv (F := Ideal) (m ((c.tc : Thread nD τ).loc main_arg1)) (m ((c.tc : Thread nD τ).loc main_arg0))
          (m ((c.tc : Thread nD τ).loc main_arg3)) (m ((c.tc : Thread nD τ).loc main_arg4))) := by
  refine ((W6_arr (F := Ideal) m ρ c 2).trans (biasRelu1 (V5 (F := Ideal) m ρ) c)).trans ?_
  rw [host1_aggregate, host1_biasRow, dense0, sources4, targets4, weight4, arg4_4, conv_of_pieces]

/-! ## The second convolution -/

/-- The second dense kernel leaves h W2, h the first layer's features. -/
theorem dense2 (c : Dev nD) :
    W7 (F := Ideal) m ρ c (Proc.devRef .tc main_v46)
      = Cert.Spec.linear (F := Ideal) (W6 (F := Ideal) m ρ c (Proc.devRef .tc main_v45)) (m ((c.tc : Thread nD τ).loc main_arg5)) :=
  ((W7_arr (F := Ideal) m ρ c 2).trans (linear2 (V6 (F := Ideal) m ρ) c)).trans
    (congrArg (Cert.Spec.linear (F := Ideal) (W6 (F := Ideal) m ρ c (Proc.devRef .tc main_v45))) (arg5_6 m ρ c))

theorem host3_aggregate (c : Dev nD) :
    V8 (F := Ideal) m ρ c main_v59
      = aggK (F := Ideal) (W7 (F := Ideal) m ρ c (Proc.devRef .tc main_v46)) (W7 (F := Ideal) m ρ c (Proc.devRef .tc main_v5))
          (W7 (F := Ideal) m ρ c (Proc.devRef .tc main_v6)) (W7 (F := Ideal) m ρ c (Proc.devRef .tc main_v29)) := by
  show StableHlo.after hostOps3 _ (Proc.devRef .tc main_v59) = _
  after_results_simp
  rfl

theorem host3_biasRow (c : Dev nD) :
    V8 (F := Ideal) m ρ c main_v60 = biasRowK (F := Ideal) (W7 (F := Ideal) m ρ c (Proc.devRef .tc main_arg6)) := by
  show StableHlo.after hostOps3 _ (Proc.devRef .tc main_v60) = _
  after_results_simp
  rfl

theorem layer2 (c : Dev nD) :
    W9 (F := Ideal) m ρ c (Proc.devRef .tc main_v61)
      = Cert.Spec.relu (F := Ideal) (Cert.Spec.conv (F := Ideal) (m ((c.tc : Thread nD τ).loc main_arg1)) (W6 (F := Ideal) m ρ c (Proc.devRef .tc main_v45))
          (m ((c.tc : Thread nD τ).loc main_arg5)) (m ((c.tc : Thread nD τ).loc main_arg6))) := by
  refine ((W9_arr (F := Ideal) m ρ c 2).trans (biasRelu3 (V8 (F := Ideal) m ρ) c)).trans ?_
  rw [host3_aggregate, host3_biasRow, dense2, sources7, targets7, weight7, arg6_7, conv_of_pieces]

/-! ## The third convolution (no relu after it) -/

/-- The third dense kernel leaves h W3, h the second layer's features. -/
theorem dense4 (c : Dev nD) :
    W10 (F := Ideal) m ρ c (Proc.devRef .tc main_v62)
      = Cert.Spec.linear (F := Ideal) (W9 (F := Ideal) m ρ c (Proc.devRef .tc main_v61)) (m ((c.tc : Thread nD τ).loc main_arg7)) :=
  ((W10_arr (F := Ideal) m ρ c 2).trans (linear4 (V9 (F := Ideal) m ρ) c)).trans
    (congrArg (Cert.Spec.linear (F := Ideal) (W9 (F := Ideal) m ρ c (Proc.devRef .tc main_v61))) (arg7_9 m ρ c))

theorem host5_aggregate (c : Dev nD) :
    V11 (F := Ideal) m ρ c main_v75
      = aggK (F := Ideal) (W10 (F := Ideal) m ρ c (Proc.devRef .tc main_v62)) (W10 (F := Ideal) m ρ c (Proc.devRef .tc main_v5))
          (W10 (F := Ideal) m ρ c (Proc.devRef .tc main_v6)) (W10 (F := Ideal) m ρ c (Proc.devRef .tc main_v29)) := by
  show StableHlo.after hostOps5 _ (Proc.devRef .tc main_v75) = _
  after_results_simp
  rfl

theorem host5_biasRow (c : Dev nD) :
    V11 (F := Ideal) m ρ c main_v76 = biasRowK (F := Ideal) (W10 (F := Ideal) m ρ c (Proc.devRef .tc main_arg8)) := by
  show StableHlo.after hostOps5 _ (Proc.devRef .tc main_v76) = _
  after_results_simp
  rfl

theorem layer3 (c : Dev nD) :
    W12 (F := Ideal) m ρ c (Proc.devRef .tc main_v77)
      = Cert.Spec.conv (F := Ideal) (m ((c.tc : Thread nD τ).loc main_arg1)) (W9 (F := Ideal) m ρ c (Proc.devRef .tc main_v61))
          (m ((c.tc : Thread nD τ).loc main_arg7)) (m ((c.tc : Thread nD τ).loc main_arg8)) := by
  refine ((W12_arr (F := Ideal) m ρ c 2).trans (bias5 (V11 (F := Ideal) m ρ) c)).trans ?_
  rw [host5_aggregate, host5_biasRow, dense4, sources10, targets10, weight10, arg8_10, conv_of_pieces]

end Cert.KernelIdeal.Net

end
-- ==== Proof.PoolSpec.lean ====
/-
  The pool as the kernel computes it, in closed form: over the node rows padded to 100352 and the padded id row,
  entry (g, d) of the sums adds row n's entry d for every n whose id is g, and entry g of the counts is the
  number of such n.
-/
import proofs.«429457_j46608985096492_1_alg».proof.Proof.Gen.KernelIdeal
import Idealize.ShloMosaic.Lib.ValueIdx

noncomputable section

namespace Cert.PoolSpec

open Idealize.ShloMosaic Idealize.ShloMosaic.ValueIdx Cert.KernelIdeal

/-- Entry (g, d) of the pooled sums: the sum over the padded rows n whose id is g of X n d. -/
def onehotSumAt (X : FVec Ideal S100352x128 .f32) (A : IVec S1x100352 32) (g : Fin 512) (d : Fin 128) : EReal :=
  ∑ n : Fin 100352, if A (ix2 (0 : Fin 1) n) = BitVec.ofNat 32 g.val then X (ix2 n d) else 0

/-- Entry g of the pooled counts: the number of padded rows n whose id is g. -/
def onehotCountAt (A : IVec S1x100352 32) (g : Fin 512) : EReal :=
  ∑ n : Fin 100352, if A (ix2 (0 : Fin 1) n) = BitVec.ofNat 32 g.val then (1 : EReal) else 0

end Cert.PoolSpec

end
-- ==== Proof.PoolKernelPieces.lean ====
/-
  The pool kernel's body, read back from what its stores leave.  At the first grid point both outputs are zeroed,
  read back, and updated; at every later point they are updated in place.  Each case leaves in each output buffer
  one function of the point's two input blocks and of what the buffer held: the update applied to the zero block
  (first point) or to the running contents (later points).
-/
import proofs.«429457_j46608985096492_1_alg».proof.Proof.Gen.KernelIdeal.Frame
import Idealize.ShloMosaic.Lib.Pipeline.Value

set_option maxRecDepth 16384

noncomputable section

namespace Cert.KernelIdeal.Net.Pool6

open Idealize.ShloMosaic Idealize.ShloMosaic.TcCoe Idealize.SL.Sem
open Cert.KernelIdeal Cert.KernelIdeal.Gen

variable {F : FTy → Type} [FloatOps F]

/-- The zero offsets of a whole-buffer access, as the constant function. -/
theorem hz2 : (![0, 0] : Fin 2 → Nat) = fun _ => 0 := funext fun a => by fin_cases a <;> rfl

/-- Away from the first point the sums buffer, holding `xo2`, is left at `xo2` plus the block's one-hot product. -/
theorem out_B_2 (c : Dev nD) (i : grid6.Coords) (a1 : Memref sig .tc .vmem S1024x128 .f32) (h1 : a1.IsWhole)
    (a2 : Memref sig .tc .vmem S1x1024 .i32) (h2 : a2.IsWhole) (a3 : Memref sig .tc .vmem S512x128 .f32) (h3 : a3.IsWhole)
    (a4 : Memref sig .tc .vmem S512x1 .f32) (h4 : a4.IsWhole) (hc : ¬cond6_0 i)
    (x0 : Vec F S1024x128 .f32) (x1 : Vec F S1x1024 .i32) (xo2 : Vec F S512x128 .f32) (xo3 : Vec F S512x1 .f32) :
    out6_B_2 c i a1 h1 a2 h2 a3 h3 a4 h4 hc x0 x1 xo2 xo3 = k6_pay4 x1 x0 xo2 := by
  unfold out6_B_2
  rw [View.read_writes_eq_canon _ _ _ (cover6_B_2 c i a1 h1 a2 h2 a3 h3 a4 h4 hc x0 x1 xo2 xo3)]
  unfold kernelRun6_B
  dsimp only
  sl_unfold_words
  rw [View.canon_unit_zero hz2]
  simp only [View.readAt_eq_ld, h1.read_unread, h2.read_unread, h3.read_unread,
    View.ld_unit_zero (S := S1024x128) hz2, View.ld_unit_zero (S := S1x1024) hz2, View.ld_unit_zero (S := S512x128) hz2]

/-- Away from the first point the counts buffer, holding `xo3`, is left at `xo3` plus the block's one-hot row sums. -/
theorem out_B_3 (c : Dev nD) (i : grid6.Coords) (a1 : Memref sig .tc .vmem S1024x128 .f32) (h1 : a1.IsWhole)
    (a2 : Memref sig .tc .vmem S1x1024 .i32) (h2 : a2.IsWhole) (a3 : Memref sig .tc .vmem S512x128 .f32) (h3 : a3.IsWhole)
    (a4 : Memref sig .tc .vmem S512x1 .f32) (h4 : a4.IsWhole) (hc : ¬cond6_0 i)
    (x0 : Vec F S1024x128 .f32) (x1 : Vec F S1x1024 .i32) (xo2 : Vec F S512x128 .f32) (xo3 : Vec F S512x1 .f32) :
    out6_B_3 c i a1 h1 a2 h2 a3 h3 a4 h4 hc x0 x1 xo2 xo3 = k6_pay5 x1 xo3 := by
  unfold out6_B_3
  rw [View.read_writes_eq_canon _ _ _ (cover6_B_3 c i a1 h1 a2 h2 a3 h3 a4 h4 hc x0 x1 xo2 xo3)]
  unfold kernelRun6_B
  dsimp only
  sl_unfold_words
  rw [View.canon_unit_zero hz2]
  simp only [View.readAt_eq_ld, h2.read_unread, h4.read_unread,
    View.ld_unit_zero (S := S1x1024) hz2, View.ld_unit_zero (S := S512x1) hz2]

/-- At the first point the sums buffer is zeroed, read back, and left at zero plus the block's one-hot product. -/
theorem out_A_2 (c : Dev nD) (i : grid6.Coords) (a1 : Memref sig .tc .vmem S1024x128 .f32) (h1 : a1.IsWhole)
    (a2 : Memref sig .tc .vmem S1x1024 .i32) (h2 : a2.IsWhole) (a3 : Memref sig .tc .vmem S512x128 .f32) (h3 : a3.IsWhole)
    (a4 : Memref sig .tc .vmem S512x1 .f32) (h4 : a4.IsWhole) (hc : cond6_0 i)
    (x0 : Vec F S1024x128 .f32) (x1 : Vec F S1x1024 .i32) :
    out6_A_2 c i a1 h1 a2 h2 a3 h3 a4 h4 hc x0 x1 = k6_pay4 x1 x0 (k6_pay1 (F := F)) := by
  unfold out6_A_2
  rw [View.read_writes_eq_canon _ _ _ (cover6_A_2 c i a1 h1 a2 h2 a3 h3 a4 h4 hc x0 x1)]
  unfold kernelRun6_A
  dsimp only
  sl_unfold_words
  rw [View.canon_cons_unit_zero (S := S512x128) hz2]
  simp only [View.readAt_eq_ld, h1.read_unread, h2.read_unread, View.readCov_unit_zero (S := S512x128) _ hz2,
    View.ld_unit_zero (S := S1024x128) hz2, View.ld_unit_zero (S := S1x1024) hz2]

/-- At the first point the counts buffer is zeroed, read back, and left at zero plus the block's one-hot row sums. -/
theorem out_A_3 (c : Dev nD) (i : grid6.Coords) (a1 : Memref sig .tc .vmem S1024x128 .f32) (h1 : a1.IsWhole)
    (a2 : Memref sig .tc .vmem S1x1024 .i32) (h2 : a2.IsWhole) (a3 : Memref sig .tc .vmem S512x128 .f32) (h3 : a3.IsWhole)
    (a4 : Memref sig .tc .vmem S512x1 .f32) (h4 : a4.IsWhole) (hc : cond6_0 i)
    (x0 : Vec F S1024x128 .f32) (x1 : Vec F S1x1024 .i32) :
    out6_A_3 c i a1 h1 a2 h2 a3 h3 a4 h4 hc x0 x1 = k6_pay5 x1 (k6_pay2 (F := F)) := by
  unfold out6_A_3
  rw [View.read_writes_eq_canon _ _ _ (cover6_A_3 c i a1 h1 a2 h2 a3 h3 a4 h4 hc x0 x1)]
  unfold kernelRun6_A
  dsimp only
  sl_unfold_words
  rw [View.canon_cons_unit_zero (S := S512x1) hz2]
  simp only [View.readAt_eq_ld, h2.read_unread, View.readCov_unit_zero (S := S512x1) _ hz2,
    View.ld_unit_zero (S := S1x1024) hz2]

end Cert.KernelIdeal.Net.Pool6

end
-- ==== Proof.PoolKernelPayload.lean ====
/-
  The pool kernel's arithmetic at one entry, over the extended reals.  The compare of the broadcast id row with the
  row number gives the one-hot matrix: entry (g, k) is 1 where the block's row k has id g, else 0.  The block product
  with the 1024 node rows, into a zero accumulator, is at (g, d) the sum over k of one-hot (g, k) times row k's entry d;
  since 1 * x = x and 0 * x = 0 for every extended real, that is the sum of the entries d of the rows whose id is g.
  The lane sum of the one-hot matrix is at g the number of such rows.  Both are added to what the output held.
-/
import proofs.«429457_j46608985096492_1_alg».proof.Proof.Gen.KernelIdeal.Skeleton
import Idealize.ShloMosaic.Lib.Affine
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Net.Pool6

open Idealize.ShloMosaic Idealize.ShloMosaic.TcCoe Idealize.ShloMosaic.ValueIdx Idealize.SL.Sem
open Cert.KernelIdeal Cert.KernelIdeal.Gen

/-! ## The block product at an entry -/

theorem lhs_pool_0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem lhs_pool_1 (i : S512x128.Idx) (q : dot_S512x1024_S1024x128_S512x128_1_0_0_1_n_n.contr.Idx) :
    (dot_S512x1024_S1024x128_S512x128_1_0_0_1_n_n.lhsIdx i q 1).val = (q ⟨0, by decide⟩).val :=
  dot_S512x1024_S1024x128_S512x128_1_0_0_1_n_n.lhsIdx_val_of_single rfl i q
theorem rhs_pool_0 (i : S512x128.Idx) (q : dot_S512x1024_S1024x128_S512x128_1_0_0_1_n_n.contr.Idx) :
    (dot_S512x1024_S1024x128_S512x128_1_0_0_1_n_n.rhsIdx i q 0).val = (q ⟨0, by decide⟩).val :=
  dot_S512x1024_S1024x128_S512x128_1_0_0_1_n_n.rhsIdx_val_of_single rfl i q
theorem rhs_pool_1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The block product into a zero accumulator, at entry (g, d): the sum over the block's 1024 rows. -/
theorem matmul_pool_apply (L : FVec Ideal S512x1024 .bf16) (R : FVec Ideal S1024x128 .bf16) (g : Fin 512) (d : Fin 128) :
    matmul dot_S512x1024_S1024x128_S512x128_1_0_0_1_n_n none L R (constant S512x128 .f32 0x00000000#32) (ix2 g d)
      = ∑ k : Fin 1024, L (ix2 g k) * R (ix2 k d) := by
  simp only [matmul]
  rw [Ideal.matmul_constant_zero_apply, ← Equiv.sum_comp (contrEquiv1 dot_S512x1024_S1024x128_S512x128_1_0_0_1_n_n 1024 rfl rfl).symm]
  refine Finset.sum_congr rfl fun k _ => ?_
  have hk := contrEquiv1_symm_val dot_S512x1024_S1024x128_S512x128_1_0_0_1_n_n 1024 rfl rfl k
  have el : dot_S512x1024_S1024x128_S512x128_1_0_0_1_n_n.lhsIdx (ix2 g d) ((contrEquiv1 dot_S512x1024_S1024x128_S512x128_1_0_0_1_n_n 1024 rfl rfl).symm k) = ix2 g k := funext fun a => Fin.ext (by
    match a with
    | ⟨0, _⟩ => exact lhs_pool_0 _ _
    | ⟨1, _⟩ => exact (lhs_pool_1 _ _).trans hk)
  have er : dot_S512x1024_S1024x128_S512x128_1_0_0_1_n_n.rhsIdx (ix2 g d) ((contrEquiv1 dot_S512x1024_S1024x128_S512x128_1_0_0_1_n_n 1024 rfl rfl).symm k) = ix2 k d := funext fun a => Fin.ext (by
    match a with
    | ⟨0, _⟩ => exact (rhs_pool_0 _ _).trans hk
    | ⟨1, _⟩ => exact rhs_pool_1 _ _)
  rw [el, er]

/-- The compare at (g, k): the id of the block's row k against the word of g. -/
theorem pay3_apply (A : Vec Ideal S1x1024 .i32) (g : Fin 512) (k : Fin 1024) :
    k6_pay3 (F := Ideal) A (ix2 g k) = IntOp.cmpi .eq (A (ix2 (0 : Fin 1) k)) (BitVec.ofNat 32 g.val) := by
  unfold k6_pay3
  show IntOp.cmpi .eq (broadcastTo S512x1024 (shapeCast S1x1024 A shapeCasts_S1x1024_S1x1024) broadcasts_S1x1024_S512x1024 (ix2 g k))
      (iota .tc S512x1024 32 [0] iota_S512x1024_d0_w32 (ix2 g k)) = _
  rw [broadcastTo_1b_ab_apply, iota_single_apply, shapeCast_self]

/-- The one-hot entry (g, k) as an extended real: 1 where row k's id is g, else 0. -/
theorem onehot_apply (A : Vec Ideal S1x1024 .i32) (g : Fin 512) (k : Fin 1024) :
    (sitofp .f32 (extui 32 (k6_pay3 (F := Ideal) A) natLt_1_32) : FVec Ideal S512x1024 .f32) (ix2 g k)
      = if A (ix2 (0 : Fin 1) k) = BitVec.ofNat 32 g.val then (1 : EReal) else 0 := by
  rw [sitofp_apply, extui_apply, pay3_apply]
  by_cases h : A (ix2 (0 : Fin 1) k) = BitVec.ofNat 32 g.val
  · rw [if_pos h, IntOp.cmpi_eq.mpr h]
    show (((((1#1 : BitVec 1).setWidth 32).toInt : ℤ) : ℝ) : EReal) = 1
    rw [show ((1#1 : BitVec 1).setWidth 32).toInt = 1 from by decide, Int.cast_one, EReal.coe_one]
  · rw [if_neg h, eq_zero_of_ne_one (fun e => h (IntOp.cmpi_eq.mp e))]
    show (((((0#1 : BitVec 1).setWidth 32).toInt : ℤ) : ℝ) : EReal) = 0
    rw [show ((0#1 : BitVec 1).setWidth 32).toInt = 0 from by decide, Int.cast_zero, EReal.coe_zero]

/-- The sums update at (g, d): what was there plus the block's rows whose id is g. -/
theorem pay4_apply (A : Vec Ideal S1x1024 .i32) (X : Vec Ideal S1024x128 .f32) (acc : Vec Ideal S512x128 .f32)
    (g : Fin 512) (d : Fin 128) :
    k6_pay4 (F := Ideal) A X acc (ix2 g d)
      = acc (ix2 g d) + ∑ k : Fin 1024, if A (ix2 (0 : Fin 1) k) = BitVec.ofNat 32 g.val then X (ix2 k d) else 0 := by
  unfold k6_pay4
  show shapeCast S512x128 acc shapeCasts_S512x128_S512x128 (ix2 g d)
      + matmul dot_S512x1024_S1024x128_S512x128_1_0_0_1_n_n none
          (truncf .bf16 (sitofp .f32 (extui 32 (k6_pay3 (F := Ideal) A) natLt_1_32) : FVec Ideal S512x1024 .f32) bitsLt_bf16_f32)
          (truncf .bf16 (shapeCast S1024x128 X shapeCasts_S1024x128_S1024x128 : FVec Ideal S1024x128 .f32) bitsLt_bf16_f32)
          (constant S512x128 .f32 0x00000000#32) (ix2 g d) = _
  rw [shapeCast_self, shapeCast_self, matmul_pool_apply]
  refine congrArg (acc (ix2 g d) + ·) (Finset.sum_congr rfl fun k _ => ?_)
  show (sitofp .f32 (extui 32 (k6_pay3 (F := Ideal) A) natLt_1_32) : FVec Ideal S512x1024 .f32) (ix2 g k) * X (ix2 k d) = _
  rw [onehot_apply]
  split
  · exact one_mul _
  · exact zero_mul _

/-- The lane index (g, k) that the row sum at g reads. -/
theorem lift_pool (g : Fin 512) (k : Fin 1024) :
    reduces_S512x1024_S512.lift (ix1 g) k = ix2 g k :=
  funext fun a => Fin.ext (by
    match a with
    | ⟨0, _⟩ => rfl
    | ⟨1, _⟩ => rfl)

/-- The counts update at g: what was there plus the number of the block's rows whose id is g. -/
theorem pay5_apply (A : Vec Ideal S1x1024 .i32) (acc : Vec Ideal S512x1 .f32) (g : Fin 512) :
    k6_pay5 (F := Ideal) A acc (ix2 g (0 : Fin 1))
      = acc (ix2 g (0 : Fin 1)) + ∑ k : Fin 1024, if A (ix2 (0 : Fin 1) k) = BitVec.ofNat 32 g.val then (1 : EReal) else 0 := by
  unfold k6_pay5
  show shapeCast S512x1 acc shapeCasts_S512x1_S512x1 (ix2 g (0 : Fin 1))
      + shapeCast S512x1 (multiReduction (F := Ideal) .add [1] S512
          (sitofp .f32 (extui 32 (k6_pay3 (F := Ideal) A) natLt_1_32) : FVec Ideal S512x1024 .f32)
          0x00000000#32 reduces_S512x1024_S512 (.inl rfl) rfl) shapeCasts_S512_S512x1 (ix2 g (0 : Fin 1)) = _
  rw [shapeCast_self]
  refine congrArg (acc (ix2 g (0 : Fin 1)) + ·) ?_
  refine (shapeCast_apply _ shapeCasts_S512_S512x1 (ix2 g (0 : Fin 1)) (ix1 g) (by
    rw [Shape.rowMajor_val_one, Shape.rowMajor_val_two]
    show g.val = g.val * 1 + 0
    omega)).trans ?_
  refine (Ideal.multiReduction_add_single _ 0x00000000#32 reduces_S512x1024_S512 (.inl rfl) rfl (ix1 g)).trans ?_
  show ∑ k : Fin 1024, (sitofp .f32 (extui 32 (k6_pay3 (F := Ideal) A) natLt_1_32) : FVec Ideal S512x1024 .f32)
      (reduces_S512x1024_S512.lift (ix1 g) k) = _
  refine Finset.sum_congr rfl fun k _ => ?_
  rw [lift_pool]
  exact onehot_apply A g k

/-- The zero blocks the first point stores. -/
theorem pay1_apply (j : S512x128.Idx) : k6_pay1 (F := Ideal) j = 0 := by
  unfold k6_pay1
  show Ideal.ofBits .f32 0x00000000#32 = 0
  exact Ideal.ofBits_zero_f32
theorem pay2_apply (j : S512x1.Idx) : k6_pay2 (F := Ideal) j = 0 := by
  unfold k6_pay2
  show Ideal.ofBits .f32 0x00000000#32 = 0
  exact Ideal.ofBits_zero_f32

end Cert.KernelIdeal.Net.Pool6

end
-- ==== Proof.PoolKernel.lean ====
/-
  The pool kernel: 98 blocks of 1024 padded node rows; the two outputs stay in place over the grid, zeroed at the
  first point, and each point adds its block's one-hot products.  After the last point they hold the closed form.

  Point t reads rows [1024 t, 1024 (t + 1)) of the padded node rows and the same columns of the padded id row.  By
  induction on the point, after point t entry (g, d) of the sums is the sum, over the rows n < 1024 (t + 1) whose id is
  g, of row n's entry d, and entry g of the counts is the number of such rows: the first point starts from zero, every
  later point adds its block's 1024 terms to what the point before left.  The outputs' block index never moves, so they
  are written back once, after the last point, and the one block is the whole array; at t = 97 the bound 1024 * 98 is
  all 100352 rows.
-/
import proofs.«429457_j46608985096492_1_alg».proof.Proof.Gen.KernelIdeal.Frame
import proofs.«429457_j46608985096492_1_alg».proof.Proof.Spec
import proofs.«429457_j46608985096492_1_alg».proof.Proof.PoolSpec
import proofs.«429457_j46608985096492_1_alg».proof.Proof.PoolKernelPieces
import proofs.«429457_j46608985096492_1_alg».proof.Proof.PoolKernelPayload
import Idealize.ShloMosaic.Lib.ValueIdx
import Idealize.ShloMosaic.Lib.Pipeline.Value
import Idealize.ShloMosaic.PureOps.Ideal.Laws

set_option maxRecDepth 16384

noncomputable section

namespace Cert.KernelIdeal.Net.Pool6

open Idealize.ShloMosaic Idealize.ShloMosaic.TcCoe Idealize.ShloMosaic.ValueIdx Idealize.SL.Sem
open Cert.KernelIdeal Cert.KernelIdeal.Gen

/-! ## The blocks a point reads, as entries of the two arrays -/

variable (V : (c : Dev nD) → (b : Ref sig .tc) → Buf (Elt Ideal) ((c : Thread nD τ).loc b))

/-- The padded node rows and the padded id row, as the kernel finds them. -/
abbrev xarr (c : Dev nD) : FVec Ideal S100352x128 .f32 := V c main_v78
abbrev aarr (c : Dev nD) : IVec S1x100352 32 := V c main_v80
/-- The block of 1024 node rows and of 1024 ids at point t. -/
abbrev xblk (c : Dev nD) (t : Fin cfg6.N) : Vec Ideal S1024x128 .f32 := iblk6 V c 0 t
abbrev ablk (c : Dev nD) (t : Fin cfg6.N) : Vec Ideal S1x1024 .i32 := iblk6 V c 1 t

/-- Point t's row block starts at row 1024 t, its id block at column 1024 t. -/
theorem idx_facts6 : ∀ t : Fin cfg6.N, (win6_0.index t 0 = t.val ∧ win6_0.index t 1 = 0) ∧ (win6_1.index t 0 = 0 ∧ win6_1.index t 1 = t.val) :=
  (by decide +kernel : ∀ t : Fin grid6.N, (win6_0.index t 0 = t.val ∧ win6_0.index t 1 = 0) ∧ (win6_1.index t 0 = 0 ∧ win6_1.index t 1 = t.val))

theorem xblk_apply (c : Dev nD) (t : Fin cfg6.N) (k : Fin 1024) (d : Fin 128) (h : 1024 * t.val + k.val < 100352) :
    xblk V c t (ix2 k d) = xarr V c (ix2 (⟨1024 * t.val + k.val, h⟩ : Fin 100352) d) := by
  unfold xblk iblk6
  rw [View.read_apply]
  show V c main_v78 _ = V c main_v78 _
  congr 1
  funext a
  apply Fin.ext
  match a with
  | ⟨0, _⟩ => show win6_0.index t 0 * 1024 + 1 * k.val = 1024 * t.val + k.val; rw [(idx_facts6 t).1.1]; omega
  | ⟨1, _⟩ => show win6_0.index t 1 * 128 + 1 * d.val = d.val; rw [(idx_facts6 t).1.2]; omega

theorem ablk_apply (c : Dev nD) (t : Fin cfg6.N) (k : Fin 1024) (h : 1024 * t.val + k.val < 100352) :
    ablk V c t (ix2 (0 : Fin 1) k) = aarr V c (ix2 (0 : Fin 1) (⟨1024 * t.val + k.val, h⟩ : Fin 100352)) := by
  unfold ablk iblk6
  rw [View.read_apply]
  show V c main_v80 _ = V c main_v80 _
  congr 1
  funext a
  apply Fin.ext
  match a with
  | ⟨0, _⟩ => show win6_1.index t 0 * 1 + 1 * 0 = 0; rw [(idx_facts6 t).2.1]
  | ⟨1, _⟩ => show win6_1.index t 1 * 1024 + 1 * k.val = 1024 * t.val + k.val; rw [(idx_facts6 t).2.2]; omega

/-! ## The running sums over the grid -/

/-- Row n's contribution to entry (g, d) of the sums (zero past the padded rows). -/
def sumTerm (X : FVec Ideal S100352x128 .f32) (A : IVec S1x100352 32) (g : Fin 512) (d : Fin 128) (n : ℕ) : EReal :=
  if h : n < 100352 then (if A (ix2 (0 : Fin 1) (⟨n, h⟩ : Fin 100352)) = BitVec.ofNat 32 g.val then X (ix2 (⟨n, h⟩ : Fin 100352) d) else 0) else 0

/-- Row n's contribution to entry g of the counts. -/
def countTerm (A : IVec S1x100352 32) (g : Fin 512) (n : ℕ) : EReal :=
  if h : n < 100352 then (if A (ix2 (0 : Fin 1) (⟨n, h⟩ : Fin 100352)) = BitVec.ofNat 32 g.val then (1 : EReal) else 0) else 0

/-- A sum over the first t + 1 blocks of 1024 is the sum over the first t blocks plus block t's 1024 terms. -/
theorem block_sum (f : ℕ → EReal) (t : ℕ) :
    ∑ j ∈ Finset.range (1024 * (t + 1)), f j = ∑ j ∈ Finset.range (1024 * t), f j + ∑ k : Fin 1024, f (1024 * t + k.val) := by
  rw [show 1024 * (t + 1) = 1024 * t + 1024 from by ring, Finset.sum_range_add]
  exact congrArg _ (Finset.sum_range fun x => f (1024 * t + x))

/-- Block t's terms of the sums are the one-hot products the body adds at point t. -/
theorem sum_block_terms (c : Dev nD) (t : Fin cfg6.N) (g : Fin 512) (d : Fin 128) :
    (∑ k : Fin 1024, if ablk V c t (ix2 (0 : Fin 1) k) = BitVec.ofNat 32 g.val then xblk V c t (ix2 k d) else 0)
      = ∑ k : Fin 1024, sumTerm (xarr V c) (aarr V c) g d (1024 * t.val + k.val) := by
  have hN : t.val < 98 := lt_of_lt_of_eq t.isLt (show cfg6.N = 98 from N_6)
  refine Finset.sum_congr rfl fun k _ => ?_
  have h : 1024 * t.val + k.val < 100352 := by have := k.isLt; omega
  unfold sumTerm
  rw [dif_pos h, ablk_apply V c t k h, xblk_apply V c t k d h]

theorem count_block_terms (c : Dev nD) (t : Fin cfg6.N) (g : Fin 512) :
    (∑ k : Fin 1024, if ablk V c t (ix2 (0 : Fin 1) k) = BitVec.ofNat 32 g.val then (1 : EReal) else 0)
      = ∑ k : Fin 1024, countTerm (aarr V c) g (1024 * t.val + k.val) := by
  have hN : t.val < 98 := lt_of_lt_of_eq t.isLt (show cfg6.N = 98 from N_6)
  refine Finset.sum_congr rfl fun k _ => ?_
  have h : 1024 * t.val + k.val < 100352 := by have := k.isLt; omega
  unfold countTerm
  rw [dif_pos h, ablk_apply V c t k h]

/-- After point n the two outputs hold, entry by entry, the contributions of the rows below 1024 (n + 1). -/
theorem outsAt6_eq (c : Dev nD) (g : Fin 512) (d : Fin 128) : ∀ (n : ℕ) (h : n < cfg6.N),
    (outsAt6 V c n h).1 (ix2 g d) = ∑ j ∈ Finset.range (1024 * (n + 1)), sumTerm (xarr V c) (aarr V c) g d j
    ∧ (outsAt6 V c n h).2 (ix2 g (0 : Fin 1)) = ∑ j ∈ Finset.range (1024 * (n + 1)), countTerm (aarr V c) g j
  | 0, h => by
    rw [outsAt6_A V c ⟨0, h⟩ rfl]
    dsimp only
    have e0 : ∀ f : ℕ → EReal, ∑ j ∈ Finset.range (1024 * 0), f j = 0 := fun f => by simp
    rw [block_sum, block_sum, e0, e0]
    constructor
    · refine (congrFun (out_A_2 (F := Ideal) c (grid6.coords ⟨0, h⟩) (ms6_0 ⟨0, h⟩) (hs6_0 ⟨0, h⟩) (ms6_1 ⟨0, h⟩) (hs6_1 ⟨0, h⟩)
        (ms6_2 ⟨0, h⟩) (hs6_2 ⟨0, h⟩) (ms6_3 ⟨0, h⟩) (hs6_3 ⟨0, h⟩) ((hcond6_0 ⟨0, h⟩).mpr (Nat.zero_mod _)) (xblk V c ⟨0, h⟩) (ablk V c ⟨0, h⟩)) (ix2 g d)).trans ?_
      rw [pay4_apply, pay1_apply]
      exact congrArg₂ (· + ·) rfl (sum_block_terms V c ⟨0, h⟩ g d)
    · refine (congrFun (out_A_3 (F := Ideal) c (grid6.coords ⟨0, h⟩) (ms6_0 ⟨0, h⟩) (hs6_0 ⟨0, h⟩) (ms6_1 ⟨0, h⟩) (hs6_1 ⟨0, h⟩)
        (ms6_2 ⟨0, h⟩) (hs6_2 ⟨0, h⟩) (ms6_3 ⟨0, h⟩) (hs6_3 ⟨0, h⟩) ((hcond6_0 ⟨0, h⟩).mpr (Nat.zero_mod _)) (xblk V c ⟨0, h⟩) (ablk V c ⟨0, h⟩)) (ix2 g (0 : Fin 1))).trans ?_
      rw [pay5_apply, pay2_apply]
      exact congrArg₂ (· + ·) rfl (count_block_terms V c ⟨0, h⟩ g)
  | n + 1, h => by
    have hN : cfg6.N = 98 := N_6
    have hB : ¬(⟨n + 1, h⟩ : Fin cfg6.N).val % 98 = 0 := by dsimp only; omega
    have ih := outsAt6_eq c g d n (Nat.lt_of_succ_lt h)
    rw [outsAt6_B V c ⟨n + 1, h⟩ hB]
    dsimp only
    rw [block_sum _ (n + 1), block_sum _ (n + 1)]
    constructor
    · refine (congrFun (out_B_2 (F := Ideal) c (grid6.coords ⟨n + 1, h⟩) (ms6_0 ⟨n + 1, h⟩) (hs6_0 ⟨n + 1, h⟩) (ms6_1 ⟨n + 1, h⟩) (hs6_1 ⟨n + 1, h⟩)
        (ms6_2 ⟨n + 1, h⟩) (hs6_2 ⟨n + 1, h⟩) (ms6_3 ⟨n + 1, h⟩) (hs6_3 ⟨n + 1, h⟩) (fun hh => hB ((hcond6_0 ⟨n + 1, h⟩).mp hh)) (xblk V c ⟨n + 1, h⟩) (ablk V c ⟨n + 1, h⟩)
        (outsAt6 V c n (Nat.lt_of_succ_lt h)).1 (outsAt6 V c n (Nat.lt_of_succ_lt h)).2) (ix2 g d)).trans ?_
      rw [pay4_apply, ih.1]
      exact congrArg₂ (· + ·) rfl (sum_block_terms V c ⟨n + 1, h⟩ g d)
    · refine (congrFun (out_B_3 (F := Ideal) c (grid6.coords ⟨n + 1, h⟩) (ms6_0 ⟨n + 1, h⟩) (hs6_0 ⟨n + 1, h⟩) (ms6_1 ⟨n + 1, h⟩) (hs6_1 ⟨n + 1, h⟩)
        (ms6_2 ⟨n + 1, h⟩) (hs6_2 ⟨n + 1, h⟩) (ms6_3 ⟨n + 1, h⟩) (hs6_3 ⟨n + 1, h⟩) (fun hh => hB ((hcond6_0 ⟨n + 1, h⟩).mp hh)) (xblk V c ⟨n + 1, h⟩) (ablk V c ⟨n + 1, h⟩)
        (outsAt6 V c n (Nat.lt_of_succ_lt h)).1 (outsAt6 V c n (Nat.lt_of_succ_lt h)).2) (ix2 g (0 : Fin 1))).trans ?_
      rw [pay5_apply, ih.2]
      exact congrArg₂ (· + ·) rfl (count_block_terms V c ⟨n + 1, h⟩ g)

/-! ## The two arrays after the run -/

theorem h97 : 97 < cfg6.N := by rw [show cfg6.N = 98 from N_6]; decide

/-- What the last point leaves in the two staging buffers, as contents of the two result arrays. -/
abbrev sumsEnd (c : Dev nD) : Buf (Elt Ideal) ((c : Thread nD τ).loc main_v81_0) := (outsAt6 V c 97 h97).1
abbrev countsEnd (c : Dev nD) : Buf (Elt Ideal) ((c : Thread nD τ).loc main_v81_1) := (outsAt6 V c 97 h97).2

/-- Each output's one block is its whole array, at every point. -/
theorem out_facts6 : ∀ t : Fin cfg6.N,
    (win6_2.index t 0 * win6_2.size 0 = 0 ∧ win6_2.xsize (grid6.coords t) 0 = 512 ∧ win6_2.index t 1 * win6_2.size 1 = 0 ∧ win6_2.xsize (grid6.coords t) 1 = 128)
    ∧ (win6_3.index t 0 * win6_3.size 0 = 0 ∧ win6_3.xsize (grid6.coords t) 0 = 512 ∧ win6_3.index t 1 * win6_3.size 1 = 0 ∧ win6_3.xsize (grid6.coords t) 1 = 1) :=
  (by decide +kernel : ∀ t : Fin grid6.N,
    (win6_2.index t 0 * win6_2.size 0 = 0 ∧ win6_2.xsize (grid6.coords t) 0 = 512 ∧ win6_2.index t 1 * win6_2.size 1 = 0 ∧ win6_2.xsize (grid6.coords t) 1 = 128)
    ∧ (win6_3.index t 0 * win6_3.size 0 = 0 ∧ win6_3.xsize (grid6.coords t) 0 = 512 ∧ win6_3.index t 1 * win6_3.size 1 = 0 ∧ win6_3.xsize (grid6.coords t) 1 = 1))

/-- Only the last point writes the sums back, and it writes the whole array. -/
theorem flushed6_2_eq (c : Dev nD) (t : Fin cfg6.N) (hf : (cfg6.win 2).flush t = true) :
    (dat6 V c).flushed 2 t = ((cfg6.win 2).blk t).view.read (Elt Ideal) (sumsEnd V c) := by
  have hN : cfg6.N = 98 := N_6
  have h3 : t.val = 97 := by have := (flush6_2 t).mp hf; have := t.isLt; omega
  have e : (outsAt6 V c t.val t.isLt).1 = sumsEnd V c := by
    have : ∀ (n : ℕ) (hn : n < cfg6.N), n = 97 → (outsAt6 V c n hn).1 = (outsAt6 V c 97 h97).1 := by
      intro n hn e; subst e; rfl
    exact this t.val t.isLt h3
  show (cfg6.win 2).cut (grid6.coords t) ((dat6 V c).after 2 t) = _
  rw [after6_2, e]
  have hz' : (fun a => win6_2.index t a * main_v81_0.ty.shape.size a) = fun _ => 0 := funext fun a => by
    match a with
    | ⟨0, _⟩ => exact (out_facts6 t).1.1
    | ⟨1, _⟩ => exact (out_facts6 t).1.2.2.1
  exact (Memref.read_access_unit_zero (Elt Ideal) main_v81_0 hz' (fun a => by rw [congrFun hz' a]; simp) (sumsEnd V c)).symm

theorem flushed6_3_eq (c : Dev nD) (t : Fin cfg6.N) (hf : (cfg6.win 3).flush t = true) :
    (dat6 V c).flushed 3 t = ((cfg6.win 3).blk t).view.read (Elt Ideal) (countsEnd V c) := by
  have hN : cfg6.N = 98 := N_6
  have h3 : t.val = 97 := by have := (flush6_3 t).mp hf; have := t.isLt; omega
  have e : (outsAt6 V c t.val t.isLt).2 = countsEnd V c := by
    have : ∀ (n : ℕ) (hn : n < cfg6.N), n = 97 → (outsAt6 V c n hn).2 = (outsAt6 V c 97 h97).2 := by
      intro n hn e; subst e; rfl
    exact this t.val t.isLt h3
  show (cfg6.win 3).cut (grid6.coords t) ((dat6 V c).after 3 t) = _
  rw [after6_3, e]
  have hz' : (fun a => win6_3.index t a * main_v81_1.ty.shape.size a) = fun _ => 0 := funext fun a => by
    match a with
    | ⟨0, _⟩ => exact (out_facts6 t).2.1
    | ⟨1, _⟩ => exact (out_facts6 t).2.2.2.1
  exact (Memref.read_access_unit_zero (Elt Ideal) main_v81_1 hz' (fun a => by rw [congrFun hz' a]; simp) (countsEnd V c)).symm

/-- So the sums array ends holding what the last point left. -/
theorem sums_arr (c : Dev nD) : (dat6 V c).arrAt 2 cfg6.N = sumsEnd V c :=
  (dat6 V c).arrAt_eq_of_cover 2 (sumsEnd V c) (flushed6_2_eq V c) fun i =>
    ⟨⟨97, h97⟩, (flush6_2 ⟨97, h97⟩).mpr rfl, by
      show i ∈ ((View.whole main_v81_0).slice (win6_2.rect ⟨97, h97⟩)).set
      rw [View.set_slice_whole, Rect.mem_set_unit]
      intro a
      have h0 : (i 0 : Nat) < 512 := (i 0).isLt
      have h1 : (i 1 : Nat) < 128 := (i 1).isLt
      match a with
      | ⟨0, _⟩ =>
        show win6_2.index ⟨97, h97⟩ 0 * win6_2.size 0 ≤ (i 0 : Nat) ∧ (i 0 : Nat) < win6_2.index ⟨97, h97⟩ 0 * win6_2.size 0 + win6_2.xsize (grid6.coords ⟨97, h97⟩) 0
        rw [(out_facts6 ⟨97, h97⟩).1.1, (out_facts6 ⟨97, h97⟩).1.2.1]; omega
      | ⟨1, _⟩ =>
        show win6_2.index ⟨97, h97⟩ 1 * win6_2.size 1 ≤ (i 1 : Nat) ∧ (i 1 : Nat) < win6_2.index ⟨97, h97⟩ 1 * win6_2.size 1 + win6_2.xsize (grid6.coords ⟨97, h97⟩) 1
        rw [(out_facts6 ⟨97, h97⟩).1.2.2.1, (out_facts6 ⟨97, h97⟩).1.2.2.2]; omega⟩

/-- And the counts array likewise. -/
theorem counts_arr (c : Dev nD) : (dat6 V c).arrAt 3 cfg6.N = countsEnd V c :=
  (dat6 V c).arrAt_eq_of_cover 3 (countsEnd V c) (flushed6_3_eq V c) fun i =>
    ⟨⟨97, h97⟩, (flush6_3 ⟨97, h97⟩).mpr rfl, by
      show i ∈ ((View.whole main_v81_1).slice (win6_3.rect ⟨97, h97⟩)).set
      rw [View.set_slice_whole, Rect.mem_set_unit]
      intro a
      have h0 : (i 0 : Nat) < 512 := (i 0).isLt
      have h1 : (i 1 : Nat) < 1 := (i 1).isLt
      match a with
      | ⟨0, _⟩ =>
        show win6_3.index ⟨97, h97⟩ 0 * win6_3.size 0 ≤ (i 0 : Nat) ∧ (i 0 : Nat) < win6_3.index ⟨97, h97⟩ 0 * win6_3.size 0 + win6_3.xsize (grid6.coords ⟨97, h97⟩) 0
        rw [(out_facts6 ⟨97, h97⟩).2.1, (out_facts6 ⟨97, h97⟩).2.2.1]; omega
      | ⟨1, _⟩ =>
        show win6_3.index ⟨97, h97⟩ 1 * win6_3.size 1 ≤ (i 1 : Nat) ∧ (i 1 : Nat) < win6_3.index ⟨97, h97⟩ 1 * win6_3.size 1 + win6_3.xsize (grid6.coords ⟨97, h97⟩) 1
        rw [(out_facts6 ⟨97, h97⟩).2.2.2.1, (out_facts6 ⟨97, h97⟩).2.2.2.2]; omega⟩

end Cert.KernelIdeal.Net.Pool6

namespace Cert.KernelIdeal.Net

open Idealize.ShloMosaic Idealize.ShloMosaic.TcCoe Idealize.ShloMosaic.ValueIdx Idealize.SL.Sem
open Cert.KernelIdeal Cert.KernelIdeal.Gen
open Cert.KernelIdeal.Net.Pool6

variable (V : (c : Dev nD) → (b : Ref sig .tc) → Buf (Elt Ideal) ((c : Thread nD τ).loc b))

/-- The sums the kernel leaves, entry by entry. -/
theorem sums6 (c : Dev nD) (g : Fin 512) (d : Fin 128) :
    (dat6 (F := Ideal) V c).arrAt 2 cfg6.N (ix2 g d) = Cert.PoolSpec.onehotSumAt (V c main_v78) (V c main_v80) g d := by
  refine (congrFun (sums_arr V c) (ix2 g d)).trans (((outsAt6_eq V c g d 97 h97).1).trans ?_)
  unfold Cert.PoolSpec.onehotSumAt
  rw [show 1024 * (97 + 1) = 100352 from rfl, Finset.sum_range]
  refine Finset.sum_congr rfl fun n _ => ?_
  unfold sumTerm
  rw [dif_pos n.isLt]

/-- The counts the kernel leaves, entry by entry. -/
theorem counts6 (c : Dev nD) (g : Fin 512) :
    (dat6 (F := Ideal) V c).arrAt 3 cfg6.N (ix2 g (0 : Fin 1)) = Cert.PoolSpec.onehotCountAt (V c main_v80) g := by
  refine (congrFun (counts_arr V c) (ix2 g (0 : Fin 1))).trans (((outsAt6_eq V c g (0 : Fin 128) 97 h97).2).trans ?_)
  unfold Cert.PoolSpec.onehotCountAt
  rw [show 1024 * (97 + 1) = 100352 from rfl, Finset.sum_range]
  refine Finset.sum_congr rfl fun n _ => ?_
  unfold countTerm
  rw [dif_pos n.isLt]

end Cert.KernelIdeal.Net

end
-- ==== Proof.LibSegment.lean ====
/-
  General lemmas: a segment sum written as a scatter-add, and two index gathers, read at one element
  (at the extended reals).

  `jax.ops.segment_sum(v, ids, num_segments = C)` lowers to a `stablehlo.scatter` with an `add` body over the
  ids as an `[N, 1]` index array: update row `n` lands on segment `ids[n]` (read signed; an id outside
  `[0, C)` is dropped). At the extended reals the result at segment `c` is the operand there plus the sum of the
  updates whose id is `c` — for a vector of updates (`scatterAdd_seg1`) and for a matrix of updates scattered by
  rows (`scatterAdd_seg2`). `x[idx]` for a vector `x : [N]` and `idx : [R]` lowers to a gather over the indices as
  `[R, 1]`: element `r` is `x` at `idx[r]` read signed and clamped into `[0, N − 1]` (`gather_take1_apply`).
  `jnp.take_along_axis(x, idx[:, None], axis = 1)` for `x : [R, C]` lowers to a gather batched over the rows with
  indices `[R, 1, 1]`: element `(r, 0)` is `x[r, ·]` at `idx[r]` read signed and clamped into `[0, C − 1]`
  (`gather_along_apply`).
-/
import Idealize.ShloMosaic.PureOps.Ideal
import Idealize.ShloMosaic.Lib.ValueIdx

noncomputable section

namespace Cert.LibSegment

open Idealize.ShloMosaic Idealize.ShloMosaic.ValueIdx

/-! ## Index sets, and when an update lands on an element -/

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- An update index lands on operand index `i` exactly when, on every operand axis, the signed start plus the
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · rw [Option.some.injEq]
    constructor
    · intro e a
      rw [← e]
      have := h a
      simp only []
      omega
    · intro e
      funext a
      refine Fin.ext ?_
      have := e a
      simp only []
      omega
  · constructor
    · intro e; cases e
    · intro e
      refine absurd (fun a => ?_) h
      have := e a
      have := (i a).isLt
      omega

/-! ## Segment sums -/

/-- The scatter dimension numbers of a segment sum of a vector: operand `[C]`, ids `[N, 1]`, updates `[N]`. -/
abbrev segDims1 (N C : Nat) (wf : ScatterDims.WF ⟨1, ![C]⟩ ⟨2, ![N, 1]⟩ ⟨1, ![N]⟩ [] [0] [0] 1) :
    ScatterDims ⟨1, ![C]⟩ ⟨2, ![N, 1]⟩ ⟨1, ![N]⟩ where
  updateWindowDims := []
  insertedWindowDims := [0]
  scatterDimsToOperandDims := [0]
  indexVectorDim := 1
  wf := wf

/-- For a vector's segment sum the start of update `n` on the one operand axis is id `n` read signed. -/
theorem seg1_start {N C w : Nat} (wf : ScatterDims.WF ⟨1, ![C]⟩ ⟨2, ![N, 1]⟩ ⟨1, ![N]⟩ [] [0] [0] 1)
    (idx : IVec ⟨2, ![N, 1]⟩ w) (n : Fin N) :
    (segDims1 N C wf).start (ix1 n) idx 0 = (idx (ix2 n (0 : Fin 1))).toInt := by
  unfold ScatterDims.start
  rw [dif_pos (show (0 : Fin 1) ∈ (segDims1 N C wf).scatterDimsToOperandDims from List.mem_singleton.mpr rfl)]
  have hsi : (segDims1 N C wf).siIdx (ix1 n) ⟨List.idxOf (0 : Fin 1) (segDims1 N C wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- A vector's segment sum has no window axis: the window coordinate on the operand's axis is zero. -/
theorem seg1_window {N C : Nat} (wf : ScatterDims.WF ⟨1, ![C]⟩ ⟨2, ![N, 1]⟩ ⟨1, ![N]⟩ [] [0] [0] 1)
    (j : (⟨1, ![N]⟩ : Shape).Idx) : (segDims1 N C wf).window j 0 = 0 := by
  unfold ScatterDims.window
  rw [dif_neg]
  show (0 : Fin 1) ∉ (List.finRange 1).filter (· ∉ [(0 : Fin 1)])
  decide

/-- A segment sum of a vector, at segment `c`: the operand there plus the updates whose id is `c`. -/
theorem scatterAdd_seg1 {N C w : Nat} (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal) (c : Fin C) :
    Ideal.hostScatterAdd (segDims1 N C wf) x idx upd (ix1 c)
      = x (ix1 c) + ∑ n ∈ Finset.univ.filter (fun n : Fin N => (idx (ix2 n (0 : Fin 1))).toInt = (c.val : ℤ)), upd (ix1 n) := by
  unfold Ideal.hostScatterAdd
  congr 1
  refine (Finset.sum_equiv idxEquiv1.symm (fun n => ?_) (fun n _ => rfl)).symm
  rw [Finset.mem_filter, Finset.mem_filter, resultIdx?_eq_some_iff]
  simp only [Finset.mem_univ, true_and]
  show _ ↔ ∀ a, (segDims1 N C wf).start (ix1 n) idx a + ((segDims1 N C wf).window (ix1 n) a : ℤ) = (((ix1 c : (⟨1, ![C]⟩ : Shape).Idx) a).val : ℤ)
  rw [Fin.forall_fin_one, seg1_start, seg1_window]
  simp

/-- The scatter dimension numbers of a segment sum of a matrix by rows: operand `[C, B]`, ids `[N, 1]`, updates `[N, B]`. -/
abbrev segDims2 (N C B : Nat) (wf : ScatterDims.WF ⟨2, ![C, B]⟩ ⟨2, ![N, 1]⟩ ⟨2, ![N, B]⟩ [1] [0] [0] 1) :
    ScatterDims ⟨2, ![C, B]⟩ ⟨2, ![N, 1]⟩ ⟨2, ![N, B]⟩ where
  updateWindowDims := [1]
  insertedWindowDims := [0]
  scatterDimsToOperandDims := [0]
  indexVectorDim := 1
  wf := wf

section Seg2
variable {N C B w : Nat} (wf : ScatterDims.WF ⟨2, ![C, B]⟩ ⟨2, ![N, 1]⟩ ⟨2, ![N, B]⟩ [1] [0] [0] 1)
  (idx : IVec ⟨2, ![N, 1]⟩ w)

/-- For a matrix's segment sum by rows the start of update `(n, b')` on the segment axis is id `n` read signed. -/
theorem seg2_start0 (n : Fin N) (b' : Fin B) :
    (segDims2 N C B wf).start (ix2 n b') idx 0 = (idx (ix2 n (0 : Fin 1))).toInt := by
  unfold ScatterDims.start
  rw [dif_pos (show (0 : Fin 2) ∈ (segDims2 N C B wf).scatterDimsToOperandDims from List.mem_singleton.mpr rfl)]
  have hsi : (segDims2 N C B wf).siIdx (ix2 n b') ⟨List.idxOf (0 : Fin 2) (segDims2 N C B wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The column axis is not a scattered axis: its start is zero. -/
theorem seg2_start1 (j : (⟨2, ![N, B]⟩ : Shape).Idx) : (segDims2 N C B wf).start j idx 1 = 0 := by
  unfold ScatterDims.start
  rw [dif_neg]
  show (1 : Fin 2) ∉ [(0 : Fin 2)]
  decide

/-- The segment axis is an inserted axis: its window coordinate is zero. -/
theorem seg2_window0 (j : (⟨2, ![N, B]⟩ : Shape).Idx) : (segDims2 N C B wf).window j 0 = 0 := by
  unfold ScatterDims.window
  rw [dif_neg]
  show (0 : Fin 2) ∉ (List.finRange 2).filter (· ∉ [(0 : Fin 2)])
  decide

/-- The column axis is the one window axis: its window coordinate is the update's column. -/
theorem seg2_window1 (n : Fin N) (b' : Fin B) : (segDims2 N C B wf).window (ix2 n b') 1 = b'.val := by
  unfold ScatterDims.window
  have h1 : (1 : Fin 2) ∈ (segDims2 N C B wf).sKept := by
    show (1 : Fin 2) ∈ (List.finRange 2).filter (· ∉ [(0 : Fin 2)])
    decide
  rw [dif_pos h1]
  rfl

/-- Update `(n, b')` lands on `(c, b)` exactly when id `n` read signed is `c` and the columns agree. -/
theorem seg2_resultIdx?_iff (n : Fin N) (b' : Fin B) (c : Fin C) (b : Fin B) :
    (segDims2 N C B wf).resultIdx? (ix2 n b') idx = some (ix2 c b)
      ↔ (idx (ix2 n (0 : Fin 1))).toInt = (c.val : ℤ) ∧ b' = b := by
  rw [resultIdx?_eq_some_iff, Fin.forall_fin_two]
  show (segDims2 N C B wf).start (ix2 n b') idx 0 + ((segDims2 N C B wf).window (ix2 n b') 0 : ℤ) = (c.val : ℤ) ∧
     (segDims2 N C B wf).start (ix2 n b') idx 1 + ((segDims2 N C B wf).window (ix2 n b') 1 : ℤ) = (b.val : ℤ) ↔ _
  rw [seg2_start0, seg2_start1, seg2_window0, seg2_window1, Fin.ext_iff]
  omega

end Seg2

/-- A segment sum of a matrix by rows, at segment `c` and column `b`: the operand there plus column `b` of the update
    rows whose id is `c`. -/
theorem scatterAdd_seg2 {N C B w : Nat} (wf : ScatterDims.WF ⟨2, ![C, B]⟩ ⟨2, ![N, 1]⟩ ⟨2, ![N, B]⟩ [1] [0] [0] 1)
    (x : (⟨2, ![C, B]⟩ : Shape).Idx → EReal) (idx : IVec ⟨2, ![N, 1]⟩ w) (upd : (⟨2, ![N, B]⟩ : Shape).Idx → EReal)
    (c : Fin C) (b : Fin B) :
    Ideal.hostScatterAdd (segDims2 N C B wf) x idx upd (ix2 c b)
      = x (ix2 c b) + ∑ n ∈ Finset.univ.filter (fun n : Fin N => (idx (ix2 n (0 : Fin 1))).toInt = (c.val : ℤ)), upd (ix2 n b) := by
  unfold Ideal.hostScatterAdd
  congr 1
  have key : ∀ j : (⟨2, ![N, B]⟩ : Shape).Idx, (segDims2 N C B wf).resultIdx? j idx = some (ix2 c b) →
      (idx (ix2 (idxEquiv2 j).1 (0 : Fin 1))).toInt = (c.val : ℤ) ∧ j = ix2 (idxEquiv2 j).1 b := by
    intro j hj
    obtain ⟨n, b', rfl⟩ : ∃ n b', j = ix2 n b' := ⟨_, _, eq_ix2 j⟩
    obtain ⟨h1, rfl⟩ := (seg2_resultIdx?_iff wf idx n b' c b).mp hj
    exact ⟨h1, rfl⟩
  refine Finset.sum_nbij' (fun j => (idxEquiv2 j).1) (fun n => ix2 n b) ?_ ?_ ?_ ?_ ?_
  · intro j hj
    rw [Finset.mem_filter] at hj ⊢
    exact ⟨Finset.mem_univ _, (key j hj.2).1⟩
  · intro n hn
    rw [Finset.mem_filter] at hn ⊢
    exact ⟨Finset.mem_univ _, (seg2_resultIdx?_iff wf idx n b c b).mpr ⟨hn.2, rfl⟩⟩
  · intro j hj
    rw [Finset.mem_filter] at hj
    exact (key j hj.2).2.symm
  · intro n _
    rfl
  · intro j hj
    rw [Finset.mem_filter] at hj
    exact congrArg upd (key j hj.2).2

/-! ## Index gathers -/

section Gather
variable {α : Type}

/-- The gather dimension numbers of `x[idx]` for `x : [N]`, `idx : [R]` given as `[R, 1]`. -/
abbrev takeDims1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- `x[idx]` at element `r`: `x` at `idx[r]` read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (takeDims1 N R wf) x idx (ix1 r) = x (ix1 ⟨min (idx (ix2 r (0 : Fin 1))).toInt.toNat (N - 1), by omega⟩) := by
  unfold Host.gather
  congr 1
  funext a
  obtain rfl : a = 0 := Subsingleton.elim _ _
  refine Fin.ext ?_
  show (takeDims1 N R wf).start (ix1 r) idx 0 + (takeDims1 N R wf).batchCoord (ix1 r) 0
    + (takeDims1 N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N R wf).startIndexMap from List.mem_singleton.mpr rfl)]
  have hsi : (takeDims1 N R wf).siIdx (ix1 r) ⟨List.idxOf (0 : Fin 1) (takeDims1 N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The gather dimension numbers of `take_along_axis(x, idx, axis = 1)` for `x : [R, C]`, `idx : [R, 1]` given as `[R, 1, 1]`. -/
abbrev alongDims (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- `take_along_axis` at row `r`: row `r` of `x` at `idx[r]` read signed and clamped into `[0, C − 1]`. -/
theorem gather_along_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) :
    Host.gather (alongDims R C wf) x idx (ix2 r (0 : Fin 1))
      = x (ix2 r ⟨min (idx (ix3 r (0 : Fin 1) (0 : Fin 1))).toInt.toNat (C - 1), by omega⟩) := by
  unfold Host.gather
  congr 1
  have h0 : (alongDims R C wf).start (ix2 r (0 : Fin 1)) idx 0 + (alongDims R C wf).batchCoord (ix2 r (0 : Fin 1)) 0
      + (alongDims R C wf).offCoord (ix2 r (0 : Fin 1)) 0 = r.val := by
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  have h1 : (alongDims R C wf).start (ix2 r (0 : Fin 1)) idx 1 + (alongDims R C wf).batchCoord (ix2 r (0 : Fin 1)) 1
      + (alongDims R C wf).offCoord (ix2 r (0 : Fin 1)) 1 = min (idx (ix3 r (0 : Fin 1) (0 : Fin 1))).toInt.toNat (C - 1) := by
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 r (0 : Fin 1)) ⟨List.idxOf (1 : Fin 2) (alongDims R C wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl
  funext a
  refine Fin.ext ?_
  match a with
  | ⟨0, _⟩ => exact h0
  | ⟨1, _⟩ => exact h1

end Gather

end Cert.LibSegment

end
-- ==== Proof.PoolMath.lean ====
/-
  The pool, two ways.  The kernel adds, over the node rows padded to 100352 (zero rows, id -1), the rows whose
  id equals g; the reference scatters the 100000 rows by id.  A padded row never matches a graph (its id is -1),
  and an id outside [0, 512) matches no graph and is dropped by the scatter, so both are the sum of the rows
  whose id is g.  Only 1·x = x and 0·x = 0 are used, which hold on all extended reals.
-/
import proofs.«429457_j46608985096492_1_alg».proof.Proof.Spec
import proofs.«429457_j46608985096492_1_alg».proof.Proof.PoolSpec
import proofs.«429457_j46608985096492_1_alg».proof.Proof.LibSegment
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.PoolMath

open Idealize.ShloMosaic Idealize.ShloMosaic.ValueIdx

variable (H : Cert.Spec.Arr Ideal ⟨Cert.ReferenceIdeal.S100000x128, .f32⟩) (batch : Cert.Spec.Arr Ideal ⟨Cert.ReferenceIdeal.S100000, .i32⟩)
  (X : FVec Ideal Cert.KernelIdeal.S100352x128 .f32) (A : IVec Cert.KernelIdeal.S1x100352 32)

/-! ## Words -/

/-- A 32-bit word read signed is the number `g` (below 2³¹) exactly when it is the word of `g`: a word whose signed
    reading is not negative is its unsigned reading, and two words with one unsigned reading are one word. -/
theorem toInt_eq_iff (a : BitVec 32) (g : ℕ) (hg : g < 2147483648) :
    a.toInt = (g : ℤ) ↔ a = BitVec.ofNat 32 g := by
  constructor
  · intro h
    apply BitVec.eq_of_toNat_eq
    rw [BitVec.toNat_ofNat]
    rw [BitVec.toInt_eq_toNat_cond] at h
    have := a.isLt
    split_ifs at h <;> omega
  · rintro rfl
    rw [BitVec.toInt_eq_toNat_cond, BitVec.toNat_ofNat]
    split_ifs <;> omega

/-- The word of -1 (all ones, 2³² − 1 read unsigned) is the word of no number below 512. -/
theorem pad_ne (g : ℕ) (hg : g < 512) : (0xFFFFFFFF#32 : BitVec 32) ≠ BitVec.ofNat 32 g := by
  intro h
  have h' := congrArg BitVec.toNat h
  rw [BitVec.toNat_ofNat, BitVec.toNat_ofNat] at h'
  omega

/-! ## A sum over padded rows -/

/-- A sum over `M` rows whose terms past row `N` are zero is the sum over the first `N` rows: the first `N` rows sit
    inside the `M` injectively, and every row outside their image contributes zero. -/
theorem sum_pad {N M : ℕ} (hNM : N ≤ M) (F : Fin N → EReal) :
    ∑ n : Fin M, (if h : n.val < N then F ⟨n.val, h⟩ else 0) = ∑ m : Fin N, F m := by
  refine (Fintype.sum_of_injective (Fin.castLE hNM) (Fin.castLE_injective hNM) F _ ?_ ?_).symm
  · intro n hn
    rw [dif_neg]
    intro h
    exact hn ⟨⟨n.val, h⟩, Fin.ext rfl⟩
  · intro m
    rw [dif_pos (show (Fin.castLE hNM m).val < N from m.isLt)]
    rfl

/-! ## The reference's two scatters, read at one entry -/

/-- The reference's scatter of rows is a segment sum of a matrix by rows: 100000 rows of 128 into 512 segments. -/
theorem scatter2_eq : Cert.ReferenceIdeal.scatter_S512x128_S100000x1_S100000x128_1_0_0_1
    = Cert.LibSegment.segDims2 100000 512 128 Cert.ReferenceIdeal.Facts₀.scatter_S512x128_S100000x1_S100000x128_1_0_0_1_wf := rfl

/-- The reference's scatter of ones is a segment sum of a vector: 100000 entries into 512 segments. -/
theorem scatter1_eq : Cert.ReferenceIdeal.scatter_S512_S100000x1_S100000_n_0_0_1
    = Cert.LibSegment.segDims1 100000 512 Cert.ReferenceIdeal.Facts₀.scatter_S512_S100000x1_S100000_n_0_0_1_wf := rfl

/-- The ids laid out as one column read, at row `n`, id `n`. -/
theorem ids_apply (n : Fin 100000) :
    broadcastInDim Cert.ReferenceIdeal.S100000x1 ![0] Cert.ReferenceIdeal.Facts₀.bcast_S100000_S100000x1_0 batch (ix2 n (0 : Fin 1)) = batch (ix1 n) :=
  broadcastInDim_apply _ _ batch (ix2 n (0 : Fin 1)) (ix1 n) (fun a => match a with | ⟨0, _⟩ => rfl)

/-- Entry (g, d) of the reference's sums: the scatter starts from zero, so it is the sum, over the rows whose id read
    signed is g, of the row's entry d; for g below 512 "read signed is g" says the id is the word of g. -/
theorem segmentSums_apply (g : Fin 512) (d : Fin 128) :
    Cert.Spec.segmentSums (F := Ideal) batch H (ix2 g d)
      = ∑ n : Fin 100000, if batch (ix1 n) = BitVec.ofNat 32 g.val then H (ix2 n d) else 0 := by
  unfold Cert.Spec.segmentSums Host.scatterAdd
  rw [Ideal.hostScatterAdd_def, scatter2_eq, Cert.LibSegment.scatterAdd_seg2]
  rw [broadcastInDim_scalar_apply, constant_apply, Ideal.ofBits_zero_f32, zero_add, Finset.sum_filter]
  refine Finset.sum_congr rfl fun n _ => if_congr ?_ rfl rfl
  rw [ids_apply]
  exact toInt_eq_iff _ _ (by have := g.isLt; omega)

/-- Entry g of the reference's counts: the scatter starts from zero and every update is one, so it is the number of
    rows whose id is the word of g. -/
theorem segmentCounts_apply (g : Fin 512) :
    Cert.Spec.segmentCounts (F := Ideal) batch (ix1 g)
      = ∑ n : Fin 100000, if batch (ix1 n) = BitVec.ofNat 32 g.val then (1 : EReal) else 0 := by
  unfold Cert.Spec.segmentCounts Host.scatterAdd
  rw [Ideal.hostScatterAdd_def, scatter1_eq, Cert.LibSegment.scatterAdd_seg1]
  rw [broadcastInDim_scalar_apply, constant_apply, Ideal.ofBits_zero_f32, zero_add, Finset.sum_filter]
  refine Finset.sum_congr rfl fun n _ => if_congr ?_ ?_ rfl
  · rw [ids_apply]
    exact toInt_eq_iff _ _ (by have := g.isLt; omega)
  · rw [broadcastInDim_scalar_apply, constant_apply, Ideal.ofBits_one_f32]

/-! ## The two pools agree -/

/-- Over padded rows (zero past row 100000) and padded ids (-1 past 100000) the one-hot sum is the segment sum. -/
theorem sums_eq
    (hX : ∀ (n : Fin 100352) (d : Fin 128), X (ix2 n d) = if h : n.val < 100000 then H (ix2 (⟨n.val, h⟩ : Fin 100000) d) else 0)
    (hA : ∀ n : Fin 100352, A (ix2 (0 : Fin 1) n) = if h : n.val < 100000 then batch (ix1 (⟨n.val, h⟩ : Fin 100000)) else 0xFFFFFFFF#32)
    (g : Fin 512) (d : Fin 128) :
    Cert.PoolSpec.onehotSumAt X A g d = Cert.Spec.segmentSums (F := Ideal) batch H (ix2 g d) := by
  -- both sides as sums over the padded rows; a padded row's term is zero because the row is zero
  rw [segmentSums_apply]
  unfold Cert.PoolSpec.onehotSumAt
  rw [← sum_pad (show 100000 ≤ 100352 by omega)]
  refine Finset.sum_congr rfl fun n _ => ?_
  rw [hX n d, hA n]
  by_cases h : n.val < 100000
  · simp only [dif_pos h]
  · simp only [dif_neg h, ite_self]

/-- Over padded ids (-1 past 100000) the one-hot count is the segment count. -/
theorem counts_eq
    (hA : ∀ n : Fin 100352, A (ix2 (0 : Fin 1) n) = if h : n.val < 100000 then batch (ix1 (⟨n.val, h⟩ : Fin 100000)) else 0xFFFFFFFF#32)
    (g : Fin 512) :
    Cert.PoolSpec.onehotCountAt A g = Cert.Spec.segmentCounts (F := Ideal) batch (ix1 g) := by
  -- both sides as sums over the padded rows; a padded row's term is zero because its id, -1, is no graph's word
  rw [segmentCounts_apply]
  unfold Cert.PoolSpec.onehotCountAt
  rw [← sum_pad (show 100000 ≤ 100352 by omega)]
  refine Finset.sum_congr rfl fun n _ => ?_
  rw [hA n]
  by_cases h : n.val < 100000
  · simp only [dif_pos h]
  · simp only [dif_neg h]
    exact if_neg (pad_ne g.val g.isLt)

end Cert.PoolMath

end
-- ==== Proof.Classifier.lean ====
/-
  The classifier kernel: one grid point; g Wl plus the one-row bias, then the row-wise log-softmax.

  The body's value is split as  tail (logits):  the logits are the product into zeros plus the bias row on every
  row, the tail subtracts max(-inf, row maximum) and then the log of the row sum of the exponentials.  Each piece
  is matched with the specification's piece as whole arrays: the product with the host product (both the sum over
  the contraction index), the row maximum with the host's reduce (both the fold of max over the row's indices),
  the row sum with the host's sum, the column layout [512] -> [512,1] -> [512,10] in its two spellings, and
  exp / log, which at the extended reals are one function on both sides.  Every window's block is its whole
  array, so what the one point writes back is that function of the arrays the region finds, and it covers the output.
-/
import proofs.«429457_j46608985096492_1_alg».proof.Proof.Gen.KernelIdeal.Frame
import proofs.«429457_j46608985096492_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Region7

/-! ## The body's value, in three pieces -/

/-- The kernel's logits: the product into zeros plus the bias row on every row. -/
def klogits (x0 : Vec Ideal S512x128 .f32) (x1 : Vec Ideal S128x10 .f32) (x2 : Vec Ideal S1x10 .f32) : FVec Ideal S512x10 .f32 :=
  addf (matmul dot_S512x128_S128x10_S512x10_1_0_0_1_n_n none
      (truncf .bf16 (shapeCast S512x128 x0 shapeCasts_S512x128_S512x128) bitsLt_bf16_f32) (truncf .bf16 x1 bitsLt_bf16_f32)
      (constant S512x10 .f32 0x00000000#32))
    (broadcastTo S512x10 (shapeCast S1x10 x2 shapeCasts_S1x10_S1x10) broadcasts_S1x10_S512x10)

/-- The kernel's shifted rows: each entry minus max(-inf, the row's maximum). -/
def kshift (z : FVec Ideal S512x10 .f32) : FVec Ideal S512x10 .f32 :=
  subf z (broadcastTo S512x10 (shapeCast S512x1
    (maximumf (broadcast S512 (Scalar.ofBits .f32 0xFF800000#32))
      (multiReduction .maximumf [1] S512 z 0xFF800000#32 reduces_S512x10_S512 (.inl rfl) rfl))
    shapeCasts_S512_S512x1) broadcasts_S512x1_S512x10)

/-- The kernel's tail: the shifted rows minus the log of the row sums of their exponentials. -/
def ktail (z : FVec Ideal S512x10 .f32) : FVec Ideal S512x10 .f32 :=
  subf (kshift z) (broadcastTo S512x10 (log (shapeCast S512x1
    (multiReduction .add [1] S512 (exp (kshift z)) 0x00000000#32 reduces_S512x10_S512 (.inl rfl) rfl)
    shapeCasts_S512_S512x1)) broadcasts_S512x1_S512x10)

/-- The payload is the tail of the logits: the same operations in the same order. -/
theorem pay_split (x0 : Vec Ideal S512x128 .f32) (x1 : Vec Ideal S128x10 .f32) (x2 : Vec Ideal S1x10 .f32) :
    k7_pay1 (F := Ideal) x0 x1 x2 = ktail (klogits x0 x1 x2) := rfl

/-! ## A length-512 vector as a column repeated along the lanes -/

section Column
variable {α : Type}

/-- The vector cast to [512,1] and broadcast to [512,10], read at (p, q), is the vector at p. -/
theorem colK_apply (M : S512.Idx → α) (sc : S512.ShapeCasts S512x1) (bc : S512x1.Broadcasts S512x10) (p : Fin 512) (q : Fin 10) :
    broadcastTo S512x10 (shapeCast S512x1 M sc) bc (ix2 p q) = M (ix1 p) := by
  refine (broadcastTo_apply _ bc (ix2 p q) (ix2 p (0 : Fin 1)) fun a => ?_).trans ?_
  · match a with
    | ⟨0, _⟩ => rfl
    | ⟨1, _⟩ => rfl
  · refine shapeCast_apply M sc _ (ix1 p) ?_
    rw [Shape.rowMajor_val_two, Shape.rowMajor_val_one]
    show p.val = p.val * 1 + 0
    omega

/-- The vector broadcast in dimension 0 to [512,1] and then to [512,10], read at (p, q), is the vector at p. -/
theorem colR_apply (M : S512.Idx → α) (b1 : S512.BroadcastsInDim S512x1 ![0]) (b2 : S512x1.BroadcastsInDim S512x10 ![0, 1])
    (p : Fin 512) (q : Fin 10) :
    broadcastInDim S512x10 ![0, 1] b2 (broadcastInDim S512x1 ![0] b1 M) (ix2 p q) = M (ix1 p) := by
  refine (broadcastInDim_apply ![0, 1] b2 _ (ix2 p q) (ix2 p (0 : Fin 1)) fun a => ?_).trans ?_
  · match a with
    | ⟨0, _⟩ => rfl
    | ⟨1, _⟩ => rfl
  · refine broadcastInDim_apply ![0] b1 M _ (ix1 p) fun a => ?_
    match a with
    | ⟨0, _⟩ => rfl

/-- So the two spellings of the column are one array. -/
theorem col_eq (M : S512.Idx → α) (sc : S512.ShapeCasts S512x1) (bc : S512x1.Broadcasts S512x10)
    (b1 : S512.BroadcastsInDim S512x1 ![0]) (b2 : S512x1.BroadcastsInDim S512x10 ![0, 1]) :
    broadcastTo S512x10 (shapeCast S512x1 M sc) bc = broadcastInDim S512x10 ![0, 1] b2 (broadcastInDim S512x1 ![0] b1 M) := by
  funext j
  obtain ⟨p, q, rfl⟩ : ∃ (p : Fin 512) (q : Fin 10), j = ix2 p q := ⟨j 0, j 1, eq_ix2 j⟩
  exact (colK_apply M sc bc p q).trans (colR_apply M b1 b2 p q).symm

end Column

/-! ## The two row reductions -/

/-- The row maximum: the lane reduction and the host's reduce are the fold of max, from the value of the same
    word, over the same set of indices (those of the row); max with -inf in front is the same on both sides. -/
theorem rowmax_eq (z : FVec Ideal S512x10 .f32) (h : S512x10.Reduces [1] S512) (h' : S512x10.ReducesTo [1] S512)
    (hu : 0 < S_.numel) (hφ : FKind.Formats .f32) (hacc : (0xFF800000#32 : BitVec 32) = FKind.maximumf.neutral .f32 hφ)
    (b0 : S_.BroadcastsInDim S512 ![]) :
    maximumf (broadcast S512 (Scalar.ofBits .f32 0xFF800000#32)) (multiReduction .maximumf [1] S512 z 0xFF800000#32 h hφ hacc)
      = maximumf (broadcastInDim S512 ![] b0 (constant (F := Ideal) S_ .f32 0xFF800000#32))
          (Host.reduce FloatOps.maximumf z (constant (F := Ideal) S_ .f32 0xFF800000#32) h' hu) := by
  funext j
  have e : multiReduction .maximumf [1] S512 z 0xFF800000#32 h hφ hacc j
      = Host.reduce FloatOps.maximumf z (constant (F := Ideal) S_ .f32 0xFF800000#32) h' hu j := by
    refine (multiReduction_maximumf_eq_fold z _ h hφ hacc j).trans ?_
    refine Eq.trans ?_ (Host.reduce_eq_fold FloatOps.maximumf z _ h' hu j).symm
    rw [Shape.ReducesTo.drop_eq_drop h' h]
    rfl
  show max _ _ = max _ _
  exact congrArg₂ max rfl e

/-- The row sum: the lane sum and the host's sum from the zero word are the sum over the row's indices. -/
theorem rowsum_eq (e : FVec Ideal S512x10 .f32) (h : S512x10.Reduces [1] S512) (h' : S512x10.ReducesTo [1] S512)
    (hu : 0 < S_.numel) (hφ : FKind.Formats .f32) (hacc : (0x00000000#32 : BitVec 32) = FKind.add.neutral .f32 hφ) :
    multiReduction .add [1] S512 e 0x00000000#32 h hφ hacc
      = Host.reduceAdd e (constant (F := Ideal) S_ .f32 0x00000000#32) h' hu := by
  funext j
  show Ideal.reduceAdd h e j = Ideal.hostReduceAdd h' e (Ideal.ofBits .f32 0x00000000#32) j
  unfold Ideal.reduceAdd Ideal.hostReduceAdd
  rw [Ideal.ofBits_zero_f32, zero_add, Shape.ReducesTo.drop_eq_drop h' h]

/-! ## The tail is the log-softmax -/

/-- The shifted rows are the specification's. -/
theorem kshift_eq (z : FVec Ideal S512x10 .f32) : kshift z = Cert.Spec.shifted (F := Ideal) z := by
  unfold kshift Cert.Spec.shifted
  exact congrArg (subf z) ((col_eq _ _ _ _ _).trans (congrArg (fun M => broadcastInDim _ _ _ (broadcastInDim _ _ _ M))
    (rowmax_eq z _ _ _ _ _ _)))

/-- At the extended reals the kernel's and the host's exponential are one function, and so are the logarithms. -/
theorem exp_eq_host (s : FVec Ideal S512x10 .f32) : exp s = Host.exp s := rfl
theorem log_eq_host (M : FVec Ideal S512 .f32) : log M = Host.log M := rfl

/-- From shifted rows on: the log of the row sums of the exponentials, laid out as a column, in the two spellings.
    The logarithm is entry by entry, so it passes through the column layout on both sides. -/
theorem logsum_eq (s : FVec Ideal S512x10 .f32) (h : S512x10.Reduces [1] S512) (h' : S512x10.ReducesTo [1] S512)
    (hu : 0 < S_.numel) (hφ : FKind.Formats .f32) (hacc : (0x00000000#32 : BitVec 32) = FKind.add.neutral .f32 hφ)
    (sc : S512.ShapeCasts S512x1) (bc : S512x1.Broadcasts S512x10)
    (b1 : S512.BroadcastsInDim S512x1 ![0]) (b2 : S512x1.BroadcastsInDim S512x10 ![0, 1]) :
    subf s (broadcastTo S512x10 (log (shapeCast S512x1 (multiReduction .add [1] S512 (exp s) 0x00000000#32 h hφ hacc) sc)) bc)
      = subf s (broadcastInDim S512x10 ![0, 1] b2 (Host.log (broadcastInDim S512x1 ![0] b1
          (Host.reduceAdd (Host.exp s) (constant (F := Ideal) S_ .f32 0x00000000#32) h' hu)))) := by
  refine congrArg (subf s) ?_
  refine Eq.trans (b := broadcastTo S512x10 (shapeCast S512x1
      (log (multiReduction .add [1] S512 (exp s) 0x00000000#32 h hφ hacc)) sc) bc) rfl ?_
  refine (col_eq _ sc bc b1 b2).trans ?_
  refine congrArg (broadcastInDim (s := S512x1) S512x10 ![0, 1] b2) ?_
  refine Eq.trans (congrArg (broadcastInDim (s := S512) S512x1 ![0] b1) ?_) (rfl : broadcastInDim (s := S512) S512x1 ![0] b1
      (Host.log (Host.reduceAdd (Host.exp s) (constant (F := Ideal) S_ .f32 0x00000000#32) h' hu)) = _)
  rw [log_eq_host, exp_eq_host]
  exact congrArg Host.log (rowsum_eq _ h h' hu hφ hacc)

/-- The tail is the specification's log-softmax. -/
theorem ktail_eq (z : FVec Ideal S512x10 .f32) : ktail z = Cert.Spec.logSoftmax (F := Ideal) z := by
  unfold ktail Cert.Spec.logSoftmax
  rw [kshift_eq]
  exact logsum_eq _ _ _ _ _ _ _ _ _ _

/-! ## The logits -/

/-- The kernel's and the reference's dimension numbers of the product are one record. -/
theorem dot_eq : Cert.KernelIdeal.dot_S512x128_S128x10_S512x10_1_0_0_1_n_n
    = Cert.ReferenceIdeal.dot_S512x128_S128x10_S512x10_1_0_0_1_n_n := rfl

/-- The kernel's logits are the specification's: the product into zeros is the host's product (both the sum
    over the contraction index of the operands' products; rounding to bf16 changes nothing at the extended
    reals), and the bias row is read at (0, q) on both sides. -/
theorem klogits_eq (x0 : Vec Ideal S512x128 .f32) (x1 : Vec Ideal S128x10 .f32) (x2 : Vec Ideal S1x10 .f32) :
    klogits x0 x1 x2 = Cert.Spec.logitsRow (F := Ideal) x0 x1 x2 := by
  unfold klogits Cert.Spec.logitsRow
  rw [shapeCast_self, shapeCast_self, dot_eq]
  funext j
  obtain ⟨p, q, rfl⟩ : ∃ (p : Fin 512) (q : Fin 10), j = ix2 p q := ⟨j 0, j 1, eq_ix2 j⟩
  refine congrArg₂ (· + ·) ?_ ?_
  · refine (Ideal.matmul_constant_zero_apply _ none _ _ (ix2 p q)).trans ?_
    exact (Ideal.dotGeneral_apply _ none .single x0 x1 (ix2 p q)).symm
  · refine (broadcastTo_apply x2 _ (ix2 p q) (ix2 (0 : Fin 1) q) fun a => ?_).trans ?_
    · match a with
      | ⟨0, _⟩ => rfl
      | ⟨1, _⟩ => rfl
    · refine (broadcastInDim_apply ![0, 1] _ x2 (ix2 p q) (ix2 (0 : Fin 1) q) fun a => ?_).symm
      match a with
      | ⟨0, _⟩ => rfl
      | ⟨1, _⟩ => rfl

/-! ## From the one block to the array -/

theorem zeros2 : (![0, 0] : Fin 2 → Nat) = fun _ => 0 := funext fun a => by fin_cases a <;> rfl

/-- The one grid point: every window's block index is zero on both axes. -/
theorem idx7 : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- Window 0's block is the whole array of pooled features: an element of the block sits at block index times
    block size plus its own coordinate, and the block index is zero. -/
theorem blk7_0 (c : Dev nD) (t : Fin cfg7.N) :
    (iblk7 V c 0 t : Vec Ideal S512x128 .f32) = (V c main_v85 : Vec Ideal S512x128 .f32) := by
  obtain ⟨e0, e1, -⟩ := idx7 t
  funext j
  show V c main_v85 (((cfg7.win 0).blk t).view.emb j) = V c main_v85 j
  refine congrArg (V c main_v85) (funext fun a => Fin.ext ?_)
  match a with
  | ⟨0, _⟩ => show win7_0.index t (0 : Fin 2) * 512 + 1 * (j 0).val = (j 0).val; omega
  | ⟨1, _⟩ => show win7_0.index t (1 : Fin 2) * 128 + 1 * (j 1).val = (j 1).val; omega

/-- Window 1's block is the whole weight. -/
theorem blk7_1 (c : Dev nD) (t : Fin cfg7.N) :
    (iblk7 V c 1 t : Vec Ideal S128x10 .f32) = (V c main_arg9 : Vec Ideal S128x10 .f32) := by
  obtain ⟨-, -, e0, e1, -⟩ := idx7 t
  funext j
  show V c main_arg9 (((cfg7.win 1).blk t).view.emb j) = V c main_arg9 j
  refine congrArg (V c main_arg9) (funext fun a => Fin.ext ?_)
  match a with
  | ⟨0, _⟩ => show win7_1.index t (0 : Fin 2) * 128 + 1 * (j 0).val = (j 0).val; omega
  | ⟨1, _⟩ => show win7_1.index t (1 : Fin 2) * 10 + 1 * (j 1).val = (j 1).val; omega

/-- Window 2's block is the whole bias row. -/
theorem blk7_2 (c : Dev nD) (t : Fin cfg7.N) :
    (iblk7 V c 2 t : Vec Ideal S1x10 .f32) = (V c main_v86 : Vec Ideal S1x10 .f32) := by
  obtain ⟨-, -, -, -, e0, e1, -⟩ := idx7 t
  funext j
  show V c main_v86 (((cfg7.win 2).blk t).view.emb j) = V c main_v86 j
  refine congrArg (V c main_v86) (funext fun a => Fin.ext ?_)
  match a with
  | ⟨0, _⟩ => show win7_2.index t (0 : Fin 2) * 1 + 1 * (j 0).val = (j 0).val; omega
  | ⟨1, _⟩ => show win7_2.index t (1 : Fin 2) * 10 + 1 * (j 1).val = (j 1).val; omega

/-- The output's block read off a whole array is the array. -/
theorem read7_3 (t : Fin cfg7.N) (G : Vec Ideal S512x10 .f32) :
    ((cfg7.win 3).blk t).view.read (Elt Ideal) G = G := by
  obtain ⟨-, -, -, -, -, -, e0, e1⟩ := idx7 t
  funext j
  show G (((cfg7.win 3).blk t).view.emb j) = G j
  refine congrArg G (funext fun a => Fin.ext ?_)
  match a with
  | ⟨0, _⟩ => show win7_3.index t (0 : Fin 2) * 512 + 1 * (j 0).val = (j 0).val; omega
  | ⟨1, _⟩ => show win7_3.index t (1 : Fin 2) * 10 + 1 * (j 1).val = (j 1).val; omega

/-- What the one point writes back is the log-softmax of the logits of the arrays the region finds: the body's
    one store covers its buffer, its loads read the whole blocks, the blocks are the arrays. -/
theorem flushed7_3 (c : Dev nD) (t : Fin cfg7.N) :
    (dat7 (F := Ideal) V c).flushed 3 t = ((cfg7.win 3).blk t).view.read (Elt Ideal)
      (Cert.Spec.logSoftmax (F := Ideal) (Cert.Spec.logitsRow (F := Ideal) (V c main_v85) (V c main_arg9) (V c main_v86))) := by
  rw [read7_3]
  show (cfg7.win 3).cut (grid7.coords t) ((dat7 (F := Ideal) V c).after 3 t) = _
  rw [after7_3]
  unfold out7_3
  rw [View.canon_unit_zero zeros2]
  simp only [View.ld_unit_zero (S := S512x128) zeros2, View.ld_unit_zero (S := S128x10) zeros2, View.ld_unit_zero (S := S1x10) zeros2]
  rw [blk7_0, blk7_1, blk7_2, pay_split, klogits_eq, ktail_eq]
  rfl

/-- An index of the output is in a point's block iff each coordinate is in the block's range. -/
theorem mem_blk7_3 (t : Fin cfg7.N) (i : S512x10.Idx) :
    i ∈ ((cfg7.win 3).blk t).view.set ↔ ∀ a : Fin 2, win7_3.index t a * S512x10.size a ≤ (i a).val ∧ (i a).val < win7_3.index t a * S512x10.size a + S512x10.size a := by
  show i ∈ ((View.whole main_v87).slice (win7_3.rect t)).set ↔ _
  rw [View.set_slice_whole, Rect.mem_set_unit]
  exact Iff.rfl

/-- The one block covers the output. -/
theorem cover7 (i : S512x10.Idx) : ∃ t : Fin cfg7.N, (cfg7.win 3).flush t = true ∧ i ∈ ((cfg7.win 3).blk t).view.set := by
  refine ⟨t7_0, flush7_3 t7_0, ?_⟩
  obtain ⟨-, -, -, -, -, -, e0, e1⟩ := idx7 t7_0
  rw [mem_blk7_3]
  intro a
  match a with
  | ⟨0, _⟩ =>
    show win7_3.index t7_0 (0 : Fin 2) * 512 ≤ (i 0).val ∧ (i 0).val < win7_3.index t7_0 (0 : Fin 2) * 512 + 512
    have := idx2_lt0 i; omega
  | ⟨1, _⟩ =>
    show win7_3.index t7_0 (1 : Fin 2) * 10 ≤ (i 1).val ∧ (i 1).val < win7_3.index t7_0 (1 : Fin 2) * 10 + 10
    have := idx2_lt1 i; omega

end Region7

/-- The array the kernel leaves is the log-softmax of g Wl + bl. -/
theorem classify7 (c : Dev nD) :
    (dat7 (F := Ideal) V c).arrAt 3 cfg7.N
      = Cert.Spec.logSoftmax (F := Ideal) (Cert.Spec.logitsRow (F := Ideal) (V c main_v85) (V c main_arg9) (V c main_v86)) :=
  (dat7 (F := Ideal) V c).arrAt_eq_of_cover 3 _ (fun t _ => Region7.flushed7_3 V c t) Region7.cover7

end Cert.KernelIdeal.Net

end
-- ==== Proof.Tail.lean ====
/-
  From the node embedding to the result: the rows and ids padded to 100352, the pool kernel, the division by
  max(count, 1) on the host, and the classifier kernel.

  The classifier kernel leaves the log-softmax of (pooled rows) Wl + (bias row).  The pooled rows are the pool's
  sums divided by the column max(count, 1) spread over each row; the pool's sums and counts are, entry by entry,
  the one-hot sums over the padded rows and ids, which are the segment sums and counts because a padding row is
  zero and a padding id is the word -1.  The bias row is the bias laid out as one row, which is the bias
  broadcast along axis 1.
-/
import proofs.«429457_j46608985096492_1_alg».proof.Proof.Gen.KernelIdeal.Frame
import proofs.«429457_j46608985096492_1_alg».proof.Proof.Spec
import proofs.«429457_j46608985096492_1_alg».proof.Proof.Keep
import proofs.«429457_j46608985096492_1_alg».proof.Proof.PoolKernel
import proofs.«429457_j46608985096492_1_alg».proof.Proof.PoolMath
import proofs.«429457_j46608985096492_1_alg».proof.Proof.Classifier
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace TailPieces

/-! ## The layout pieces, over variables -/

section Pieces

/-- A vector laid out as one row is the vector broadcast along axis 1. -/
theorem row_eq_bcast {α : Type} (x : S10.Idx → α) (h1 : S10.ShapeCasts S1x10)
    (h2 : S10.BroadcastsInDim S1x10 (![1] : Fin 1 → Fin S1x10.rank)) :
    shapeCast S1x10 x h1 = broadcastInDim S1x10 ![1] h2 x := by
  funext j
  obtain ⟨u, i, rfl⟩ : ∃ (u : Fin 1) (i : Fin 10), j = ix2 u i := ⟨j 0, j 1, eq_ix2 j⟩
  rw [shapeCast_a_1a_apply]
  exact (broadcastInDim_apply _ h2 x _ (ix1 i) (fun a => match a with | ⟨0, _⟩ => rfl)).symm

/-- max(count, 1) taken on the column of counts is the column of max(count, 1) taken on the vector of counts. -/
theorem max_column (cnt2 : FVec Ideal S512x1 .f32) (cnts : FVec Ideal S512 .f32) (one : FVec Ideal S_ .f32)
    (hb0 : S_.BroadcastsInDim S512x1 (![] : Fin 0 → Fin S512x1.rank))
    (hb1 : S_.BroadcastsInDim S512 (![] : Fin 0 → Fin S512.rank))
    (hb2 : S512.BroadcastsInDim S512x1 (![0] : Fin 1 → Fin S512x1.rank))
    (hc : ∀ g : Fin 512, cnt2 (ix2 g (0 : Fin 1)) = cnts (ix1 g)) :
    maximumf cnt2 (broadcastInDim S512x1 ![] hb0 one)
      = broadcastInDim S512x1 ![0] hb2 (maximumf cnts (broadcastInDim S512 ![] hb1 one)) := by
  funext j
  obtain ⟨g, u, rfl⟩ : ∃ (g : Fin 512) (u : Fin 1), j = ix2 g u := ⟨j 0, j 1, eq_ix2 j⟩
  obtain rfl : u = 0 := Subsingleton.elim _ _
  refine Eq.trans ?_ (broadcastInDim_apply _ hb2 _ (ix2 g (0 : Fin 1)) (ix1 g) (fun a => match a with | ⟨0, _⟩ => rfl)).symm
  rw [maximumf_apply, maximumf_apply, hc g,
    broadcastInDim_apply _ hb0 one (ix2 g (0 : Fin 1)) ix0 (fun a => a.elim0),
    broadcastInDim_apply _ hb1 one (ix1 g) ix0 (fun a => a.elim0)]

/-- Sums divided by the column max(count, 1) spread over each row are the mean, once the column of counts is the
    vector of counts entry by entry. -/
theorem mean_eq (sums : FVec Ideal S512x128 .f32) (cnt2 : FVec Ideal S512x1 .f32)
    (cnts : Cert.Spec.Arr Ideal ⟨Cert.ReferenceIdeal.S512, .f32⟩)
    (hc : ∀ g : Fin 512, cnt2 (ix2 g (0 : Fin 1)) = cnts (ix1 g)) :
    Host.divf (F := Ideal) sums (broadcastInDim S512x128 ![0, 1] bcast_S512x1_S512x128_0_1
        (maximumf cnt2 (broadcastInDim S512x1 ![] bcast_S_S512x1 (constant (F := Ideal) S_ .f32 0x3F800000#32))))
      = Cert.Spec.meanOf (F := Ideal) sums cnts := by
  unfold Cert.Spec.meanOf
  rw [max_column cnt2 cnts _ _ Cert.ReferenceIdeal.Facts₀.bcast_S_S512 Cert.ReferenceIdeal.Facts₀.bcast_S512_S512x1_0 hc]

/-- The node rows padded with 352 rows of the converted integer zero: the rows themselves, then zero. -/
theorem padRows_apply (H : FVec Ideal S100000x128 .f32)
    (hp : S100000x128.Pads (![0, 0] : Fin 2 → Nat) ![352, 0] ![0, 0] S100352x128) (hu : 0 < S_.numel)
    (n : Fin 100352) (d : Fin 128) :
    pad S100352x128 ![0, 0] ![352, 0] ![0, 0] H (sitofp .f32 (constantI S_ 32 0#32) : FVec Ideal S_ .f32) hp hu (ix2 n d)
      = if h : n.val < 100000 then H (ix2 (⟨n.val, h⟩ : Fin 100000) d) else 0 := by
  by_cases h : n.val < 100000
  · rw [dif_pos h]
    exact pad_apply_of_inside _ _ _ H _ hp hu _ (ix2 (⟨n.val, h⟩ : Fin 100000) d) (fun a => match a with
      | ⟨0, _⟩ => by show n.val = 0 + n.val * (0 + 1); omega
      | ⟨1, _⟩ => by show d.val = 0 + d.val * (0 + 1); omega)
  · rw [dif_neg h]
    refine (pad_apply_of_not_inside _ _ _ H _ hp hu _ (0 : Fin 2) (by
      show ¬(0 ≤ n.val ∧ (n.val - 0) % (0 + 1) = 0 ∧ (n.val - 0) / (0 + 1) < 100000)
      omega)).trans ?_
    exact sitofp_zero

/-- The ids padded with 352 copies of a word and laid out as one row: the ids themselves, then the word. -/
theorem padIds_apply (batch : IVec S100000 32) (v : IVec S_ 32)
    (hp : S100000.Pads (![0] : Fin 1 → Nat) ![352] ![0] S100352) (hu : 0 < S_.numel) (hc : S100352.ShapeCasts S1x100352)
    (n : Fin 100352) :
    shapeCast S1x100352 (pad S100352 ![0] ![352] ![0] batch v hp hu) hc (ix2 (0 : Fin 1) n)
      = if h : n.val < 100000 then batch (ix1 (⟨n.val, h⟩ : Fin 100000)) else v (Shape.Idx.first hu) := by
  rw [shapeCast_a_1a_apply]
  by_cases h : n.val < 100000
  · rw [dif_pos h]
    exact pad_apply_of_inside _ _ _ batch v hp hu _ (ix1 (⟨n.val, h⟩ : Fin 100000)) (fun a => match a with
      | ⟨0, _⟩ => by show n.val = 0 + n.val * (0 + 1); omega)
  · rw [dif_neg h]
    exact pad_apply_of_not_inside _ _ _ batch v hp hu _ (0 : Fin 1) (by
      show ¬(0 ≤ n.val ∧ (n.val - 0) % (0 + 1) = 0 ∧ (n.val - 0) / (0 + 1) < 100000)
      omega)

end Pieces

/-! ## The buffers the two kernels read, off the host stretches -/

/-- The rows the pool reads: the node embedding padded with 352 rows of the converted integer zero. -/
theorem v78_17 (c : Dev nD) :
    V17 (F := Ideal) m ρ c main_v78
      = pad S100352x128 ![0, 0] ![352, 0] ![0, 0] (W12 (F := Ideal) m ρ c (Proc.devRef .tc main_v77))
          (sitofp .f32 (constantI S_ 32 0#32) : FVec Ideal S_ .f32) pads_S100000x128_S100352x128_03520_000 h_S_ := by
  show StableHlo.after hostOps6_4 (StableHlo.after hostOps6_3 (StableHlo.after hostOps6_2 (StableHlo.after hostOps6_1
    (StableHlo.after hostOps6 (W12 (F := Ideal) m ρ c))))) (Proc.devRef .tc main_v78) = _
  after_results
  rfl

/-- The ids the pool reads: the graph ids padded with 352 copies of the word -1, laid out as one row. -/
theorem v80_17 (c : Dev nD) :
    V17 (F := Ideal) m ρ c main_v80
      = shapeCast S1x100352 (pad S100352 ![0] ![352] ![0] (m ((c.tc : Thread nD τ).loc main_arg2))
          (id (constantI S_ 32 4294967295#32)) pads_S100000_S100352_03520 h_S_) shapeCasts_S100352_S1x100352 := by
  show StableHlo.after hostOps6_4 (StableHlo.after hostOps6_3 (StableHlo.after hostOps6_2 (StableHlo.after hostOps6_1
    (StableHlo.after hostOps6 (W12 (F := Ideal) m ρ c))))) (Proc.devRef .tc main_v80) = _
  after_results
  rw [arg2_12]
  rfl

/-- The padded ids, entry by entry: the graph ids, then the word -1. -/
theorem ids_17 (c : Dev nD) (n : Fin 100352) :
    V17 (F := Ideal) m ρ c main_v80 (ix2 (0 : Fin 1) n)
      = if h : n.val < 100000 then m ((c.tc : Thread nD τ).loc main_arg2) (ix1 (⟨n.val, h⟩ : Fin 100000)) else 0xFFFFFFFF#32 := by
  rw [v80_17]
  exact padIds_apply _ _ _ _ _ n

/-- The sums the pool leaves are the segment sums of the node embedding. -/
theorem sums_18 (c : Dev nD) :
    W18 (F := Ideal) m ρ c (Proc.devRef .tc main_v81_0)
      = Cert.Spec.segmentSums (F := Ideal) (m ((c.tc : Thread nD τ).loc main_arg2))
          (W12 (F := Ideal) m ρ c (Proc.devRef .tc main_v77)) := by
  funext j
  obtain ⟨g, d, rfl⟩ : ∃ (g : Fin 512) (d : Fin 128), j = ix2 g d := ⟨j 0, j 1, eq_ix2 j⟩
  refine (congrFun (W18_arr (F := Ideal) m ρ c 2) (ix2 g d)).trans ?_
  refine (sums6 (V17 (F := Ideal) m ρ) c g d).trans ?_
  refine Cert.PoolMath.sums_eq _ _ _ _ (fun n d => ?_) (ids_17 m ρ c) g d
  rw [v78_17]
  exact padRows_apply _ _ _ n d

/-- The counts the pool leaves are the segment counts, entry by entry. -/
theorem counts_18 (c : Dev nD) (g : Fin 512) :
    W18 (F := Ideal) m ρ c (Proc.devRef .tc main_v81_1) (ix2 g (0 : Fin 1))
      = Cert.Spec.segmentCounts (F := Ideal) (m ((c.tc : Thread nD τ).loc main_arg2)) (ix1 g) := by
  refine (congrFun (W18_arr (F := Ideal) m ρ c 3) (ix2 g (0 : Fin 1))).trans ?_
  refine (counts6 (V17 (F := Ideal) m ρ) c g).trans ?_
  exact Cert.PoolMath.counts_eq _ _ (ids_17 m ρ c) g

/-- The pooled rows the classifier reads are the mean of the node embedding per graph. -/
theorem v85_19 (c : Dev nD) :
    V19 (F := Ideal) m ρ c main_v85
      = Cert.Spec.meanOf (F := Ideal)
          (Cert.Spec.segmentSums (F := Ideal) (m ((c.tc : Thread nD τ).loc main_arg2)) (W12 (F := Ideal) m ρ c (Proc.devRef .tc main_v77)))
          (Cert.Spec.segmentCounts (F := Ideal) (m ((c.tc : Thread nD τ).loc main_arg2))) := by
  refine Eq.trans ?_ (mean_eq (W18 (F := Ideal) m ρ c (Proc.devRef .tc main_v81_0)) (W18 (F := Ideal) m ρ c (Proc.devRef .tc main_v81_1)) _
    (counts_18 m ρ c) |>.trans (by rw [sums_18]))
  show StableHlo.after hostOps7 (W18 (F := Ideal) m ρ c) (Proc.devRef .tc main_v85) = _
  after_results

/-- The bias row the classifier reads: the bias broadcast along axis 1. -/
theorem v86_19 (c : Dev nD) :
    V19 (F := Ideal) m ρ c main_v86
      = broadcastInDim Cert.ReferenceIdeal.S1x10 ![1] Cert.ReferenceIdeal.Facts₀.bcast_S10_S1x10_1 (m ((c.tc : Thread nD τ).loc main_arg10)) := by
  refine Eq.trans ?_ (row_eq_bcast (m ((c.tc : Thread nD τ).loc main_arg10)) shapeCasts_S10_S1x10 _)
  show StableHlo.after hostOps7 (W18 (F := Ideal) m ρ c) (Proc.devRef .tc main_v86) = _
  after_results
  rw [arg10_18]
  rfl

/-- The weights the classifier reads are the argument's. -/
theorem arg9_V19 (c : Dev nD) : V19 (F := Ideal) m ρ c main_arg9 = m ((c.tc : Thread nD τ).loc main_arg9) := arg9_19 m ρ c

end TailPieces

open TailPieces

/-! ## The end of the program -/

theorem tail (c : Dev nD) :
    W20 (F := Ideal) m ρ c (Proc.devRef .tc main_v87)
      = Cert.Spec.logSoftmax (F := Ideal) (Cert.Spec.logits (F := Ideal)
          (Cert.Spec.meanOf (F := Ideal) (Cert.Spec.segmentSums (F := Ideal) (m ((c.tc : Thread nD τ).loc main_arg2)) (W12 (F := Ideal) m ρ c (Proc.devRef .tc main_v77)))
            (Cert.Spec.segmentCounts (F := Ideal) (m ((c.tc : Thread nD τ).loc main_arg2))))
          (m ((c.tc : Thread nD τ).loc main_arg9)) (m ((c.tc : Thread nD τ).loc main_arg10))) := by
  refine (W20_arr (F := Ideal) m ρ c 3).trans ?_
  rw [classify7 (V19 (F := Ideal) m ρ) c, v85_19, v86_19, arg9_V19]
  rfl

end Cert.KernelIdeal.Net

end
-- ==== Proof.KernelValue.lean ====
/-
  The kernel program's result as the specification's function of its arguments: the tail over the three layers.
-/
import proofs.«429457_j46608985096492_1_alg».proof.Proof.Gen.KernelIdeal.Frame
import proofs.«429457_j46608985096492_1_alg».proof.Proof.Spec
import proofs.«429457_j46608985096492_1_alg».proof.Proof.Layers
import proofs.«429457_j46608985096492_1_alg».proof.Proof.Tail
import Idealize.ShloMosaic.Lib.ValueIdx
import Idealize.ShloMosaic.Lib.Pipeline.Value
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The last boundary's contents at the result buffer are the network of the specification applied to the arguments. -/
theorem kernel_value (c : Dev nD) :
    W20 (F := Ideal) m ρ c (Proc.devRef .tc main_v87) = Cert.Spec.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [tail, layer3, layer2, layer1]
  rfl

end Cert.KernelIdeal.Net

end
-- ==== Proof.RefSide.lean ====
/-
  The reference program's side of the certificate: the composed term its run ends at is the specification's
  function of the arguments (the specification was written over the reference's own operations, so the two
  agree by unfolding the specification's definitions).
-/
import proofs.«429457_j46608985096492_1_alg».proof.Proof.RefRun
import proofs.«429457_j46608985096492_1_alg».proof.Proof.Spec

set_option maxRecDepth 16384

noncomputable section

namespace Cert.ReferenceIdeal.Net

open Idealize.ShloMosaic Idealize.ShloMosaic.TcCoe Idealize.SL.Sem
open Cert.ReferenceIdeal Cert.ReferenceIdeal.Gen

variable {F : FTy → Type} [FloatOps F]

/-- The reference's result is the network of the specification applied to its arguments, at any float instance. -/
theorem result_eq (m : (ℓ : Loc nD τ sig) → Buf (Elt F) ℓ) (c : Dev nD) :
    Cert.ReferenceIdeal.RunP.res_out0 (F := F) m c = Cert.Spec.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show Cert.ReferenceIdeal.RunP.res_main_v151 m c = _
  unfold Cert.ReferenceIdeal.RunP.res_main_v151 Cert.Spec.result Cert.Spec.logSoftmax Cert.Spec.shifted Cert.Spec.logits Cert.Spec.logitsRow
    Cert.Spec.meanOf Cert.Spec.segmentSums Cert.Spec.segmentCounts Cert.Spec.nodeEmbedding Cert.Spec.conv Cert.Spec.addBias Cert.Spec.addBiasRow
    Cert.Spec.relu Cert.Spec.linear Cert.Spec.aggregate Cert.Spec.aggregateW Cert.Spec.edgeWeight Cert.Spec.dinv Cert.Spec.degree
    Cert.Spec.wrap Cert.Spec.sources Cert.Spec.targets
  rfl

end Cert.ReferenceIdeal.Net

end
-- ==== Proof.lean ====
/-
  The certificate.  Both programs compute one function of their arguments at the extended reals: three graph
  convolutions  Â (x W) + b  (a relu after the first two), a mean pool per graph id, a linear classifier and a
  row-wise log-softmax.  The kernel program runs the dense products, the bias additions, the pool (as a one-hot
  matrix product accumulated over row blocks) and the classifier in kernels and the sparse aggregation on the
  host; the reference runs everything on the host.  The dense products agree because a change of float format
  is the identity here and a blocked product is the product; the pool agrees because multiplying by a 0/1
  indicator and adding is adding the selected rows, on every extended real; everything else is the same
  operations in the same order.  No finiteness of the inputs is used.
-/
import proofs.«429457_j46608985096492_1_alg».proof.Defs
import proofs.«429457_j46608985096492_1_alg».proof.Proof.Gen.Kernel
import proofs.«429457_j46608985096492_1_alg».proof.Proof.Gen.Kernel.Frame
import proofs.«429457_j46608985096492_1_alg».proof.Proof.Gen.KernelIdeal
import proofs.«429457_j46608985096492_1_alg».proof.Proof.Gen.KernelIdeal.Frame
import proofs.«429457_j46608985096492_1_alg».proof.Proof.Gen.ReferenceIdeal
import proofs.«429457_j46608985096492_1_alg».proof.Proof.RefRun
import proofs.«429457_j46608985096492_1_alg».proof.Proof.Gen.Pre_finite_inputs
import proofs.«429457_j46608985096492_1_alg».proof.Proof.KernelRun
import proofs.«429457_j46608985096492_1_alg».proof.Proof.KernelValue
import proofs.«429457_j46608985096492_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Run from memories that agree on the arguments, both idealized programs end with the specification's network
    of those arguments in their result buffers. -/
theorem algebraic : Cert.algebraic_KernelIdeal_ReferenceIdeal := by
  intro m ρ m' ρ' _ hagree
  refine ⟨fun c => Cert.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Net.kernel_value m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.RunP.run (F := Ideal) m' ρ')
    have e := Cert.ReferenceIdeal.Net.result_eq m' c
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2] at e
    exact e

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
